-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x32 : Shape := ⟨2, ![512, 32]⟩
abbrev S32 : Shape := ⟨1, ![32]⟩
abbrev S32x32 : Shape := ⟨2, ![32, 32]⟩
abbrev S512x256 : Shape := ⟨2, ![512, 256]⟩
abbrev S256 : Shape := ⟨1, ![256]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S256 .f32) (main_arg13 : FVec F S512x256 .f32) (main_arg14 : FVec F S256 .f32) (main_v48 : IVec S_ 1) (main_v49 : FVec F S512x256 .f32) (main_v50 : FVec F S512x256 .f32) : IVec S_ 1 :=
  let main_v51 : IVec S512x256 1 := cmpf .olt main_v49 main_v50
  let main_c_19 : IVec S_ 1 := constantI S_ 1 1#1
  let main_v52 : IVec S_ 1 := (fun x v => Host.reduce IntOp.andi x v reducesTo_S512x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S512x256 .f32 := Host.absf main_arg13
  let main_cst_22 : FVec F S_ .f32 := constant S_ .f32 0x7F800000#32
  let main_v60 : FVec F S512x256 .f32 := broadcastInDim S512x256 ![] bcast_S_S512x256 main_cst_22
  let main_v61 : IVec S512x256 1 := cmpf .olt main_v59 main_v60
  let main_c_23 : IVec S_ 1 := constantI S_ 1 1#1
  let main_v62 : IVec S_ 1 := (fun x v => Host.reduce IntOp.andi x v reducesTo_S512x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg8 : FVec F S32 .f32) (main_arg9 : FVec F S32x32 .f32) (main_arg10 : FVec F S32 .f32) (main_arg11 : FVec F S512x256 .f32) (main_arg12 : FVec F S256 .f32) (main_arg13 : FVec F S512x256 .f32) (main_arg14 : FVec F S256 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg9
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S512x256 .f32 := Host.absf main_arg11
  let main_cst_18 : FVec F S_ .f32 := constant S_ .f32 0x7F800000#32
  let main_v50 : FVec F S512x256 .f32 := broadcastInDim S512x256 ![] bcast_S_S512x256 main_cst_18
  fn_part3 (F := F) main_arg12 main_arg13 main_arg14 main_v48 main_v49 main_v50

def fn_part1 {F : FTy → Type} [FloatOps F] (main_arg5 : FVec F S32x32 .f32) (main_arg6 : FVec F S32 .f32) (main_arg7 : FVec F S512x32 .f32) (main_arg8 : FVec F S32 .f32) (main_arg9 : FVec F S32x32 .f32) (main_arg10 : FVec F S32 .f32) (main_arg11 : FVec F S512x256 .f32) (main_arg12 : FVec F S256 .f32) (main_arg13 : FVec F S512x256 .f32) (main_arg14 : FVec F S256 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S512x32 .f32 := Host.absf main_arg7
  let main_cst_10 : FVec F S_ .f32 := constant S_ .f32 0x7F800000#32
  let main_v30 : FVec F S512x32 .f32 := broadcastInDim S512x32 ![] bcast_S_S512x32 main_cst_10
  let main_v31 : IVec S512x32 1 := cmpf .olt main_v29 main_v30
  let main_c_11 : IVec S_ 1 := constantI S_ 1 1#1
  let main_v32 : IVec S_ 1 := (fun x v => Host.reduce IntOp.andi x v reducesTo_S512x32_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S8192x512 .f32) (main_arg1 : FVec F S8192x512 .f32) (main_arg2 : IVec S8192x8192 32) (main_arg3 : FVec F S512x32 .f32) (main_arg4 : FVec F S32 .f32) (main_arg5 : FVec F S32x32 .f32) (main_arg6 : FVec F S32 .f32) (main_arg7 : FVec F S512x32 .f32) (main_arg8 : FVec F S32 .f32) (main_arg9 : FVec F S32x32 .f32) (main_arg10 : FVec F S32 .f32) (main_arg11 : FVec F S512x256 .f32) (main_arg12 : FVec F S256 .f32) (main_arg13 : FVec F S512x256 .f32) (main_arg14 : FVec F S256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x32 .f32 := Host.absf main_arg3
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_arg13 main_arg14 main_v13 main_v16
-- ==== Kernel.lean ====
abbrev S8192x512 : Shape := ⟨2, ![8192, 512]⟩
abbrev S8192x8192 : Shape := ⟨2, ![8192, 8192]⟩
abbrev S512x32 : Shape := ⟨2, ![512, 32]⟩
abbrev S32 : Shape := ⟨1, ![32]⟩
abbrev S32x32 : Shape := ⟨2, ![32, 32]⟩
abbrev S512x256 : Shape := ⟨2, ![512, 256]⟩
abbrev S256 : Shape := ⟨1, ![256]⟩
abbrev S8192x32 : Shape := ⟨2, ![8192, 32]⟩
abbrev S1x32 : Shape := ⟨2, ![1, 32]⟩
abbrev S8192x256 : Shape := ⟨2, ![8192, 256]⟩
abbrev S1x256 : Shape := ⟨2, ![1, 256]⟩
abbrev S32x8192 : Shape := ⟨2, ![32, 8192]⟩
abbrev S2048x32 : Shape := ⟨2, ![2048, 32]⟩
abbrev S32x1024 : Shape := ⟨2, ![32, 1024]⟩
abbrev S1024x256 : Shape := ⟨2, ![1024, 256]⟩
abbrev S2048x1024 : Shape := ⟨2, ![2048, 1024]⟩
abbrev S2048x256 : Shape := ⟨2, ![2048, 256]⟩
abbrev S2048x512 : Shape := ⟨2, ![2048, 512]⟩
abbrev S2048x1 : Shape := ⟨2, ![2048, 1]⟩
abbrev S2048 : Shape := ⟨1, ![2048]⟩

abbrev nBuf : Space → Nat
  | .hbm => 43
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8192, .i32⟩
  | .hbm, ⟨3, _⟩ => ⟨S512x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S512x32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S512x256, .f32⟩
  | .hbm, ⟨12, _⟩ => ⟨S256, .f32⟩
  | .hbm, ⟨13, _⟩ => ⟨S512x256, .f32⟩
  | .hbm, ⟨14, _⟩ => ⟨S256, .f32⟩
  | .hbm, ⟨15, _⟩ => ⟨S8192x32, .f32⟩
  | .hbm, ⟨16, _⟩ => ⟨S1x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S1x32, .f32⟩
  | .hbm, ⟨22, _⟩ => ⟨S8192x32, .f32⟩
  | .hbm, ⟨23, _⟩ => ⟨S8192x32, .f32⟩
  | .hbm, ⟨24, _⟩ => ⟨S8192x256, .f32⟩
  | .hbm, ⟨25, _⟩ => ⟨S1x256, .f32⟩
  | .hbm, ⟨26, _⟩ => ⟨S8192x256, .f32⟩
  | .hbm, ⟨27, _⟩ => ⟨S8192x256, .f32⟩
  | .hbm, ⟨28, _⟩ => ⟨S8192x32, .f32⟩
  | .hbm, ⟨29, _⟩ => ⟨S1x32, .f32⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S1x32, .f32⟩
  | .hbm, ⟨35, _⟩ => ⟨S8192x32, .f32⟩
  | .hbm, ⟨36, _⟩ => ⟨S8192x32, .f32⟩
  | .hbm, ⟨37, _⟩ => ⟨S8192x256, .f32⟩
  | .hbm, ⟨38, _⟩ => ⟨S1x256, .f32⟩
  | .hbm, ⟨39, _⟩ => ⟨S8192x256, .f32⟩
  | .hbm, ⟨40, _⟩ => ⟨S8192x256, .f32⟩
  | .hbm, ⟨41, _⟩ => ⟨S32x8192, .f32⟩
  | .hbm, ⟨42, _⟩ => ⟨S8192x512, .f32⟩
  | .local _ .vmem, ⟨0, _⟩ => ⟨S2048x32, .f32⟩
  | .local _ .vmem, ⟨1, _⟩ => ⟨S2048x32, .f32⟩
  | .local _ .vmem, ⟨2, _⟩ => ⟨S32x1024, .f32⟩
  | .local _ .vmem, ⟨3, _⟩ => ⟨S32x1024, .f32⟩
  | .local _ .vmem, ⟨4, _⟩ => ⟨S1024x256, .f32⟩
  | .local _ .vmem, ⟨5, _⟩ => ⟨S1024x256, .f32⟩
  | .local _ .vmem, ⟨6, _⟩ => ⟨S2048x1024, .i32⟩
  | .local _ .vmem, ⟨7, _⟩ => ⟨S2048x1024, .i32⟩
  | .local _ .vmem, ⟨8, _⟩ => ⟨S2048x256, .f32⟩
  | .local _ .vmem, ⟨9, _⟩ => ⟨S2048x256, .f32⟩
  | .local _ .vmem, ⟨10, _⟩ => ⟨S2048x512, .f32⟩
  | .local _ .vmem, ⟨11, _⟩ => ⟨S2048x512, .f32⟩
  | .local _ .vmem, ⟨12, _⟩ => ⟨S2048x1, .f32⟩
  | .local _ .vmem, ⟨13, _⟩ => ⟨S2048x1, .f32⟩
  | .local _ .vmem, ⟨14, _⟩ => ⟨S2048x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c7_i32 : BitVec 32 := 7#32
  let v49 : BitVec 1 := Scalar.cmpi .eq arg1 c7_i32
  let v50 : BitVec 32 := Scalar.extui v49
  let c0_i32_29 : BitVec 32 := 0#32
  let v51 : BitVec 1 := Scalar.cmpi .ne v50 c0_i32_29
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S8192x32_S32x8192_1_0 : S8192x32.Transposes [1, 0] S32x8192
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x512_S2048x256_0_0 : ∀ a, (![0, 0] : Fin 2 → Nat) a + S2048x256.size a ≤ S2048x512.size a
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  broadcasts_S2048x1_S2048x1024 : S2048x1.Broadcasts S2048x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  broadcasts_S2048x1_S2048x256 : S2048x1.Broadcasts S2048x256
  inb_S2048x512_S2048x256_0_256 : ∀ a, (![0, 256] : Fin 2 → Nat) a + S2048x256.size a ≤ S2048x512.size a
  dot_S8192x512_S512x32_S8192x32_1_0_0_1_n_n_wf : DotDims.WF S8192x512 S512x32 S8192x32 [1] [0] [0] [1] [] []
  dot_S8192x32_S32x32_S8192x32_1_0_0_1_n_n_wf : DotDims.WF S8192x32 S32x32 S8192x32 [1] [0] [0] [1] [] []
  dot_S8192x512_S512x256_S8192x256_1_0_0_1_n_n_wf : DotDims.WF S8192x512 S512x256 S8192x256 [1] [0] [0] [1] [] []
  dot_S2048x32_S32x1024_S2048x1024_1_0_0_1_n_n_wf : DotDims.WF S2048x32 S32x1024 S2048x1024 [1] [0] [0] [1] [] []
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S8192x32.size a
  hwx0_0 : ∀ i : grid0.Coords, EltTy.bits .f32 = 32 ∨ (Rect.block (s := S8192x32) S2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1024.size a ≤ S32x8192.size a
  hwx0_1 : ∀ i : grid0.Coords, EltTy.bits .f32 = 32 ∨ (Rect.block (s := S32x8192) S32x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x8192.size a
  hwx0_3 : ∀ i : grid0.Coords, EltTy.bits .i32 = 32 ∨ (Rect.block (s := S8192x8192) S2048x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S8192x256.size a
  hwx0_4 : ∀ i : grid0.Coords, EltTy.bits .f32 = 32 ∨ (Rect.block (s := S8192x256) S2048x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S8192x512.size a
  hwx0_5 : ∀ i : grid0.Coords, EltTy.bits .f32 = 32 ∨ (Rect.block (s := S8192x512) S2048x512.size (cc0_transform_5 i) (hinb0_5 i)).WholeWords (EltTy.packing .f32)

variable [Facts₀]

def dot_S8192x512_S512x32_S8192x32_1_0_0_1_n_n : DotDims S8192x512 S512x32 S8192x32 where
  lhsContracting := [1]
  rhsContracting := [0]
  lhsNonContracting := [0]
  rhsNonContracting := [1]
  lhsBatch := []
  rhsBatch := []
  wf := dot_S8192x512_S512x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S2048x32_S32x1024_S2048x1024_1_0_0_1_n_n : DotDims S2048x32 S32x1024 S2048x1024 where
  lhsContracting := [1]
  rhsContracting := [0]
  lhsNonContracting := [0]
  rhsNonContracting := [1]
  lhsBatch := []
  rhsBatch := []
  wf := dot_S2048x32_S32x1024_S2048x1024_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_v21) S2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v27) S2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x32 : Shape := ⟨2, ![512, 32]⟩
abbrev S32 : Shape := ⟨1, ![32]⟩
abbrev S32x32 : Shape := ⟨2, ![32, 32]⟩
abbrev S512x256 : Shape := ⟨2, ![512, 256]⟩
abbrev S256 : Shape := ⟨1, ![256]⟩
abbrev S8192x32 : Shape := ⟨2, ![8192, 32]⟩
abbrev S1x32 : Shape := ⟨2, ![1, 32]⟩
abbrev S8192x256 : Shape := ⟨2, ![8192, 256]⟩
abbrev S1x256 : Shape := ⟨2, ![1, 256]⟩
abbrev S_ : Shape := ⟨0, ![]⟩
abbrev S8192 : Shape := ⟨1, ![8192]⟩
abbrev S8192x1 : Shape := ⟨2, ![8192, 1]⟩

abbrev nBuf : Space → Nat
  | .hbm => 72
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8192, .i32⟩
  | .hbm, ⟨3, _⟩ => ⟨S512x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S512x32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S512x256, .f32⟩
  | .hbm, ⟨12, _⟩ => ⟨S256, .f32⟩
  | .hbm, ⟨13, _⟩ => ⟨S512x256, .f32⟩
  | .hbm, ⟨14, _⟩ => ⟨S256, .f32⟩
  | .hbm, ⟨15, _⟩ => ⟨S8192x32, .f32⟩
  | .hbm, ⟨16, _⟩ => ⟨S1x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S1x32, .f32⟩
  | .hbm, ⟨22, _⟩ => ⟨S8192x32, .f32⟩
  | .hbm, ⟨23, _⟩ => ⟨S8192x32, .f32⟩
  | .hbm, ⟨24, _⟩ => ⟨S8192x256, .f32⟩
  | .hbm, ⟨25, _⟩ => ⟨S1x256, .f32⟩
  | .hbm, ⟨26, _⟩ => ⟨S8192x256, .f32⟩
  | .hbm, ⟨27, _⟩ => ⟨S8192x256, .f32⟩
  | .hbm, ⟨28, _⟩ => ⟨S8192x32, .f32⟩
  | .hbm, ⟨29, _⟩ => ⟨S1x32, .f32⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S1x32, .f32⟩
  | .hbm, ⟨35, _⟩ => ⟨S8192x32, .f32⟩
  | .hbm, ⟨36, _⟩ => ⟨S8192x32, .f32⟩
  | .hbm, ⟨37, _⟩ => ⟨S8192x8192, .f32⟩
  | .hbm, ⟨38, _⟩ => ⟨S_, .f32⟩
  | .hbm, ⟨39, _⟩ => ⟨S_, .f32⟩
  | .hbm, ⟨40, _⟩ => ⟨S8192x8192, .f32⟩
  | .hbm, ⟨41, _⟩ => ⟨S8192x8192, .i1⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .i32⟩
  | .hbm, ⟨47, _⟩ => ⟨S8192x8192, .i32⟩
  | .hbm, ⟨48, _⟩ => ⟨S8192x8192, .i1⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S8192x1, .f32⟩
  | .hbm, ⟨58, _⟩ => ⟨S8192x8192, .f32⟩
  | .hbm, ⟨59, _⟩ => ⟨S8192x8192, .f32⟩
  | .hbm, ⟨60, _⟩ => ⟨S8192x8192, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x8192, .f32⟩
  | .hbm, ⟨65, _⟩ => ⟨S8192x8192, .f32⟩
  | .hbm, ⟨66, _⟩ => ⟨S8192x256, .f32⟩
  | .hbm, ⟨67, _⟩ => ⟨S8192x256, .f32⟩
  | .hbm, ⟨68, _⟩ => ⟨S1x256, .f32⟩
  | .hbm, ⟨69, _⟩ => ⟨S8192x256, .f32⟩
  | .hbm, ⟨70, _⟩ => ⟨S8192x256, .f32⟩
  | .hbm, ⟨71, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v23 : Ref sig .tc := ⟨.hbm, 45, rfl⟩
abbrev main_c : Ref sig .tc := ⟨.hbm, 46, rfl⟩
abbrev main_v24 : Ref sig .tc := ⟨.hbm, 47, rfl⟩
abbrev main_v25 : Ref sig .tc := ⟨.hbm, 48, rfl⟩
abbrev main_cst_0 : Ref sig .tc := ⟨.hbm, 49, rfl⟩
abbrev main_call1_v0 : Ref sig .tc := ⟨.hbm, 50, rfl⟩
abbrev main_v26 : Ref sig .tc := ⟨.hbm, 51, rfl⟩
abbrev main_cst_1 : Ref sig .tc := ⟨.hbm, 52, rfl⟩
abbrev main_v27 : Ref sig .tc := ⟨.hbm, 53, rfl⟩
abbrev main_cst_2 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_3 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  concatenates_S8192x256_S8192x256_S8192x512_d1 : Shape.Concatenates [S8192x256, S8192x256] S8192x512 1
  dot_S8192x512_S512x32_S8192x32_1_0_0_1_n_n_wf : DotDims.WF S8192x512 S512x32 S8192x32 [1] [0] [0] [1] [] []
  dot_S8192x32_S32x32_S8192x32_1_0_0_1_n_n_wf : DotDims.WF S8192x32 S32x32 S8192x32 [1] [0] [0] [1] [] []
  dot_S8192x512_S512x256_S8192x256_1_0_0_1_n_n_wf : DotDims.WF S8192x512 S512x256 S8192x256 [1] [0] [0] [1] [] []
  dot_S8192x32_S8192x32_S8192x8192_1_1_0_0_n_n_wf : DotDims.WF S8192x32 S8192x32 S8192x8192 [1] [1] [0] [0] [] []
  dot_S8192x8192_S8192x256_S8192x256_1_0_0_1_n_n_wf : DotDims.WF S8192x8192 S8192x256 S8192x256 [1] [0] [0] [1] [] []

variable [Facts₀]

def dot_S8192x512_S512x32_S8192x32_1_0_0_1_n_n : DotDims S8192x512 S512x32 S8192x32 where
  lhsContracting := [1]
  rhsContracting := [0]
  lhsNonContracting := [0]
  rhsNonContracting := [1]
  lhsBatch := []
  rhsBatch := []
  wf := dot_S8192x512_S512x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x32_S8192x32_S8192x8192_1_1_0_0_n_n : DotDims S8192x32 S8192x32 S8192x8192 where
  lhsContracting := [1]
  rhsContracting := [1]
  lhsNonContracting := [0]
  rhsNonContracting := [0]
  lhsBatch := []
  rhsBatch := []
  wf := dot_S8192x32_S8192x32_S8192x8192_1_1_0_0_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.K.Conds.lean ====
/-
  The two branch conditions of the kernel body as propositions on a grid point, and their closed forms on the
  linear point number: the first branch is taken at the first key block of a query tile (`t % 8 = 0`), the
  second at the last (`t % 8 = 7`).
-/
import proofs.«426227_j46033459479181_3_alg».proof.Proof.Gen.Kernel.Frame
import proofs.«426227_j46033459479181_3_alg».proof.Proof.Gen.Kernel.Skeleton
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken: the key-block coordinate is 0. -/
abbrev condFirst (i : grid0.Coords) : Prop := k0_cond1 i = 1#1
/-- The body's second branch is taken: the key-block coordinate is 7. -/
abbrev condLast (i : grid0.Coords) : Prop := k0_cond2 i = 1#1

theorem condFirst_iff : ∀ t : Fin cfg0.N, condFirst (grid0.coords t) ↔ t.val % 8 = 0 :=
  (by decide +kernel : ∀ t : Fin grid0.N, condFirst (grid0.coords t) ↔ t.val % 8 = 0)
theorem condLast_iff : ∀ t : Fin cfg0.N, condLast (grid0.coords t) ↔ t.val % 8 = 7 :=
  (by decide +kernel : ∀ t : Fin grid0.N, condLast (grid0.coords t) ↔ t.val % 8 = 7)

end Cert.Kernel.Body

end
-- ==== Proof.K.RunA.lean ====
/-
  The kernel body run symbolically at a point that opens a query tile (first key block, not the last): the
  running maximum, normaliser and weighted sum are reset and then updated with the block, and the projected
  query rows are copied into the left half of the output block.
-/
import proofs.«426227_j46033459479181_3_alg».proof.Proof.K.Conds
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, on whole staging memrefs holding the point's input blocks `x0 … x4`, the scratch buffers anything
    and the output's buffer holding `y5`: it ends with the inputs as they were, each scratch buffer written with the
    listed pieces (last store first; they do not depend on `y5`) and the output's buffer written with its listed pieces —
    the lists are the witness the symbolic run finds. -/
noncomputable def runA (c : Dev nD) (i : grid0.Coords) (arg2 : Memref sig .tc .vmem S2048x32 .f32) (harg2 : arg2.IsWhole) (arg3 : Memref sig .tc .vmem S32x1024 .f32) (harg3 : arg3.IsWhole) (arg4 : Memref sig .tc .vmem S1024x256 .f32) (harg4 : arg4.IsWhole) (arg5 : Memref sig .tc .vmem S2048x1024 .i32) (harg5 : arg5.IsWhole) (arg6 : Memref sig .tc .vmem S2048x256 .f32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x256 .f32) (harg10 : arg10.IsWhole) (hc0 : condFirst i) (hc1 : ¬condLast i)
    (x0 : Vec F S2048x32 .f32) (x1 : Vec F S32x1024 .f32) (x2 : Vec F S1024x256 .f32) (x3 : Vec F S2048x1024 .i32) (x4 : Vec F S2048x256 .f32) :
    Σ' (LS0 : List (View.Piece (Elt F) S2048x1 .f32)), Σ' (LS1 : List (View.Piece (Elt F) S2048x1 .f32)), Σ' (LS2 : List (View.Piece (Elt F) S2048x256 .f32)), ∀ (y5 : Vec F S2048x512 .f32), { LO5 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread y5) LO5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__agg_kernel i arg2 harg2 arg3 harg3 arg4 harg4 arg5 harg5 arg6 harg6 arg7 harg7 arg8 harg8 arg9 harg9 arg10 harg10) K } := by
  refine ⟨?_, ?_, ?_, fun y5 => ⟨?_, fun E K => ?run⟩⟩
  case run =>
    simp only [cc0__agg_kernel_eq_skeleton]; unfold cc0__agg_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [HS0]; · iexists _; iexact HS0
    isplitl [HS1]; · iexists _; iexact HS1
    iexists _; iexact HS2

end Cert.Kernel.Body

end
-- ==== Proof.K.RunB.lean ====
/-
  The kernel body run symbolically at a point strictly inside a query tile's walk over the key blocks (neither
  the first block nor the last): the carried maximum, normaliser and weighted sum are updated with the block;
  the output block is not touched.
-/
import proofs.«426227_j46033459479181_3_alg».proof.Proof.K.RunA
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, on whole staging memrefs holding the point's input blocks `x0 … x4`, the three scratch buffers holding what the point before left (`xs0`, `xs1`, `xs2`)
    and the output's buffer holding `y5`: it ends with the inputs as they were, each scratch buffer written with the
    listed pieces (last store first; they do not depend on `y5`) and the output's buffer as it was —
    the lists are the witness the symbolic run finds. -/
noncomputable def runB (c : Dev nD) (i : grid0.Coords) (arg2 : Memref sig .tc .vmem S2048x32 .f32) (harg2 : arg2.IsWhole) (arg3 : Memref sig .tc .vmem S32x1024 .f32) (harg3 : arg3.IsWhole) (arg4 : Memref sig .tc .vmem S1024x256 .f32) (harg4 : arg4.IsWhole) (arg5 : Memref sig .tc .vmem S2048x1024 .i32) (harg5 : arg5.IsWhole) (arg6 : Memref sig .tc .vmem S2048x256 .f32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x256 .f32) (harg10 : arg10.IsWhole) (hc0 : ¬condFirst i) (hc1 : ¬condLast i)
    (x0 : Vec F S2048x32 .f32) (x1 : Vec F S32x1024 .f32) (x2 : Vec F S1024x256 .f32) (x3 : Vec F S2048x1024 .i32) (x4 : Vec F S2048x256 .f32) (xs0 : Vec F S2048x1 .f32) (xs1 : Vec F S2048x1 .f32) (xs2 : Vec F S2048x256 .f32) :
    Σ' (LS0 : List (View.Piece (Elt F) S2048x1 .f32)), Σ' (LS1 : List (View.Piece (Elt F) S2048x1 .f32)), Σ' (LS2 : List (View.Piece (Elt F) S2048x256 .f32)), ∀ (y5 : Vec F S2048x512 .f32),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__agg_kernel i arg2 harg2 arg3 harg3 arg4 harg4 arg5 harg5 arg6 harg6 arg7 harg7 arg8 harg8 arg9 harg9 arg10 harg10) K := by
  refine ⟨?_, ?_, ?_, fun y5 E K => ?run⟩
  case run =>
    simp only [cc0__agg_kernel_eq_skeleton]; unfold cc0__agg_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Body

end
-- ==== Proof.K.RunC.lean ====
/-
  The kernel body run symbolically at the point that closes a query tile (last key block): the carried state is
  updated with the block and the quotient of the weighted sum by the normaliser is stored into the right half of
  the output block.
-/
import proofs.«426227_j46033459479181_3_alg».proof.Proof.K.RunB
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, on whole staging memrefs holding the point's input blocks `x0 … x4`, the three scratch buffers holding what the point before left (`xs0`, `xs1`, `xs2`)
    and the output's buffer holding `y5`: it ends with the inputs as they were, each scratch buffer written with the
    listed pieces (last store first; they do not depend on `y5`) and the output's buffer written with its listed pieces —
    the lists are the witness the symbolic run finds. -/
noncomputable def runC (c : Dev nD) (i : grid0.Coords) (arg2 : Memref sig .tc .vmem S2048x32 .f32) (harg2 : arg2.IsWhole) (arg3 : Memref sig .tc .vmem S32x1024 .f32) (harg3 : arg3.IsWhole) (arg4 : Memref sig .tc .vmem S1024x256 .f32) (harg4 : arg4.IsWhole) (arg5 : Memref sig .tc .vmem S2048x1024 .i32) (harg5 : arg5.IsWhole) (arg6 : Memref sig .tc .vmem S2048x256 .f32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x256 .f32) (harg10 : arg10.IsWhole) (hc0 : ¬condFirst i) (hc1 : condLast i)
    (x0 : Vec F S2048x32 .f32) (x1 : Vec F S32x1024 .f32) (x2 : Vec F S1024x256 .f32) (x3 : Vec F S2048x1024 .i32) (x4 : Vec F S2048x256 .f32) (xs0 : Vec F S2048x1 .f32) (xs1 : Vec F S2048x1 .f32) (xs2 : Vec F S2048x256 .f32) :
    Σ' (LS0 : List (View.Piece (Elt F) S2048x1 .f32)), Σ' (LS1 : List (View.Piece (Elt F) S2048x1 .f32)), Σ' (LS2 : List (View.Piece (Elt F) S2048x256 .f32)), ∀ (y5 : Vec F S2048x512 .f32), { LO5 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread y5) LO5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__agg_kernel i arg2 harg2 arg3 harg3 arg4 harg4 arg5 harg5 arg6 harg6 arg7 harg7 arg8 harg8 arg9 harg9 arg10 harg10) K } := by
  refine ⟨?_, ?_, ?_, fun y5 => ⟨?_, fun E K => ?run⟩⟩
  case run =>
    simp only [cc0__agg_kernel_eq_skeleton]; unfold cc0__agg_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [HS0]; · iexists _; iexact HS0
    isplitl [HS1]; · iexists _; iexact HS1
    iexists _; iexact HS2

end Cert.Kernel.Body

end
-- ==== Proof.K.Pieces.lean ====
/-
  The three runs of the body placed at a grid point: on the point's staging memrefs and the three scratch memrefs, with
  the point's input blocks. For each case: what it leaves in the three scratch buffers (the running maximum, normaliser
  and weighted sum of the query tile) and in the output block, each as the read-back of the pieces the run stored;
  and the carried state after each point of the grid, by recursion on the point: a point that opens a query tile
  computes it from the blocks alone, every other point from the blocks and what the point before left.
-/
import proofs.«426227_j46033459479181_3_alg».proof.Proof.K.RunC
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The staging memrefs the body is handed at point `t`, window by window, and that they are whole buffers. -/
abbrev ms0 (t : Fin cfg0.N) : Memref sig .tc .vmem S2048x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x512 .f32 := win0_5.stage (cfg0.slots t 5)
abbrev hs5 (t : Fin cfg0.N) : (ms5 t).IsWhole := hstage0_5 ((cfg0.slots t 5).cast nbuf0_5)

/-- The three scratch memrefs: the running maximum, the normaliser, the weighted sum. -/
abbrev scM0 : Memref sig .tc .vmem S2048x1 .f32 := Memref.whole cc0_scratch0
abbrev scM1 : Memref sig .tc .vmem S2048x1 .f32 := Memref.whole cc0_scratch1
abbrev scM2 : Memref sig .tc .vmem S2048x256 .f32 := Memref.whole cc0_scratch2

/-- What the three scratch buffers hold: maximum, normaliser, weighted sum of a query tile. -/
abbrev Sc (F : FTy → Type) [FloatOps F] : Type := Vec F S2048x1 .f32 × Vec F S2048x1 .f32 × Vec F S2048x256 .f32

/-- The run of a point that opens a query tile, at the point's memrefs and blocks. -/
noncomputable def atA (c : Dev nD) (t : Fin cfg0.N) (h0 : t.val % 8 = 0) (h1 : ¬t.val % 8 = 7) :=
  runA (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) ((condFirst_iff t).mpr h0) (fun h => h1 ((condLast_iff t).mp h)) (iblk m c 0 t) (iblk m c 1 t) (iblk m c 2 t) (iblk m c 3 t) (iblk m c 4 t)

/-- The run of a point inside a query tile's walk, over what the point before left in the scratch buffers. -/
noncomputable def atB (c : Dev nD) (t : Fin cfg0.N) (h0 : ¬t.val % 8 = 0) (h1 : ¬t.val % 8 = 7) (xs : Sc F) :=
  runB (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (fun h => h0 ((condFirst_iff t).mp h)) (fun h => h1 ((condLast_iff t).mp h)) (iblk m c 0 t) (iblk m c 1 t) (iblk m c 2 t) (iblk m c 3 t) (iblk m c 4 t) xs.1 xs.2.1 xs.2.2

/-- The run of the point that closes a query tile, over what the point before left in the scratch buffers. -/
noncomputable def atC (c : Dev nD) (t : Fin cfg0.N) (h0 : ¬t.val % 8 = 0) (h1 : t.val % 8 = 7) (xs : Sc F) :=
  runC (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (fun h => h0 ((condFirst_iff t).mp h)) ((condLast_iff t).mpr h1) (iblk m c 0 t) (iblk m c 1 t) (iblk m c 2 t) (iblk m c 3 t) (iblk m c 4 t) xs.1 xs.2.1 xs.2.2

/-- A scratch buffer's contents after a run's stores: its pieces read back (they cover it, so over anything). -/
noncomputable def rb1 (M : Memref sig .tc .vmem S2048x1 .f32) (L : List (View.Piece (Elt F) S2048x1 .f32)) : Vec F S2048x1 .f32 :=
  M.view.read (Elt F) (M.view.writes (Elt F) M.view.junk L)
noncomputable def rb2 (M : Memref sig .tc .vmem S2048x256 .f32) (L : List (View.Piece (Elt F) S2048x256 .f32)) : Vec F S2048x256 .f32 :=
  M.view.read (Elt F) (M.view.writes (Elt F) M.view.junk L)

/-- What each case leaves in the three scratch buffers. -/
noncomputable def scA (c : Dev nD) (t : Fin cfg0.N) (h0 : t.val % 8 = 0) (h1 : ¬t.val % 8 = 7) : Sc F :=
  (rb1 scM0 (atA m c t h0 h1).1, rb1 scM1 (atA m c t h0 h1).2.1, rb2 scM2 (atA m c t h0 h1).2.2.1)
noncomputable def scB (c : Dev nD) (t : Fin cfg0.N) (h0 : ¬t.val % 8 = 0) (h1 : ¬t.val % 8 = 7) (xs : Sc F) : Sc F :=
  (rb1 scM0 (atB m c t h0 h1 xs).1, rb1 scM1 (atB m c t h0 h1 xs).2.1, rb2 scM2 (atB m c t h0 h1 xs).2.2.1)
noncomputable def scC (c : Dev nD) (t : Fin cfg0.N) (h0 : ¬t.val % 8 = 0) (h1 : t.val % 8 = 7) (xs : Sc F) : Sc F :=
  (rb1 scM0 (atC m c t h0 h1 xs).1, rb1 scM1 (atC m c t h0 h1 xs).2.1, rb2 scM2 (atC m c t h0 h1 xs).2.2.1)

/-- What the opening point leaves in the output block that held `y5`: its pieces written over `y5`. -/
noncomputable def outA (c : Dev nD) (t : Fin cfg0.N) (h0 : t.val % 8 = 0) (h1 : ¬t.val % 8 = 7) (y5 : Vec F S2048x512 .f32) : Vec F S2048x512 .f32 :=
  (ms5 t).view.read (Elt F) ((ms5 t).view.writes (Elt F) ((hs5 t).unread y5) ((atA m c t h0 h1).2.2.2 y5).1)
/-- What the closing point leaves in the output block that held `y5`. -/
noncomputable def outC (c : Dev nD) (t : Fin cfg0.N) (h0 : ¬t.val % 8 = 0) (h1 : t.val % 8 = 7) (xs : Sc F) (y5 : Vec F S2048x512 .f32) : Vec F S2048x512 .f32 :=
  (ms5 t).view.read (Elt F) ((ms5 t).view.writes (Elt F) ((hs5 t).unread y5) ((atC m c t h0 h1 xs).2.2.2 y5).1)

/-- The pieces each case stores into a scratch buffer tile it. -/
theorem coverA0 (c : Dev nD) (t : Fin cfg0.N) (h0 : t.val % 8 = 0) (h1 : ¬t.val % 8 = 7) (y : S2048x1.Idx) : ∃ pc ∈ (atA m c t h0 h1).1, y ∈ pc.1.set :=
  View.cover_of_tiledL (atA m c t h0 h1).1 S2048x1.size (by unfold atA; sl_kernel_rfl) y
theorem coverA1 (c : Dev nD) (t : Fin cfg0.N) (h0 : t.val % 8 = 0) (h1 : ¬t.val % 8 = 7) (y : S2048x1.Idx) : ∃ pc ∈ (atA m c t h0 h1).2.1, y ∈ pc.1.set :=
  View.cover_of_tiledL (atA m c t h0 h1).2.1 S2048x1.size (by unfold atA; sl_kernel_rfl) y
theorem coverA2 (c : Dev nD) (t : Fin cfg0.N) (h0 : t.val % 8 = 0) (h1 : ¬t.val % 8 = 7) (y : S2048x256.Idx) : ∃ pc ∈ (atA m c t h0 h1).2.2.1, y ∈ pc.1.set :=
  View.cover_of_tiledL (atA m c t h0 h1).2.2.1 S2048x256.size (by unfold atA; sl_kernel_rfl) y
theorem coverB0 (c : Dev nD) (t : Fin cfg0.N) (h0 : ¬t.val % 8 = 0) (h1 : ¬t.val % 8 = 7) (xs : Sc F) (y : S2048x1.Idx) : ∃ pc ∈ (atB m c t h0 h1 xs).1, y ∈ pc.1.set :=
  View.cover_of_tiledL (atB m c t h0 h1 xs).1 S2048x1.size (by unfold atB; sl_kernel_rfl) y
theorem coverB1 (c : Dev nD) (t : Fin cfg0.N) (h0 : ¬t.val % 8 = 0) (h1 : ¬t.val % 8 = 7) (xs : Sc F) (y : S2048x1.Idx) : ∃ pc ∈ (atB m c t h0 h1 xs).2.1, y ∈ pc.1.set :=
  View.cover_of_tiledL (atB m c t h0 h1 xs).2.1 S2048x1.size (by unfold atB; sl_kernel_rfl) y
theorem coverB2 (c : Dev nD) (t : Fin cfg0.N) (h0 : ¬t.val % 8 = 0) (h1 : ¬t.val % 8 = 7) (xs : Sc F) (y : S2048x256.Idx) : ∃ pc ∈ (atB m c t h0 h1 xs).2.2.1, y ∈ pc.1.set :=
  View.cover_of_tiledL (atB m c t h0 h1 xs).2.2.1 S2048x256.size (by unfold atB; sl_kernel_rfl) y
theorem coverC0 (c : Dev nD) (t : Fin cfg0.N) (h0 : ¬t.val % 8 = 0) (h1 : t.val % 8 = 7) (xs : Sc F) (y : S2048x1.Idx) : ∃ pc ∈ (atC m c t h0 h1 xs).1, y ∈ pc.1.set :=
  View.cover_of_tiledL (atC m c t h0 h1 xs).1 S2048x1.size (by unfold atC; sl_kernel_rfl) y
theorem coverC1 (c : Dev nD) (t : Fin cfg0.N) (h0 : ¬t.val % 8 = 0) (h1 : t.val % 8 = 7) (xs : Sc F) (y : S2048x1.Idx) : ∃ pc ∈ (atC m c t h0 h1 xs).2.1, y ∈ pc.1.set :=
  View.cover_of_tiledL (atC m c t h0 h1 xs).2.1 S2048x1.size (by unfold atC; sl_kernel_rfl) y
theorem coverC2 (c : Dev nD) (t : Fin cfg0.N) (h0 : ¬t.val % 8 = 0) (h1 : t.val % 8 = 7) (xs : Sc F) (y : S2048x256.Idx) : ∃ pc ∈ (atC m c t h0 h1 xs).2.2.1, y ∈ pc.1.set :=
  View.cover_of_tiledL (atC m c t h0 h1 xs).2.2.1 S2048x256.size (by unfold atC; sl_kernel_rfl) y

/-- The carried state after the body at point `n`: the opening point of a tile from its blocks alone, every other
    point from its blocks and what the point before left. -/
noncomputable def scAt (c : Dev nD) : (n : ℕ) → n < cfg0.N → Sc F
  | 0, hn => scA m c ⟨0, hn⟩ (Nat.zero_mod _) (by show ¬(0 % 8 = 7); decide)
  | n + 1, hn =>
    if h0 : (n + 1) % 8 = 0 then scA m c ⟨n + 1, hn⟩ h0 (by show ¬((n + 1) % 8 = 7); omega)
    else if h1 : (n + 1) % 8 = 7 then scC m c ⟨n + 1, hn⟩ h0 h1 (scAt c n (Nat.lt_of_succ_lt hn))
    else scB m c ⟨n + 1, hn⟩ h0 h1 (scAt c n (Nat.lt_of_succ_lt hn))

theorem scAt_A (c : Dev nD) (t : Fin cfg0.N) (h0 : t.val % 8 = 0) (h1 : ¬t.val % 8 = 7) :
    scAt m c t.val t.isLt = scA m c t h0 h1 := by
  obtain ⟨n, hn⟩ := t
  cases n with
  | zero => rfl
  | succ n => exact (dif_pos h0).trans rfl

theorem scAt_B (c : Dev nD) (t : Fin cfg0.N) (h0 : ¬t.val % 8 = 0) (h1 : ¬t.val % 8 = 7) :
    scAt m c t.val t.isLt = scB m c t h0 h1 (scAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem scAt_C (c : Dev nD) (t : Fin cfg0.N) (h0 : ¬t.val % 8 = 0) (h1 : t.val % 8 = 7) :
    scAt m c t.val t.isLt = scC m c t h0 h1 (scAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

end Cert.Kernel.Body

end
-- ==== Proof.K.Data.lean ====
/-
  The proof data of the one pipeline, stated relationally, and the body obligation. An input window's staging buffer is
  left as the body found it (so it always holds the window's block at the point). The output window's block is related
  to what the body found there: the opening point of a query tile overwrites its left half with the projected query
  rows, the closing point its right half with the quotient of the weighted sum by the normaliser, every other point
  leaves it alone. Between points the three scratch buffers hold the carried state of the tile.
-/
import proofs.«426227_j46033459479181_3_alg».proof.Proof.K.Pieces
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block after the body at point `t` (`X`) against the block the body found (`Y`). -/
def rel5 (c : Dev nD) (t : Fin cfg0.N) (Y X : Vec F S2048x512 .f32) : Prop :=
  if h0 : t.val % 8 = 0 then X = outA m c t h0 (by omega) Y
  else if h1 : t.val % 8 = 7 then X = outC m c t h0 h1 (scAt m c (t.val - 1) (Nat.lt_of_le_of_lt (Nat.sub_le _ _) t.isLt)) Y
  else X = Y

/-- The invariant before point `n`: before the first point the scratch buffers hold anything; afterwards what the
    point before left (the generator register at some state throughout). -/
def PhiS (c : Dev nD) : (n : ℕ) → n ≤ cfg0.N → sProp 𝕄
  | 0, _ => Pipeline.ΦA spec0 c
  | n + 1, hn => iprop(iprop(owns (c : Thread nD τ) scM0 fullShare ((scAt m c n hn).1) ∗ owns (c : Thread nD τ) scM1 fullShare ((scAt m c n hn).2.1) ∗ owns (c : Thread nD τ) scM2 fullShare ((scAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((scAt m c n hn).1) ∗ owns (c : Thread nD τ) scM1 fullShare ((scAt m c n hn).2.1) ∗ owns (c : Thread nD τ) scM2 fullShare ((scAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM0 fullShare ((scAt m c (n - 1) (by omega)).1) ∗ owns (c : Thread nD τ) scM1 fullShare ((scAt m c (n - 1) (by omega)).2.1) ∗ owns (c : Thread nD τ) scM2 fullShare ((scAt m c (n - 1) (by omega)).2.2)) ∗ (∃ r, prngReg c r)) := by
  cases n with
  | zero => exact absurd rfl hz
  | succ n => rfl

/-- The region's invariant with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- The relational proof data on core `c`. -/
def rdat (c : Dev nD) : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => rel5 m c t Y X
  Φ t := PhiS m c t.val (Nat.le_of_lt_succ t.isLt)
  q _ := fullShare
  owed _ := 0

theorem A_eq (c : Dev nD) (w : Fin cfg0.W) : (rdat m c).A w = V m c (Pipeline.arrRef spec0 w) := by
  dsimp only [rdat]

theorem PhiS_castSucc (c : Dev nD) (t : Fin cfg0.N) :
    (rdat m c).Φ t.castSucc = PhiS m c t.val (Nat.le_of_lt t.isLt) := by
  dsimp only [rdat]; simp only [Fin.coe_castSucc]

/-- An input window's staging buffer holds the window's block at every point, fetched there or not. -/
theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  rw [hd]; unfold Pipeline.RDat.fetched Pipeline.RDat.blockOf iblk; rw [A_eq]; try rfl
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  rw [hd]; unfold Pipeline.RDat.fetched Pipeline.RDat.blockOf iblk; rw [A_eq]; try rfl
theorem finds2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  rw [hd]; unfold Pipeline.RDat.fetched Pipeline.RDat.blockOf iblk; rw [A_eq]; try rfl
theorem finds3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  rw [hd]; unfold Pipeline.RDat.fetched Pipeline.RDat.blockOf iblk; rw [A_eq]; try rfl
theorem finds4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  rw [hd]; unfold Pipeline.RDat.fetched Pipeline.RDat.blockOf iblk; rw [A_eq]; try rfl

/-- What the body is called with at point `t`, the output block at `y5`, -/
def bodyPre (c : Dev nD) (t : Fin cfg0.N) (y5 : Vec F S2048x512 .f32) : sProp 𝕄 :=
  iprop((rdat m c).Φ t.castSucc ∗ (rdat m c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare y5)

/-- and what it returns. -/
def bodyPost (c : Dev nD) (t : Fin cfg0.N) (y5 : Vec F S2048x512 .f32) : sProp 𝕄 :=
  iprop((rdat m c).Φ t.succ ∗ (rdat m c).owesAt () t.succ
    ∗ (∃ X, ⌜X = iblk m c 0 t⌝ ∗ owns (c : Thread nD τ) (ms0 t) fullShare X)
    ∗ (∃ X, ⌜X = iblk m c 1 t⌝ ∗ owns (c : Thread nD τ) (ms1 t) fullShare X)
    ∗ (∃ X, ⌜X = iblk m c 2 t⌝ ∗ owns (c : Thread nD τ) (ms2 t) fullShare X)
    ∗ (∃ X, ⌜X = iblk m c 3 t⌝ ∗ owns (c : Thread nD τ) (ms3 t) fullShare X)
    ∗ (∃ X, ⌜X = iblk m c 4 t⌝ ∗ owns (c : Thread nD τ) (ms4 t) fullShare X)
    ∗ (∃ X, ⌜rel5 m c t y5 X⌝ ∗ owns (c : Thread nD τ) (ms5 t) fullShare X))

set_option maxHeartbeats 9600000 in
/-- The body at any point: the point's residue modulo eight says which case it is in; the invariant hands the run the
    scratch buffers at what the point before left (at anything before the first point) and takes them back at this
    point's carried state; the output block comes back in the case's relation to what was found. -/
theorem sound_body (c : Dev nD) (t : Fin cfg0.N) (y5 : Vec F S2048x512 .f32) :
    bodyPre m c t y5 ⊢ wp frame (wpE (defs₀ (F := F)) Variants.none c none) Set.univ (bodyAt0 t) (fun _ => bodyPost m c t y5) := by
  unfold bodyPre bodyPost bodyAt0
  rw [show (rdat m c).owesAt () t.succ = (rdat m c).owesAt () t.castSucc from rfl]
  rw [show (rdat m c).Φ t.succ = PhiS m c (t.val + 1) t.isLt from rfl, PhiS_succ]
  have hN : t.val < 32 := lt_of_lt_of_eq t.isLt (show cfg0.N = 32 from N_0)
  by_cases h0 : t.val % 8 = 0
  · have h1 : ¬t.val % 8 = 7 := by omega
    rw [scAt_A m c t h0 h1]
    unfold scA rb1 rb2; (try dsimp only)
    by_cases hz : t.val = 0
    · rw [PhiS_castSucc m c t, PhiS_zero m c _ _ hz, PhiA_eq]
      iintro ⟨⟨⟨HS0, HS1, HS2⟩, Hg⟩, Ho, H0, H1, H2, H3, H4, H5⟩
      iapply (((atA m c t h0 h1).2.2.2 y5).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverA0 m c t h0 h1)
          isplitl [HS1]
          · unfold owns; iexists _; isplitr
            swap; · iexact HS1
            ipureintro; exact View.read_writes_of_cover _ _ _ _ _ (coverA1 m c t h0 h1)
          unfold owns; iexists _; isplitr
          swap; · iexact HS2
          ipureintro; exact View.read_writes_of_cover _ _ _ _ _ (coverA2 m c t h0 h1)
        iexact Hg
      isplitl [Ho]; · iexact Ho
      isplitl [H0]
      · iexists _; isplitr
        · ipureintro; rfl
        · iexact H0
      isplitl [H1]
      · iexists _; isplitr
        · ipureintro; rfl
        · iexact H1
      isplitl [H2]
      · iexists _; isplitr
        · ipureintro; rfl
        · iexact H2
      isplitl [H3]
      · iexists _; isplitr
        · ipureintro; rfl
        · iexact H3
      isplitl [H4]
      · iexists _; isplitr
        · ipureintro; rfl
        · iexact H4
      iexists _; isplitr
      swap
      · unfold owns; iexists _; isplitr
        swap; · iexact H5
        ipureintro; rfl
      ipureintro; unfold rel5; rw [dif_pos h0]; rfl
    · rw [PhiS_castSucc m c t, PhiS_pos m c _ _ hz]
      iintro ⟨⟨⟨HS0, HS1, HS2⟩, Hg⟩, Ho, H0, H1, H2, H3, H4, H5⟩
      iapply (((atA m c t h0 h1).2.2.2 y5).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverA0 m c t h0 h1)
          isplitl [HS1]
          · unfold owns; iexists _; isplitr
            swap; · iexact HS1
            ipureintro; exact View.read_writes_of_cover _ _ _ _ _ (coverA1 m c t h0 h1)
          unfold owns; iexists _; isplitr
          swap; · iexact HS2
          ipureintro; exact View.read_writes_of_cover _ _ _ _ _ (coverA2 m c t h0 h1)
        iexact Hg
      isplitl [Ho]; · iexact Ho
      isplitl [H0]
      · iexists _; isplitr
        · ipureintro; rfl
        · iexact H0
      isplitl [H1]
      · iexists _; isplitr
        · ipureintro; rfl
        · iexact H1
      isplitl [H2]
      · iexists _; isplitr
        · ipureintro; rfl
        · iexact H2
      isplitl [H3]
      · iexists _; isplitr
        · ipureintro; rfl
        · iexact H3
      isplitl [H4]
      · iexists _; isplitr
        · ipureintro; rfl
        · iexact H4
      iexists _; isplitr
      swap
      · unfold owns; iexists _; isplitr
        swap; · iexact H5
        ipureintro; rfl
      ipureintro; unfold rel5; rw [dif_pos h0]; rfl
  · have hz : t.val ≠ 0 := fun h => h0 (by rw [h])
    by_cases h1 : t.val % 8 = 7
    · rw [scAt_C m c t h0 h1]
      unfold scC rb1 rb2; (try dsimp only)
      rw [PhiS_castSucc m c t, PhiS_pos m c _ _ hz]
      iintro ⟨⟨⟨HS0, HS1, HS2⟩, Hg⟩, Ho, H0, H1, H2, H3, H4, H5⟩
      iapply (((atC m c t h0 h1 _).2.2.2 y5).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverC0 m c t h0 h1 _)
          isplitl [HS1]
          · unfold owns; iexists _; isplitr
            swap; · iexact HS1
            ipureintro; exact View.read_writes_of_cover _ _ _ _ _ (coverC1 m c t h0 h1 _)
          unfold owns; iexists _; isplitr
          swap; · iexact HS2
          ipureintro; exact View.read_writes_of_cover _ _ _ _ _ (coverC2 m c t h0 h1 _)
        iexact Hg
      isplitl [Ho]; · iexact Ho
      isplitl [H0]
      · iexists _; isplitr
        · ipureintro; rfl
        · iexact H0
      isplitl [H1]
      · iexists _; isplitr
        · ipureintro; rfl
        · iexact H1
      isplitl [H2]
      · iexists _; isplitr
        · ipureintro; rfl
        · iexact H2
      isplitl [H3]
      · iexists _; isplitr
        · ipureintro; rfl
        · iexact H3
      isplitl [H4]
      · iexists _; isplitr
        · ipureintro; rfl
        · iexact H4
      iexists _; isplitr
      swap
      · unfold owns; iexists _; isplitr
        swap; · iexact H5
        ipureintro; rfl
      ipureintro; unfold rel5; rw [dif_neg h0, dif_pos h1]; rfl
    · rw [scAt_B m c t h0 h1]
      unfold scB rb1 rb2; (try dsimp only)
      rw [PhiS_castSucc m c t, PhiS_pos m c _ _ hz]
      iintro ⟨⟨⟨HS0, HS1, HS2⟩, Hg⟩, Ho, H0, H1, H2, H3, H4, H5⟩
      iapply ((atB m c t h0 h1 _).2.2.2 y5 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverB0 m c t h0 h1 _)
          isplitl [HS1]
          · unfold owns; iexists _; isplitr
            swap; · iexact HS1
            ipureintro; exact View.read_writes_of_cover _ _ _ _ _ (coverB1 m c t h0 h1 _)
          unfold owns; iexists _; isplitr
          swap; · iexact HS2
          ipureintro; exact View.read_writes_of_cover _ _ _ _ _ (coverB2 m c t h0 h1 _)
        iexact Hg
      isplitl [Ho]; · iexact Ho
      isplitl [H0]
      · iexists _; isplitr
        · ipureintro; rfl
        · iexact H0
      isplitl [H1]
      · iexists _; isplitr
        · ipureintro; rfl
        · iexact H1
      isplitl [H2]
      · iexists _; isplitr
        · ipureintro; rfl
        · iexact H2
      isplitl [H3]
      · iexists _; isplitr
        · ipureintro; rfl
        · iexact H3
      isplitl [H4]
      · iexists _; isplitr
        · ipureintro; rfl
        · iexact H4
      iexists _; isplitr
      · ipureintro; unfold rel5; rw [dif_neg h0, dif_neg h1]
      · iexact H5

/-- The body obligation of the relational proof data, at every point. -/
theorem body_obligation (c : Dev nD) : (rdat (F := F) m c).BodyObligation (defs₀ (F := F)) Variants.none () Set.univ := fun t Y hY => by
  rw [bigSep_W0, bigSep_W0]
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  rw [e0, e1, e2, e3, e4]
  exact sound_body m c t (Y 5)

/-- What the launch hands the region is the invariant before the first point. -/
theorem hin (c : Dev nD) : Pipeline.ΦA spec0 c ⊢ (rdat m c).Φ 0 := by
  rw [show (rdat m c).Φ 0 = PhiS m c 0 (Nat.zero_le _) from rfl, PhiS_zero m c 0 _ rfl]
  try exact Idealize.SL.BI.Entails.refl _

/-- After the last point the invariant gives the region's back: the carried state is forgotten. -/
theorem hout (c : Dev nD) : (rdat m c).Φ (Fin.last cfg0.N) ⊢ Pipeline.ΦA spec0 c := by
  rw [show (rdat m c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- Every weakly fair execution of @main terminates, each windowed array ending at contents the relational data
    admits after every write-back and every other unscoped buffer at its contents at the region's entry. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hin := hin m) (hout := hout m)

/-- The frame: every weakly fair execution terminates and the fifteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 3 rfl).trans ((A_eq m c 3).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

end Cert.Kernel.Body

end
-- ==== Proof.KI.Conds.lean ====
/-
  The two branch conditions of the kernel body as propositions on a grid point, and their closed forms on the
  linear point number: the first branch is taken at the first key block of a query tile (`t % 8 = 0`), the
  second at the last (`t % 8 = 7`).
-/
import proofs.«426227_j46033459479181_3_alg».proof.Proof.Gen.KernelIdeal.Frame
import proofs.«426227_j46033459479181_3_alg».proof.Proof.Gen.KernelIdeal.Skeleton
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken: the key-block coordinate is 0. -/
abbrev condFirst (i : grid0.Coords) : Prop := k0_cond1 i = 1#1
/-- The body's second branch is taken: the key-block coordinate is 7. -/
abbrev condLast (i : grid0.Coords) : Prop := k0_cond2 i = 1#1

theorem condFirst_iff : ∀ t : Fin cfg0.N, condFirst (grid0.coords t) ↔ t.val % 8 = 0 :=
  (by decide +kernel : ∀ t : Fin grid0.N, condFirst (grid0.coords t) ↔ t.val % 8 = 0)
theorem condLast_iff : ∀ t : Fin cfg0.N, condLast (grid0.coords t) ↔ t.val % 8 = 7 :=
  (by decide +kernel : ∀ t : Fin grid0.N, condLast (grid0.coords t) ↔ t.val % 8 = 7)

end Cert.KernelIdeal.Body

end
-- ==== Proof.KI.RunA.lean ====
/-
  The kernel body run symbolically at a point that opens a query tile (first key block, not the last): the
  running maximum, normaliser and weighted sum are reset and then updated with the block, and the projected
  query rows are copied into the left half of the output block.
-/
import proofs.«426227_j46033459479181_3_alg».proof.Proof.KI.Conds
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, on whole staging memrefs holding the point's input blocks `x0 … x4`, the scratch buffers anything
    and the output's buffer holding `y5`: it ends with the inputs as they were, each scratch buffer written with the
    listed pieces (last store first; they do not depend on `y5`) and the output's buffer written with its listed pieces —
    the lists are the witness the symbolic run finds. -/
noncomputable def runA (c : Dev nD) (i : grid0.Coords) (arg2 : Memref sig .tc .vmem S2048x32 .f32) (harg2 : arg2.IsWhole) (arg3 : Memref sig .tc .vmem S32x1024 .f32) (harg3 : arg3.IsWhole) (arg4 : Memref sig .tc .vmem S1024x256 .f32) (harg4 : arg4.IsWhole) (arg5 : Memref sig .tc .vmem S2048x1024 .i32) (harg5 : arg5.IsWhole) (arg6 : Memref sig .tc .vmem S2048x256 .f32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x256 .f32) (harg10 : arg10.IsWhole) (hc0 : condFirst i) (hc1 : ¬condLast i)
    (x0 : Vec F S2048x32 .f32) (x1 : Vec F S32x1024 .f32) (x2 : Vec F S1024x256 .f32) (x3 : Vec F S2048x1024 .i32) (x4 : Vec F S2048x256 .f32) :
    Σ' (LS0 : List (View.Piece (Elt F) S2048x1 .f32)), Σ' (LS1 : List (View.Piece (Elt F) S2048x1 .f32)), Σ' (LS2 : List (View.Piece (Elt F) S2048x256 .f32)), ∀ (y5 : Vec F S2048x512 .f32), { LO5 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread y5) LO5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__agg_kernel i arg2 harg2 arg3 harg3 arg4 harg4 arg5 harg5 arg6 harg6 arg7 harg7 arg8 harg8 arg9 harg9 arg10 harg10) K } := by
  refine ⟨?_, ?_, ?_, fun y5 => ⟨?_, fun E K => ?run⟩⟩
  case run =>
    simp only [cc0__agg_kernel_eq_skeleton]; unfold cc0__agg_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [HS0]; · iexists _; iexact HS0
    isplitl [HS1]; · iexists _; iexact HS1
    iexists _; iexact HS2

end Cert.KernelIdeal.Body

end
-- ==== Proof.KI.RunB.lean ====
/-
  The kernel body run symbolically at a point strictly inside a query tile's walk over the key blocks (neither
  the first block nor the last): the carried maximum, normaliser and weighted sum are updated with the block;
  the output block is not touched.
-/
import proofs.«426227_j46033459479181_3_alg».proof.Proof.KI.RunA
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, on whole staging memrefs holding the point's input blocks `x0 … x4`, the three scratch buffers holding what the point before left (`xs0`, `xs1`, `xs2`)
    and the output's buffer holding `y5`: it ends with the inputs as they were, each scratch buffer written with the
    listed pieces (last store first; they do not depend on `y5`) and the output's buffer as it was —
    the lists are the witness the symbolic run finds. -/
noncomputable def runB (c : Dev nD) (i : grid0.Coords) (arg2 : Memref sig .tc .vmem S2048x32 .f32) (harg2 : arg2.IsWhole) (arg3 : Memref sig .tc .vmem S32x1024 .f32) (harg3 : arg3.IsWhole) (arg4 : Memref sig .tc .vmem S1024x256 .f32) (harg4 : arg4.IsWhole) (arg5 : Memref sig .tc .vmem S2048x1024 .i32) (harg5 : arg5.IsWhole) (arg6 : Memref sig .tc .vmem S2048x256 .f32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x256 .f32) (harg10 : arg10.IsWhole) (hc0 : ¬condFirst i) (hc1 : ¬condLast i)
    (x0 : Vec F S2048x32 .f32) (x1 : Vec F S32x1024 .f32) (x2 : Vec F S1024x256 .f32) (x3 : Vec F S2048x1024 .i32) (x4 : Vec F S2048x256 .f32) (xs0 : Vec F S2048x1 .f32) (xs1 : Vec F S2048x1 .f32) (xs2 : Vec F S2048x256 .f32) :
    Σ' (LS0 : List (View.Piece (Elt F) S2048x1 .f32)), Σ' (LS1 : List (View.Piece (Elt F) S2048x1 .f32)), Σ' (LS2 : List (View.Piece (Elt F) S2048x256 .f32)), ∀ (y5 : Vec F S2048x512 .f32),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__agg_kernel i arg2 harg2 arg3 harg3 arg4 harg4 arg5 harg5 arg6 harg6 arg7 harg7 arg8 harg8 arg9 harg9 arg10 harg10) K := by
  refine ⟨?_, ?_, ?_, fun y5 E K => ?run⟩
  case run =>
    simp only [cc0__agg_kernel_eq_skeleton]; unfold cc0__agg_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Body

end
-- ==== Proof.KI.RunC.lean ====
/-
  The kernel body run symbolically at the point that closes a query tile (last key block): the carried state is
  updated with the block and the quotient of the weighted sum by the normaliser is stored into the right half of
  the output block.
-/
import proofs.«426227_j46033459479181_3_alg».proof.Proof.KI.RunB
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, on whole staging memrefs holding the point's input blocks `x0 … x4`, the three scratch buffers holding what the point before left (`xs0`, `xs1`, `xs2`)
    and the output's buffer holding `y5`: it ends with the inputs as they were, each scratch buffer written with the
    listed pieces (last store first; they do not depend on `y5`) and the output's buffer written with its listed pieces —
    the lists are the witness the symbolic run finds. -/
noncomputable def runC (c : Dev nD) (i : grid0.Coords) (arg2 : Memref sig .tc .vmem S2048x32 .f32) (harg2 : arg2.IsWhole) (arg3 : Memref sig .tc .vmem S32x1024 .f32) (harg3 : arg3.IsWhole) (arg4 : Memref sig .tc .vmem S1024x256 .f32) (harg4 : arg4.IsWhole) (arg5 : Memref sig .tc .vmem S2048x1024 .i32) (harg5 : arg5.IsWhole) (arg6 : Memref sig .tc .vmem S2048x256 .f32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x256 .f32) (harg10 : arg10.IsWhole) (hc0 : ¬condFirst i) (hc1 : condLast i)
    (x0 : Vec F S2048x32 .f32) (x1 : Vec F S32x1024 .f32) (x2 : Vec F S1024x256 .f32) (x3 : Vec F S2048x1024 .i32) (x4 : Vec F S2048x256 .f32) (xs0 : Vec F S2048x1 .f32) (xs1 : Vec F S2048x1 .f32) (xs2 : Vec F S2048x256 .f32) :
    Σ' (LS0 : List (View.Piece (Elt F) S2048x1 .f32)), Σ' (LS1 : List (View.Piece (Elt F) S2048x1 .f32)), Σ' (LS2 : List (View.Piece (Elt F) S2048x256 .f32)), ∀ (y5 : Vec F S2048x512 .f32), { LO5 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread y5) LO5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__agg_kernel i arg2 harg2 arg3 harg3 arg4 harg4 arg5 harg5 arg6 harg6 arg7 harg7 arg8 harg8 arg9 harg9 arg10 harg10) K } := by
  refine ⟨?_, ?_, ?_, fun y5 => ⟨?_, fun E K => ?run⟩⟩
  case run =>
    simp only [cc0__agg_kernel_eq_skeleton]; unfold cc0__agg_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [HS0]; · iexists _; iexact HS0
    isplitl [HS1]; · iexists _; iexact HS1
    iexists _; iexact HS2

end Cert.KernelIdeal.Body

end
-- ==== Proof.KI.Pieces.lean ====
/-
  The three runs of the body placed at a grid point: on the point's staging memrefs and the three scratch memrefs, with
  the point's input blocks. For each case: what it leaves in the three scratch buffers (the running maximum, normaliser
  and weighted sum of the query tile) and in the output block, each as the read-back of the pieces the run stored;
  and the carried state after each point of the grid, by recursion on the point: a point that opens a query tile
  computes it from the blocks alone, every other point from the blocks and what the point before left.
-/
import proofs.«426227_j46033459479181_3_alg».proof.Proof.KI.RunC
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The staging memrefs the body is handed at point `t`, window by window, and that they are whole buffers. -/
abbrev ms0 (t : Fin cfg0.N) : Memref sig .tc .vmem S2048x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x512 .f32 := win0_5.stage (cfg0.slots t 5)
abbrev hs5 (t : Fin cfg0.N) : (ms5 t).IsWhole := hstage0_5 ((cfg0.slots t 5).cast nbuf0_5)

/-- The three scratch memrefs: the running maximum, the normaliser, the weighted sum. -/
abbrev scM0 : Memref sig .tc .vmem S2048x1 .f32 := Memref.whole cc0_scratch0
abbrev scM1 : Memref sig .tc .vmem S2048x1 .f32 := Memref.whole cc0_scratch1
abbrev scM2 : Memref sig .tc .vmem S2048x256 .f32 := Memref.whole cc0_scratch2

/-- What the three scratch buffers hold: maximum, normaliser, weighted sum of a query tile. -/
abbrev Sc (F : FTy → Type) [FloatOps F] : Type := Vec F S2048x1 .f32 × Vec F S2048x1 .f32 × Vec F S2048x256 .f32

/-- The run of a point that opens a query tile, at the point's memrefs and blocks. -/
noncomputable def atA (c : Dev nD) (t : Fin cfg0.N) (h0 : t.val % 8 = 0) (h1 : ¬t.val % 8 = 7) :=
  runA (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) ((condFirst_iff t).mpr h0) (fun h => h1 ((condLast_iff t).mp h)) (iblk m c 0 t) (iblk m c 1 t) (iblk m c 2 t) (iblk m c 3 t) (iblk m c 4 t)

/-- The run of a point inside a query tile's walk, over what the point before left in the scratch buffers. -/
noncomputable def atB (c : Dev nD) (t : Fin cfg0.N) (h0 : ¬t.val % 8 = 0) (h1 : ¬t.val % 8 = 7) (xs : Sc F) :=
  runB (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (fun h => h0 ((condFirst_iff t).mp h)) (fun h => h1 ((condLast_iff t).mp h)) (iblk m c 0 t) (iblk m c 1 t) (iblk m c 2 t) (iblk m c 3 t) (iblk m c 4 t) xs.1 xs.2.1 xs.2.2

/-- The run of the point that closes a query tile, over what the point before left in the scratch buffers. -/
noncomputable def atC (c : Dev nD) (t : Fin cfg0.N) (h0 : ¬t.val % 8 = 0) (h1 : t.val % 8 = 7) (xs : Sc F) :=
  runC (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (fun h => h0 ((condFirst_iff t).mp h)) ((condLast_iff t).mpr h1) (iblk m c 0 t) (iblk m c 1 t) (iblk m c 2 t) (iblk m c 3 t) (iblk m c 4 t) xs.1 xs.2.1 xs.2.2

/-- A scratch buffer's contents after a run's stores: its pieces read back (they cover it, so over anything). -/
noncomputable def rb1 (M : Memref sig .tc .vmem S2048x1 .f32) (L : List (View.Piece (Elt F) S2048x1 .f32)) : Vec F S2048x1 .f32 :=
  M.view.read (Elt F) (M.view.writes (Elt F) M.view.junk L)
noncomputable def rb2 (M : Memref sig .tc .vmem S2048x256 .f32) (L : List (View.Piece (Elt F) S2048x256 .f32)) : Vec F S2048x256 .f32 :=
  M.view.read (Elt F) (M.view.writes (Elt F) M.view.junk L)

/-- What each case leaves in the three scratch buffers. -/
noncomputable def scA (c : Dev nD) (t : Fin cfg0.N) (h0 : t.val % 8 = 0) (h1 : ¬t.val % 8 = 7) : Sc F :=
  (rb1 scM0 (atA m c t h0 h1).1, rb1 scM1 (atA m c t h0 h1).2.1, rb2 scM2 (atA m c t h0 h1).2.2.1)
noncomputable def scB (c : Dev nD) (t : Fin cfg0.N) (h0 : ¬t.val % 8 = 0) (h1 : ¬t.val % 8 = 7) (xs : Sc F) : Sc F :=
  (rb1 scM0 (atB m c t h0 h1 xs).1, rb1 scM1 (atB m c t h0 h1 xs).2.1, rb2 scM2 (atB m c t h0 h1 xs).2.2.1)
noncomputable def scC (c : Dev nD) (t : Fin cfg0.N) (h0 : ¬t.val % 8 = 0) (h1 : t.val % 8 = 7) (xs : Sc F) : Sc F :=
  (rb1 scM0 (atC m c t h0 h1 xs).1, rb1 scM1 (atC m c t h0 h1 xs).2.1, rb2 scM2 (atC m c t h0 h1 xs).2.2.1)

/-- What the opening point leaves in the output block that held `y5`: its pieces written over `y5`. -/
noncomputable def outA (c : Dev nD) (t : Fin cfg0.N) (h0 : t.val % 8 = 0) (h1 : ¬t.val % 8 = 7) (y5 : Vec F S2048x512 .f32) : Vec F S2048x512 .f32 :=
  (ms5 t).view.read (Elt F) ((ms5 t).view.writes (Elt F) ((hs5 t).unread y5) ((atA m c t h0 h1).2.2.2 y5).1)
/-- What the closing point leaves in the output block that held `y5`. -/
noncomputable def outC (c : Dev nD) (t : Fin cfg0.N) (h0 : ¬t.val % 8 = 0) (h1 : t.val % 8 = 7) (xs : Sc F) (y5 : Vec F S2048x512 .f32) : Vec F S2048x512 .f32 :=
  (ms5 t).view.read (Elt F) ((ms5 t).view.writes (Elt F) ((hs5 t).unread y5) ((atC m c t h0 h1 xs).2.2.2 y5).1)

/-- The pieces each case stores into a scratch buffer tile it. -/
theorem coverA0 (c : Dev nD) (t : Fin cfg0.N) (h0 : t.val % 8 = 0) (h1 : ¬t.val % 8 = 7) (y : S2048x1.Idx) : ∃ pc ∈ (atA m c t h0 h1).1, y ∈ pc.1.set :=
  View.cover_of_tiledL (atA m c t h0 h1).1 S2048x1.size (by unfold atA; sl_kernel_rfl) y
theorem coverA1 (c : Dev nD) (t : Fin cfg0.N) (h0 : t.val % 8 = 0) (h1 : ¬t.val % 8 = 7) (y : S2048x1.Idx) : ∃ pc ∈ (atA m c t h0 h1).2.1, y ∈ pc.1.set :=
  View.cover_of_tiledL (atA m c t h0 h1).2.1 S2048x1.size (by unfold atA; sl_kernel_rfl) y
theorem coverA2 (c : Dev nD) (t : Fin cfg0.N) (h0 : t.val % 8 = 0) (h1 : ¬t.val % 8 = 7) (y : S2048x256.Idx) : ∃ pc ∈ (atA m c t h0 h1).2.2.1, y ∈ pc.1.set :=
  View.cover_of_tiledL (atA m c t h0 h1).2.2.1 S2048x256.size (by unfold atA; sl_kernel_rfl) y
theorem coverB0 (c : Dev nD) (t : Fin cfg0.N) (h0 : ¬t.val % 8 = 0) (h1 : ¬t.val % 8 = 7) (xs : Sc F) (y : S2048x1.Idx) : ∃ pc ∈ (atB m c t h0 h1 xs).1, y ∈ pc.1.set :=
  View.cover_of_tiledL (atB m c t h0 h1 xs).1 S2048x1.size (by unfold atB; sl_kernel_rfl) y
theorem coverB1 (c : Dev nD) (t : Fin cfg0.N) (h0 : ¬t.val % 8 = 0) (h1 : ¬t.val % 8 = 7) (xs : Sc F) (y : S2048x1.Idx) : ∃ pc ∈ (atB m c t h0 h1 xs).2.1, y ∈ pc.1.set :=
  View.cover_of_tiledL (atB m c t h0 h1 xs).2.1 S2048x1.size (by unfold atB; sl_kernel_rfl) y
theorem coverB2 (c : Dev nD) (t : Fin cfg0.N) (h0 : ¬t.val % 8 = 0) (h1 : ¬t.val % 8 = 7) (xs : Sc F) (y : S2048x256.Idx) : ∃ pc ∈ (atB m c t h0 h1 xs).2.2.1, y ∈ pc.1.set :=
  View.cover_of_tiledL (atB m c t h0 h1 xs).2.2.1 S2048x256.size (by unfold atB; sl_kernel_rfl) y
theorem coverC0 (c : Dev nD) (t : Fin cfg0.N) (h0 : ¬t.val % 8 = 0) (h1 : t.val % 8 = 7) (xs : Sc F) (y : S2048x1.Idx) : ∃ pc ∈ (atC m c t h0 h1 xs).1, y ∈ pc.1.set :=
  View.cover_of_tiledL (atC m c t h0 h1 xs).1 S2048x1.size (by unfold atC; sl_kernel_rfl) y
theorem coverC1 (c : Dev nD) (t : Fin cfg0.N) (h0 : ¬t.val % 8 = 0) (h1 : t.val % 8 = 7) (xs : Sc F) (y : S2048x1.Idx) : ∃ pc ∈ (atC m c t h0 h1 xs).2.1, y ∈ pc.1.set :=
  View.cover_of_tiledL (atC m c t h0 h1 xs).2.1 S2048x1.size (by unfold atC; sl_kernel_rfl) y
theorem coverC2 (c : Dev nD) (t : Fin cfg0.N) (h0 : ¬t.val % 8 = 0) (h1 : t.val % 8 = 7) (xs : Sc F) (y : S2048x256.Idx) : ∃ pc ∈ (atC m c t h0 h1 xs).2.2.1, y ∈ pc.1.set :=
  View.cover_of_tiledL (atC m c t h0 h1 xs).2.2.1 S2048x256.size (by unfold atC; sl_kernel_rfl) y

/-- The carried state after the body at point `n`: the opening point of a tile from its blocks alone, every other
    point from its blocks and what the point before left. -/
noncomputable def scAt (c : Dev nD) : (n : ℕ) → n < cfg0.N → Sc F
  | 0, hn => scA m c ⟨0, hn⟩ (Nat.zero_mod _) (by show ¬(0 % 8 = 7); decide)
  | n + 1, hn =>
    if h0 : (n + 1) % 8 = 0 then scA m c ⟨n + 1, hn⟩ h0 (by show ¬((n + 1) % 8 = 7); omega)
    else if h1 : (n + 1) % 8 = 7 then scC m c ⟨n + 1, hn⟩ h0 h1 (scAt c n (Nat.lt_of_succ_lt hn))
    else scB m c ⟨n + 1, hn⟩ h0 h1 (scAt c n (Nat.lt_of_succ_lt hn))

theorem scAt_A (c : Dev nD) (t : Fin cfg0.N) (h0 : t.val % 8 = 0) (h1 : ¬t.val % 8 = 7) :
    scAt m c t.val t.isLt = scA m c t h0 h1 := by
  obtain ⟨n, hn⟩ := t
  cases n with
  | zero => rfl
  | succ n => exact (dif_pos h0).trans rfl

theorem scAt_B (c : Dev nD) (t : Fin cfg0.N) (h0 : ¬t.val % 8 = 0) (h1 : ¬t.val % 8 = 7) :
    scAt m c t.val t.isLt = scB m c t h0 h1 (scAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem scAt_C (c : Dev nD) (t : Fin cfg0.N) (h0 : ¬t.val % 8 = 0) (h1 : t.val % 8 = 7) :
    scAt m c t.val t.isLt = scC m c t h0 h1 (scAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

end Cert.KernelIdeal.Body

end
-- ==== Proof.KI.Data.lean ====
/-
  The proof data of the one pipeline, stated relationally, and the body obligation. An input window's staging buffer is
  left as the body found it (so it always holds the window's block at the point). The output window's block is related
  to what the body found there: the opening point of a query tile overwrites its left half with the projected query
  rows, the closing point its right half with the quotient of the weighted sum by the normaliser, every other point
  leaves it alone. Between points the three scratch buffers hold the carried state of the tile.
-/
import proofs.«426227_j46033459479181_3_alg».proof.Proof.KI.Pieces
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block after the body at point `t` (`X`) against the block the body found (`Y`). -/
def rel5 (c : Dev nD) (t : Fin cfg0.N) (Y X : Vec F S2048x512 .f32) : Prop :=
  if h0 : t.val % 8 = 0 then X = outA m c t h0 (by omega) Y
  else if h1 : t.val % 8 = 7 then X = outC m c t h0 h1 (scAt m c (t.val - 1) (Nat.lt_of_le_of_lt (Nat.sub_le _ _) t.isLt)) Y
  else X = Y

/-- The invariant before point `n`: before the first point the scratch buffers hold anything; afterwards what the
    point before left (the generator register at some state throughout). -/
def PhiS (c : Dev nD) : (n : ℕ) → n ≤ cfg0.N → sProp 𝕄
  | 0, _ => Pipeline.ΦA spec0 c
  | n + 1, hn => iprop(iprop(owns (c : Thread nD τ) scM0 fullShare ((scAt m c n hn).1) ∗ owns (c : Thread nD τ) scM1 fullShare ((scAt m c n hn).2.1) ∗ owns (c : Thread nD τ) scM2 fullShare ((scAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((scAt m c n hn).1) ∗ owns (c : Thread nD τ) scM1 fullShare ((scAt m c n hn).2.1) ∗ owns (c : Thread nD τ) scM2 fullShare ((scAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM0 fullShare ((scAt m c (n - 1) (by omega)).1) ∗ owns (c : Thread nD τ) scM1 fullShare ((scAt m c (n - 1) (by omega)).2.1) ∗ owns (c : Thread nD τ) scM2 fullShare ((scAt m c (n - 1) (by omega)).2.2)) ∗ (∃ r, prngReg c r)) := by
  cases n with
  | zero => exact absurd rfl hz
  | succ n => rfl

/-- The region's invariant with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- The relational proof data on core `c`. -/
def rdat (c : Dev nD) : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => rel5 m c t Y X
  Φ t := PhiS m c t.val (Nat.le_of_lt_succ t.isLt)
  q _ := fullShare
  owed _ := 0

theorem A_eq (c : Dev nD) (w : Fin cfg0.W) : (rdat m c).A w = V m c (Pipeline.arrRef spec0 w) := by
  dsimp only [rdat]

theorem PhiS_castSucc (c : Dev nD) (t : Fin cfg0.N) :
    (rdat m c).Φ t.castSucc = PhiS m c t.val (Nat.le_of_lt t.isLt) := by
  dsimp only [rdat]; simp only [Fin.coe_castSucc]

/-- An input window's staging buffer holds the window's block at every point, fetched there or not. -/
theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  rw [hd]; unfold Pipeline.RDat.fetched Pipeline.RDat.blockOf iblk; rw [A_eq]; try rfl
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  rw [hd]; unfold Pipeline.RDat.fetched Pipeline.RDat.blockOf iblk; rw [A_eq]; try rfl
theorem finds2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  rw [hd]; unfold Pipeline.RDat.fetched Pipeline.RDat.blockOf iblk; rw [A_eq]; try rfl
theorem finds3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  rw [hd]; unfold Pipeline.RDat.fetched Pipeline.RDat.blockOf iblk; rw [A_eq]; try rfl
theorem finds4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  rw [hd]; unfold Pipeline.RDat.fetched Pipeline.RDat.blockOf iblk; rw [A_eq]; try rfl

/-- What the body is called with at point `t`, the output block at `y5`, -/
def bodyPre (c : Dev nD) (t : Fin cfg0.N) (y5 : Vec F S2048x512 .f32) : sProp 𝕄 :=
  iprop((rdat m c).Φ t.castSucc ∗ (rdat m c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare y5)

/-- and what it returns. -/
def bodyPost (c : Dev nD) (t : Fin cfg0.N) (y5 : Vec F S2048x512 .f32) : sProp 𝕄 :=
  iprop((rdat m c).Φ t.succ ∗ (rdat m c).owesAt () t.succ
    ∗ (∃ X, ⌜X = iblk m c 0 t⌝ ∗ owns (c : Thread nD τ) (ms0 t) fullShare X)
    ∗ (∃ X, ⌜X = iblk m c 1 t⌝ ∗ owns (c : Thread nD τ) (ms1 t) fullShare X)
    ∗ (∃ X, ⌜X = iblk m c 2 t⌝ ∗ owns (c : Thread nD τ) (ms2 t) fullShare X)
    ∗ (∃ X, ⌜X = iblk m c 3 t⌝ ∗ owns (c : Thread nD τ) (ms3 t) fullShare X)
    ∗ (∃ X, ⌜X = iblk m c 4 t⌝ ∗ owns (c : Thread nD τ) (ms4 t) fullShare X)
    ∗ (∃ X, ⌜rel5 m c t y5 X⌝ ∗ owns (c : Thread nD τ) (ms5 t) fullShare X))

set_option maxHeartbeats 9600000 in
/-- The body at any point: the point's residue modulo eight says which case it is in; the invariant hands the run the
    scratch buffers at what the point before left (at anything before the first point) and takes them back at this
    point's carried state; the output block comes back in the case's relation to what was found. -/
theorem sound_body (c : Dev nD) (t : Fin cfg0.N) (y5 : Vec F S2048x512 .f32) :
    bodyPre m c t y5 ⊢ wp frame (wpE (defs₀ (F := F)) Variants.none c none) Set.univ (bodyAt0 t) (fun _ => bodyPost m c t y5) := by
  unfold bodyPre bodyPost bodyAt0
  rw [show (rdat m c).owesAt () t.succ = (rdat m c).owesAt () t.castSucc from rfl]
  rw [show (rdat m c).Φ t.succ = PhiS m c (t.val + 1) t.isLt from rfl, PhiS_succ]
  have hN : t.val < 32 := lt_of_lt_of_eq t.isLt (show cfg0.N = 32 from N_0)
  by_cases h0 : t.val % 8 = 0
  · have h1 : ¬t.val % 8 = 7 := by omega
    rw [scAt_A m c t h0 h1]
    unfold scA rb1 rb2; (try dsimp only)
    by_cases hz : t.val = 0
    · rw [PhiS_castSucc m c t, PhiS_zero m c _ _ hz, PhiA_eq]
      iintro ⟨⟨⟨HS0, HS1, HS2⟩, Hg⟩, Ho, H0, H1, H2, H3, H4, H5⟩
      iapply (((atA m c t h0 h1).2.2.2 y5).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverA0 m c t h0 h1)
          isplitl [HS1]
          · unfold owns; iexists _; isplitr
            swap; · iexact HS1
            ipureintro; exact View.read_writes_of_cover _ _ _ _ _ (coverA1 m c t h0 h1)
          unfold owns; iexists _; isplitr
          swap; · iexact HS2
          ipureintro; exact View.read_writes_of_cover _ _ _ _ _ (coverA2 m c t h0 h1)
        iexact Hg
      isplitl [Ho]; · iexact Ho
      isplitl [H0]
      · iexists _; isplitr
        · ipureintro; rfl
        · iexact H0
      isplitl [H1]
      · iexists _; isplitr
        · ipureintro; rfl
        · iexact H1
      isplitl [H2]
      · iexists _; isplitr
        · ipureintro; rfl
        · iexact H2
      isplitl [H3]
      · iexists _; isplitr
        · ipureintro; rfl
        · iexact H3
      isplitl [H4]
      · iexists _; isplitr
        · ipureintro; rfl
        · iexact H4
      iexists _; isplitr
      swap
      · unfold owns; iexists _; isplitr
        swap; · iexact H5
        ipureintro; rfl
      ipureintro; unfold rel5; rw [dif_pos h0]; rfl
    · rw [PhiS_castSucc m c t, PhiS_pos m c _ _ hz]
      iintro ⟨⟨⟨HS0, HS1, HS2⟩, Hg⟩, Ho, H0, H1, H2, H3, H4, H5⟩
      iapply (((atA m c t h0 h1).2.2.2 y5).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverA0 m c t h0 h1)
          isplitl [HS1]
          · unfold owns; iexists _; isplitr
            swap; · iexact HS1
            ipureintro; exact View.read_writes_of_cover _ _ _ _ _ (coverA1 m c t h0 h1)
          unfold owns; iexists _; isplitr
          swap; · iexact HS2
          ipureintro; exact View.read_writes_of_cover _ _ _ _ _ (coverA2 m c t h0 h1)
        iexact Hg
      isplitl [Ho]; · iexact Ho
      isplitl [H0]
      · iexists _; isplitr
        · ipureintro; rfl
        · iexact H0
      isplitl [H1]
      · iexists _; isplitr
        · ipureintro; rfl
        · iexact H1
      isplitl [H2]
      · iexists _; isplitr
        · ipureintro; rfl
        · iexact H2
      isplitl [H3]
      · iexists _; isplitr
        · ipureintro; rfl
        · iexact H3
      isplitl [H4]
      · iexists _; isplitr
        · ipureintro; rfl
        · iexact H4
      iexists _; isplitr
      swap
      · unfold owns; iexists _; isplitr
        swap; · iexact H5
        ipureintro; rfl
      ipureintro; unfold rel5; rw [dif_pos h0]; rfl
  · have hz : t.val ≠ 0 := fun h => h0 (by rw [h])
    by_cases h1 : t.val % 8 = 7
    · rw [scAt_C m c t h0 h1]
      unfold scC rb1 rb2; (try dsimp only)
      rw [PhiS_castSucc m c t, PhiS_pos m c _ _ hz]
      iintro ⟨⟨⟨HS0, HS1, HS2⟩, Hg⟩, Ho, H0, H1, H2, H3, H4, H5⟩
      iapply (((atC m c t h0 h1 _).2.2.2 y5).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverC0 m c t h0 h1 _)
          isplitl [HS1]
          · unfold owns; iexists _; isplitr
            swap; · iexact HS1
            ipureintro; exact View.read_writes_of_cover _ _ _ _ _ (coverC1 m c t h0 h1 _)
          unfold owns; iexists _; isplitr
          swap; · iexact HS2
          ipureintro; exact View.read_writes_of_cover _ _ _ _ _ (coverC2 m c t h0 h1 _)
        iexact Hg
      isplitl [Ho]; · iexact Ho
      isplitl [H0]
      · iexists _; isplitr
        · ipureintro; rfl
        · iexact H0
      isplitl [H1]
      · iexists _; isplitr
        · ipureintro; rfl
        · iexact H1
      isplitl [H2]
      · iexists _; isplitr
        · ipureintro; rfl
        · iexact H2
      isplitl [H3]
      · iexists _; isplitr
        · ipureintro; rfl
        · iexact H3
      isplitl [H4]
      · iexists _; isplitr
        · ipureintro; rfl
        · iexact H4
      iexists _; isplitr
      swap
      · unfold owns; iexists _; isplitr
        swap; · iexact H5
        ipureintro; rfl
      ipureintro; unfold rel5; rw [dif_neg h0, dif_pos h1]; rfl
    · rw [scAt_B m c t h0 h1]
      unfold scB rb1 rb2; (try dsimp only)
      rw [PhiS_castSucc m c t, PhiS_pos m c _ _ hz]
      iintro ⟨⟨⟨HS0, HS1, HS2⟩, Hg⟩, Ho, H0, H1, H2, H3, H4, H5⟩
      iapply ((atB m c t h0 h1 _).2.2.2 y5 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverB0 m c t h0 h1 _)
          isplitl [HS1]
          · unfold owns; iexists _; isplitr
            swap; · iexact HS1
            ipureintro; exact View.read_writes_of_cover _ _ _ _ _ (coverB1 m c t h0 h1 _)
          unfold owns; iexists _; isplitr
          swap; · iexact HS2
          ipureintro; exact View.read_writes_of_cover _ _ _ _ _ (coverB2 m c t h0 h1 _)
        iexact Hg
      isplitl [Ho]; · iexact Ho
      isplitl [H0]
      · iexists _; isplitr
        · ipureintro; rfl
        · iexact H0
      isplitl [H1]
      · iexists _; isplitr
        · ipureintro; rfl
        · iexact H1
      isplitl [H2]
      · iexists _; isplitr
        · ipureintro; rfl
        · iexact H2
      isplitl [H3]
      · iexists _; isplitr
        · ipureintro; rfl
        · iexact H3
      isplitl [H4]
      · iexists _; isplitr
        · ipureintro; rfl
        · iexact H4
      iexists _; isplitr
      · ipureintro; unfold rel5; rw [dif_neg h0, dif_neg h1]
      · iexact H5

/-- The body obligation of the relational proof data, at every point. -/
theorem body_obligation (c : Dev nD) : (rdat (F := F) m c).BodyObligation (defs₀ (F := F)) Variants.none () Set.univ := fun t Y hY => by
  rw [bigSep_W0, bigSep_W0]
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  rw [e0, e1, e2, e3, e4]
  exact sound_body m c t (Y 5)

/-- What the launch hands the region is the invariant before the first point. -/
theorem hin (c : Dev nD) : Pipeline.ΦA spec0 c ⊢ (rdat m c).Φ 0 := by
  rw [show (rdat m c).Φ 0 = PhiS m c 0 (Nat.zero_le _) from rfl, PhiS_zero m c 0 _ rfl]
  try exact Idealize.SL.BI.Entails.refl _

/-- After the last point the invariant gives the region's back: the carried state is forgotten. -/
theorem hout (c : Dev nD) : (rdat m c).Φ (Fin.last cfg0.N) ⊢ Pipeline.ΦA spec0 c := by
  rw [show (rdat m c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- Every weakly fair execution of @main terminates, each windowed array ending at contents the relational data
    admits after every write-back and every other unscoped buffer at its contents at the region's entry. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hin := hin m) (hout := hout m)

/-- The frame: every weakly fair execution terminates and the fifteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 3 rfl).trans ((A_eq m c 3).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

end Cert.KernelIdeal.Body

end
-- ==== Proof.AttnSpec.lean ====
/-
  The mathematics both programs compute, as pure functions on the extended reals.

  For a query row `r` the masked score against key `j` is `sc r j`: the logit `lg r j` passed through the leaky
  rectifier of slope `slope` where the adjacency word is positive, the finite fill `negBig` elsewhere. The reference
  normalises a row by the textbook softmax (subtract the row's maximum, exponentiate, divide by the sum) and then takes
  the weighted sum of the value rows. The kernel walks the keys in eight blocks of 1024, carrying a running maximum `m`
  (seeded with `negBig`), a running normaliser `l` and a running weighted sum `acc`, rescaling both by
  `exp (m_old - m_new)` at each block, and divides `acc` by `l` after the last block. The output row is the
  projected query row (256 columns) followed by the aggregate (256 columns).
-/
import Idealize.ShloMosaic.PureOps.Ideal
import Idealize.ShloMosaic.Lib.ValueIdx

noncomputable section

namespace Cert.Attn

open Idealize.ShloMosaic

/-- The finite fill of a masked score, the f32 nearest `-9e15`. -/
def negBig : EReal := Ideal.ofBits .f32 0xD9FFCB9E#32
/-- The leaky rectifier's negative slope, the f32 nearest `0.01`. -/
def slope : EReal := Ideal.ofBits .f32 0x3C23D70A#32

/-- The leaky rectifier. -/
def leaky (s : EReal) : EReal := if 0 ≤ s then s else slope * s

/-- The masked score of query row `r` against key `j`. -/
def score (lg : Fin 8192 → Fin 8192 → EReal) (adj : Fin 8192 → Fin 8192 → BitVec 32) (r j : Fin 8192) : EReal :=
  if (0#32).slt (adj r j) = true then leaky (lg r j) else negBig

/-! ## The reference: one softmax over the whole row -/

/-- A row's maximum, from the bottom element. -/
def rowMax (s : Fin 8192 → EReal) : EReal := (Finset.univ : Finset (Fin 8192)).fold max ⊥ s

/-- The softmax-weighted sum of the value rows: `∑ j, (exp (s j - M) / ∑ j', exp (s j' - M)) * v j c`. -/
def refAgg (s : Fin 8192 → EReal) (v : Fin 8192 → Fin 256 → EReal) (c : Fin 256) : EReal :=
  ∑ j : Fin 8192, Ideal.div (Ideal.exp (s j - rowMax s)) (∑ j' : Fin 8192, Ideal.exp (s j' - rowMax s)) * v j c

/-! ## The kernel: eight blocks of 1024 keys, rescaled as the maximum grows -/

/-- Key `q` of block `k`. (Total: past the last block it reads key 0; no block past the eighth is ever used.) -/
def keyOf (k : ℕ) (q : Fin 1024) : Fin 8192 := if h : 1024 * k + q.val < 8192 then ⟨1024 * k + q.val, h⟩ else ⟨0, by decide⟩

/-- What the kernel carries between blocks for one row: the running maximum, normaliser and weighted sum. -/
structure St where
  m : EReal
  l : EReal
  acc : Fin 256 → EReal

/-- Before the first block. -/
def St.init : St := ⟨negBig, 0, fun _ => 0⟩

/-- A block's maximum, from the bottom element. -/
def blkMax (s : Fin 1024 → EReal) : EReal := (Finset.univ : Finset (Fin 1024)).fold max ⊥ s

/-- One block: the maximum grows to `mn`; normaliser and weighted sum are rescaled by `exp (m - mn)` and take on the block's terms. -/
def St.step (s : Fin 1024 → EReal) (v : Fin 1024 → Fin 256 → EReal) (st : St) : St :=
  let mn := max st.m (blkMax s)
  let a := Ideal.exp (st.m - mn)
  { m := mn
    l := a * st.l + ∑ q : Fin 1024, Ideal.exp (s q - mn)
    acc := fun c => a * st.acc c + ∑ q : Fin 1024, Ideal.exp (s q - mn) * v q c }

/-- The state after the first `k` blocks of a row. -/
def online (s : Fin 8192 → EReal) (v : Fin 8192 → Fin 256 → EReal) : ℕ → St
  | 0 => St.init
  | k + 1 => St.step (fun q => s (keyOf k q)) (fun q c => v (keyOf k q) c) (online s v k)

/-- The kernel's aggregate: the weighted sum over the normaliser after all eight blocks. -/
def onlineAgg (s : Fin 8192 → EReal) (v : Fin 8192 → Fin 256 → EReal) (c : Fin 256) : EReal :=
  Ideal.div ((online s v 8).acc c) (online s v 8).l

/-! ## The two outputs -/

/-- Column `c` of an output row: the projected query row, then the aggregate. -/
def outOf (agg : Fin 8192 → Fin 256 → EReal) (ox : Fin 8192 → Fin 256 → EReal) (r : Fin 8192) (c : Fin 512) : EReal :=
  if h : c.val < 256 then ox r ⟨c.val, h⟩ else agg r ⟨c.val - 256, by omega⟩

/-- The reference's result. -/
def refOut (lg : Fin 8192 → Fin 8192 → EReal) (adj : Fin 8192 → Fin 8192 → BitVec 32)
    (v ox : Fin 8192 → Fin 256 → EReal) : Fin 8192 → Fin 512 → EReal :=
  outOf (fun r => refAgg (score lg adj r) v) ox

/-- The kernel's result. -/
def kernelOut (lg : Fin 8192 → Fin 8192 → EReal) (adj : Fin 8192 → Fin 8192 → BitVec 32)
    (v ox : Fin 8192 → Fin 256 → EReal) : Fin 8192 → Fin 512 → EReal :=
  outOf (fun r => onlineAgg (score lg adj r) v) ox

/-- A function into the extended reals all of whose values are real numbers. -/
def Real1 {α : Type} (f : α → EReal) : Prop := ∀ a, f a ≠ ⊤ ∧ f a ≠ ⊥
def Real2 {α β : Type} (f : α → β → EReal) : Prop := ∀ a b, f a b ≠ ⊤ ∧ f a b ≠ ⊥

/-! ## The dense layers in front of the attention -/

/-- A linear layer at an entry: `(∑ d, x r d * W d c) + b c`. -/
def lin {n k p : ℕ} (x : Fin n → Fin k → EReal) (W : Fin k → Fin p → EReal) (b : Fin p → EReal) (r : Fin n) (c : Fin p) : EReal :=
  (∑ d : Fin k, x r d * W d c) + b c

/-- Two linear layers with a hyperbolic tangent between them. -/
def mlp {n k p q : ℕ} (x : Fin n → Fin k → EReal) (W1 : Fin k → Fin p → EReal) (b1 : Fin p → EReal)
    (W2 : Fin p → Fin q → EReal) (b2 : Fin q → EReal) : Fin n → Fin q → EReal :=
  lin (fun r c => Ideal.tanh (lin x W1 b1 r c)) W2 b2

/-- The logit of query row `r` against key `j`: the inner product of their 32 attention features. -/
def logit (xa na : Fin 8192 → Fin 32 → EReal) (r j : Fin 8192) : EReal := ∑ h : Fin 32, xa r h * na j h

/-- The fifteen arguments as curried functions (the adjacency as words). -/
structure Args where
  x : Fin 8192 → Fin 512 → EReal
  ng : Fin 8192 → Fin 512 → EReal
  adj : Fin 8192 → Fin 8192 → BitVec 32
  Wx1 : Fin 512 → Fin 32 → EReal
  bx1 : Fin 32 → EReal
  Wx2 : Fin 32 → Fin 32 → EReal
  bx2 : Fin 32 → EReal
  Wn1 : Fin 512 → Fin 32 → EReal
  bn1 : Fin 32 → EReal
  Wn2 : Fin 32 → Fin 32 → EReal
  bn2 : Fin 32 → EReal
  Wv : Fin 512 → Fin 256 → EReal
  bv : Fin 256 → EReal
  Wfx : Fin 512 → Fin 256 → EReal
  bfx : Fin 256 → EReal

/-- The query rows' attention features. -/
def Args.xAtt (a : Args) : Fin 8192 → Fin 32 → EReal := mlp a.x a.Wx1 a.bx1 a.Wx2 a.bx2
/-- The key rows' attention features. -/
def Args.nAtt (a : Args) : Fin 8192 → Fin 32 → EReal := mlp a.ng a.Wn1 a.bn1 a.Wn2 a.bn2
/-- The value rows. -/
def Args.value (a : Args) : Fin 8192 → Fin 256 → EReal := lin a.ng a.Wv a.bv
/-- The projected query rows. -/
def Args.outX (a : Args) : Fin 8192 → Fin 256 → EReal := lin a.x a.Wfx a.bfx
/-- The logits. -/
def Args.lg (a : Args) : Fin 8192 → Fin 8192 → EReal := logit a.xAtt a.nAtt

/-- Every float argument is real-valued. -/
structure Args.Finite (a : Args) : Prop where
  x : Real2 a.x
  ng : Real2 a.ng
  Wx1 : Real2 a.Wx1
  bx1 : Real1 a.bx1
  Wx2 : Real2 a.Wx2
  bx2 : Real1 a.bx2
  Wn1 : Real2 a.Wn1
  bn1 : Real1 a.bn1
  Wn2 : Real2 a.Wn2
  bn2 : Real1 a.bn2
  Wv : Real2 a.Wv
  bv : Real1 a.bv
  Wfx : Real2 a.Wfx
  bfx : Real1 a.bfx

/-- What the reference returns, and what the kernel returns, as functions of the arguments. -/
def Args.refResult (a : Args) : Fin 8192 → Fin 512 → EReal := refOut a.lg a.adj a.value a.outX
def Args.kernelResult (a : Args) : Fin 8192 → Fin 512 → EReal := kernelOut a.lg a.adj a.value a.outX

end Cert.Attn

end
-- ==== Proof.KI.Tile.lean ====
/-
  One grid point seen from one query row of its tile: the row's masked scores against the point's 1024 keys, the
  point's 1024 value rows, and the row's carried state (running maximum, normaliser, weighted sum) read out of the
  three scratch buffers.
-/
import proofs.«426227_j46033459479181_3_alg».proof.Proof.KI.Pieces
import proofs.«426227_j46033459479181_3_alg».proof.Proof.AttnSpec
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

open Idealize.ShloMosaic.ValueIdx

/-- The five input blocks of point `t`, at their literal types: query features, transposed key features, value rows,
    adjacency words, projected query rows. -/
abbrev xb0 (c : Dev nD) (t : Fin cfg0.N) : Vec Ideal S2048x32 .f32 := iblk (F := Ideal) m c 0 t
abbrev xb1 (c : Dev nD) (t : Fin cfg0.N) : Vec Ideal S32x1024 .f32 := iblk (F := Ideal) m c 1 t
abbrev xb2 (c : Dev nD) (t : Fin cfg0.N) : Vec Ideal S1024x256 .f32 := iblk (F := Ideal) m c 2 t
abbrev xb3 (c : Dev nD) (t : Fin cfg0.N) : Vec Ideal S2048x1024 .i32 := iblk (F := Ideal) m c 3 t
abbrev xb4 (c : Dev nD) (t : Fin cfg0.N) : Vec Ideal S2048x256 .f32 := iblk (F := Ideal) m c 4 t

/-- The masked score of row `p` of the point's query tile against key `q` of the point's key block. -/
def sb (c : Dev nD) (t : Fin cfg0.N) (p : Fin 2048) (q : Fin 1024) : EReal :=
  if (0#32).slt (xb3 m c t (ix2 p q) : BitVec 32) = true
  then Cert.Attn.leaky (∑ h : Fin 32, (xb0 m c t (ix2 p h) : EReal) * (xb1 m c t (ix2 h q) : EReal))
  else Cert.Attn.negBig

/-- The point's value rows. -/
def vb (c : Dev nD) (t : Fin cfg0.N) (q : Fin 1024) (e : Fin 256) : EReal := (xb2 m c t (ix2 q e) : EReal)

/-- Row `p`'s carried state, read out of the three scratch buffers' contents. -/
def stOf (xs : Sc Ideal) (p : Fin 2048) : Cert.Attn.St :=
  ⟨(xs.1 (ix2 p (0 : Fin 1)) : EReal), (xs.2.1 (ix2 p (0 : Fin 1)) : EReal), fun e => (xs.2.2 (ix2 p e) : EReal)⟩

end Cert.KernelIdeal.Body

end
-- ==== Proof.KI.KDefs.lean ====
/-
  The five operands of the pallas_call as the region finds them, as curried functions: the logits of a query row
  against a key (the inner product of the query features with the transposed key features), the adjacency words, the
  value rows and the projected query rows; and the global row of a tile-local row at a grid point.
-/
import proofs.«426227_j46033459479181_3_alg».proof.Proof.KI.Tile
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

open Idealize.ShloMosaic.ValueIdx

/-- The five operand arrays as the region finds them, at their literal types. -/
abbrev opXatt (c : Dev nD) : Vec Ideal S8192x32 .f32 := V (F := Ideal) m c main_v21
abbrev opNattT (c : Dev nD) : Vec Ideal S32x8192 .f32 := V (F := Ideal) m c main_v26
abbrev opVal (c : Dev nD) : Vec Ideal S8192x256 .f32 := V (F := Ideal) m c main_v12
abbrev opAdj (c : Dev nD) : Vec Ideal S8192x8192 .i32 := V (F := Ideal) m c main_arg2
abbrev opOx (c : Dev nD) : Vec Ideal S8192x256 .f32 := V (F := Ideal) m c main_v25

/-- The logit of query row `r` against key `j`, from the query features and the transposed key features as launched. -/
def lgK (c : Dev nD) (r j : Fin 8192) : EReal :=
  ∑ h : Fin 32, (opXatt m c (ix2 r h) : EReal) * (opNattT m c (ix2 h j) : EReal)
/-- The adjacency words as launched. -/
def adjK (c : Dev nD) (r j : Fin 8192) : BitVec 32 := (opAdj m c (ix2 r j) : BitVec 32)
/-- The value rows as launched. -/
def valK (c : Dev nD) (j : Fin 8192) (e : Fin 256) : EReal := (opVal m c (ix2 j e) : EReal)
/-- The projected query rows as launched. -/
def oxK (c : Dev nD) (r : Fin 8192) (e : Fin 256) : EReal := (opOx m c (ix2 r e) : EReal)

/-- The global query row of row `p` of the tile of point `t` (the tile number is `t / 8`). -/
def rowOf (t : Fin cfg0.N) (p : Fin 2048) : Fin 8192 :=
  ⟨2048 * (t.val / 8) + p.val, by have := lt_of_lt_of_eq t.isLt (show cfg0.N = 32 from N_0); have := p.isLt; omega⟩

end Cert.KernelIdeal.Body

end
-- ==== Proof.KI.PayVal.lean ====
/-
  The body's arithmetic read at an entry, over any blocks and any carried contents. The logits are the inner
  products of the query features with the transposed key features; the masked score is the leaky rectifier of a
  logit where the adjacency word is positive and the finite fill elsewhere; a row's new maximum is the larger of
  the carried one and the block's; the normaliser and the weighted sum are the carried ones rescaled by the
  exponential of the old maximum minus the new, plus the block's exponentials and their products with the value
  rows. Row by row the three stored arrays are one step of the blockwise softmax recurrence from the carried row.
-/
import proofs.«426227_j46033459479181_3_alg».proof.Proof.Gen.KernelIdeal.Skeleton
import proofs.«426227_j46033459479181_3_alg».proof.Proof.AttnSpec
import Idealize.ShloMosaic.PureOps.Ideal.Laws
import Idealize.ShloMosaic.Lib.ValueIdx
import Idealize.ShloMosaic.Lib.Pipeline.Value
import Idealize.ShloMosaic.Lib.ValueLayout
set_option maxRecDepth 16384

noncomputable section

namespace Cert.KernelIdeal.Body

open Cert.KernelIdeal Cert.KernelIdeal.Gen
open Idealize.ShloMosaic
open Idealize.ShloMosaic.ValueIdx Cert.Attn

/-- The masked score of tile row `p` against block key `q`, over any three blocks. -/
def scv (x0 : Vec Ideal S2048x32 .f32) (x1 : Vec Ideal S32x1024 .f32) (x3 : Vec Ideal S2048x1024 .i32)
    (p : Fin 2048) (q : Fin 1024) : EReal :=
  if (0#32).slt (x3 (ix2 p q) : BitVec 32) = true
  then leaky (∑ h : Fin 32, (x0 (ix2 p h) : EReal) * (x1 (ix2 h q) : EReal))
  else negBig

/-! ## The two matrix products at an entry -/

theorem lhsA_0 (j : S2048x1024.Idx) (k : dot_S2048x32_S32x1024_S2048x1024_1_0_0_1_n_n.contr.Idx) :
    (dot_S2048x32_S32x1024_S2048x1024_1_0_0_1_n_n.lhsIdx j k 0).val = (j 0).val := rfl
theorem lhsA_1 (j : S2048x1024.Idx) (k : dot_S2048x32_S32x1024_S2048x1024_1_0_0_1_n_n.contr.Idx) :
    (dot_S2048x32_S32x1024_S2048x1024_1_0_0_1_n_n.lhsIdx j k 1).val = (k ⟨0, Nat.one_pos⟩).val := rfl
theorem rhsA_0 (j : S2048x1024.Idx) (k : dot_S2048x32_S32x1024_S2048x1024_1_0_0_1_n_n.contr.Idx) :
    (dot_S2048x32_S32x1024_S2048x1024_1_0_0_1_n_n.rhsIdx j k 0).val = (k ⟨0, Nat.one_pos⟩).val := rfl
theorem rhsA_1 (j : S2048x1024.Idx) (k : dot_S2048x32_S32x1024_S2048x1024_1_0_0_1_n_n.contr.Idx) :
    (dot_S2048x32_S32x1024_S2048x1024_1_0_0_1_n_n.rhsIdx j k 1).val = (j 1).val := rfl

/-- The logits' product at an entry: the inner product over the 32 features. -/
theorem mmA_apply (x0 : FVec Ideal S2048x32 .f32) (x1 : FVec Ideal S32x1024 .f32) (p : Fin 2048) (q : Fin 1024) :
    matmul dot_S2048x32_S32x1024_S2048x1024_1_0_0_1_n_n none x0 x1 (constant (F := Ideal) S2048x1024 .f32 0x00000000#32) (ix2 p q)
      = ∑ h : Fin 32, x0 (ix2 p h) * x1 (ix2 h q) := by
  refine (Ideal.matmul_constant_zero_apply dot_S2048x32_S32x1024_S2048x1024_1_0_0_1_n_n none x0 x1 (ix2 p q)).trans ?_
  refine (Equiv.sum_comp (contrEquiv1 dot_S2048x32_S32x1024_S2048x1024_1_0_0_1_n_n 32 rfl rfl).symm _).symm.trans ?_
  refine Finset.sum_congr rfl fun h _ => ?_
  have hk := contrEquiv1_symm_val dot_S2048x32_S32x1024_S2048x1024_1_0_0_1_n_n 32 rfl rfl h
  congr 1
  · refine congrArg x0 (Shape.idx_ext₂ ?_ ?_)
    · exact lhsA_0 _ _
    · exact (lhsA_1 _ _).trans hk
  · refine congrArg x1 (Shape.idx_ext₂ ?_ ?_)
    · exact (rhsA_0 _ _).trans hk
    · exact rhsA_1 _ _

/-! ## The masked scores -/

/-- The rectifier and the mask, entry by entry, over any logits and adjacency words. -/
theorem masked_apply (M : FVec Ideal S2048x1024 .f32) (x3 : IVec S2048x1024 32) (i : S2048x1024.Idx) :
    select (cmpi .sgt x3 (broadcast S2048x1024 (0#32 : BitVec 32)))
        (select (cmpf .oge M (broadcast S2048x1024 (Scalar.ofBits (F := Ideal) .f32 0x00000000#32))) M
          (mulf (broadcast S2048x1024 (Scalar.ofBits (F := Ideal) .f32 0x3C23D70A#32)) M))
        (broadcast S2048x1024 (Scalar.ofBits (F := Ideal) .f32 0xD9FFCB9E#32)) i
      = if (0#32).slt (x3 i) = true then leaky (M i) else negBig := by
  show Scalar.select (BitVec.ofBool ((0#32).slt (x3 i)))
      (Scalar.select (BitVec.ofBool (decide (Ideal.ofBits .f32 0x00000000#32 ≤ M i))) (M i) (Ideal.ofBits .f32 0x3C23D70A#32 * M i))
      (Ideal.ofBits .f32 0xD9FFCB9E#32) = _
  rw [Ideal.ofBits_zero_f32]
  unfold leaky Cert.Attn.slope negBig Scalar.select
  cases hb : (0#32).slt (x3 i)
  · simp
  · by_cases hc : (0 : EReal) ≤ M i <;> simp [hc]

/-- The masked scores at an entry. -/
theorem pay9_apply (x0 : Vec Ideal S2048x32 .f32) (x1 : Vec Ideal S32x1024 .f32) (x3 : Vec Ideal S2048x1024 .i32)
    (p : Fin 2048) (q : Fin 1024) : k0_pay9 (F := Ideal) x0 x1 x3 (ix2 p q) = scv x0 x1 x3 p q := by
  have hM : matmul dot_S2048x32_S32x1024_S2048x1024_1_0_0_1_n_n none
      (shapeCast S2048x32 x0 shapeCasts_S2048x32_S2048x32 : FVec Ideal S2048x32 .f32)
      (shapeCast S32x1024 x1 shapeCasts_S32x1024_S32x1024 : FVec Ideal S32x1024 .f32)
      (constant (F := Ideal) S2048x1024 .f32 0x00000000#32) (ix2 p q)
      = ∑ h : Fin 32, (x0 (ix2 p h) : EReal) * (x1 (ix2 h q) : EReal) := by
    rw [shapeCast_self, shapeCast_self]
    exact mmA_apply x0 x1 p q
  unfold k0_pay9
  refine (masked_apply _ x3 (ix2 p q)).trans ?_
  unfold scv
  exact congrArg (fun z => if (0#32).slt (x3 (ix2 p q) : BitVec 32) = true then leaky z else negBig) hM

/-! ## Layout: a column of 2048 rows -/

/-- A vector of 2048 entries viewed as a column reads its entry. -/
theorem colCast_apply {α : Type} (v : S2048.Idx → α) (h : S2048.ShapeCasts S2048x1) (p : Fin 2048) (z : Fin 1) :
    shapeCast S2048x1 v h (ix2 p z) = v (ix1 p) := by
  refine shapeCast_apply v h (ix2 p z) (ix1 p) ?_
  rw [Shape.rowMajor_val_one, Shape.rowMajor_val_two]
  show p.val = p.val * 1 + z.val
  have := z.isLt; omega

/-- A column spread along 1024 lanes reads the row's entry. -/
theorem colBcastK_apply {α : Type} (v : S2048x1.Idx → α) (h : S2048x1.Broadcasts S2048x1024) (p : Fin 2048) (q : Fin 1024) :
    broadcastTo S2048x1024 v h (ix2 p q) = v (ix2 p (0 : Fin 1)) :=
  broadcastTo_apply v h (ix2 p q) (ix2 p (0 : Fin 1)) (fun a => match a with | ⟨0, _⟩ => rfl | ⟨1, _⟩ => rfl)

/-- A column spread along 256 lanes reads the row's entry. -/
theorem colBcastE_apply {α : Type} (v : S2048x1.Idx → α) (h : S2048x1.Broadcasts S2048x256) (p : Fin 2048) (e : Fin 256) :
    broadcastTo S2048x256 v h (ix2 p e) = v (ix2 p (0 : Fin 1)) :=
  broadcastTo_apply v h (ix2 p e) (ix2 p (0 : Fin 1)) (fun a => match a with | ⟨0, _⟩ => rfl | ⟨1, _⟩ => rfl)

/-! ## The lane reductions of a row -/

theorem ninf_bits : Ideal.ofBits .f32 0xFF800000#32 = ⊥ := by simp [Ideal.ofBits, Ideal.ieee]

theorem lift_eq (h : S2048x1024.Reduces [1] S2048) (p : Fin 2048) (q : Fin 1024) : h.lift (ix1 p) q = ix2 p q :=
  Shape.idx_ext₂ rfl rfl

/-- A row's maximum over the 1024 lanes, from the bottom element. -/
theorem rowMax_apply (src : FVec Ideal S2048x1024 .f32) (h : S2048x1024.Reduces [1] S2048) (hφ : FKind.Formats .f32)
    (hacc : (0xFF800000#32 : BitVec 32) = FKind.maximumf.neutral .f32 hφ) (p : Fin 2048) :
    multiReduction .maximumf [1] S2048 src 0xFF800000#32 h hφ hacc (ix1 p) = blkMax (fun q => src (ix2 p q)) := by
  refine (Ideal.multiReduction_maximumf_single src 0xFF800000#32 h hφ hacc (ix1 p)).trans ?_
  show (Finset.univ : Finset (Fin 1024)).fold max (Ideal.ofBits .f32 0xFF800000#32) (fun q => src (h.lift (ix1 p) q)) = _
  rw [ninf_bits]
  unfold blkMax
  exact congrArg (fun f => (Finset.univ : Finset (Fin 1024)).fold max ⊥ f) (funext fun q => congrArg src (lift_eq h p q))

/-- A row's sum over the 1024 lanes. -/
theorem rowSum_apply (src : FVec Ideal S2048x1024 .f32) (h : S2048x1024.Reduces [1] S2048) (hφ : FKind.Formats .f32)
    (hacc : (0x00000000#32 : BitVec 32) = FKind.add.neutral .f32 hφ) (p : Fin 2048) :
    multiReduction .add [1] S2048 src 0x00000000#32 h hφ hacc (ix1 p) = ∑ q : Fin 1024, src (ix2 p q) := by
  refine (Ideal.multiReduction_add_single src 0x00000000#32 h hφ hacc (ix1 p)).trans ?_
  show ∑ q : Fin 1024, src (h.lift (ix1 p) q) = _
  exact Finset.sum_congr rfl fun q _ => congrArg src (lift_eq h p q)

/-! ## The second product: the exponentials against the value rows -/

theorem lhsB_0 (j : S2048x256.Idx) (k : dot_S2048x1024_S1024x256_S2048x256_1_0_0_1_n_n.contr.Idx) :
    (dot_S2048x1024_S1024x256_S2048x256_1_0_0_1_n_n.lhsIdx j k 0).val = (j 0).val := rfl
theorem lhsB_1 (j : S2048x256.Idx) (k : dot_S2048x1024_S1024x256_S2048x256_1_0_0_1_n_n.contr.Idx) :
    (dot_S2048x1024_S1024x256_S2048x256_1_0_0_1_n_n.lhsIdx j k 1).val = (k ⟨0, Nat.one_pos⟩).val := rfl
theorem rhsB_0 (j : S2048x256.Idx) (k : dot_S2048x1024_S1024x256_S2048x256_1_0_0_1_n_n.contr.Idx) :
    (dot_S2048x1024_S1024x256_S2048x256_1_0_0_1_n_n.rhsIdx j k 0).val = (k ⟨0, Nat.one_pos⟩).val := rfl
theorem rhsB_1 (j : S2048x256.Idx) (k : dot_S2048x1024_S1024x256_S2048x256_1_0_0_1_n_n.contr.Idx) :
    (dot_S2048x1024_S1024x256_S2048x256_1_0_0_1_n_n.rhsIdx j k 1).val = (j 1).val := rfl

/-- The weighted sum's product at an entry: the sum over the block's 1024 keys. -/
theorem mmB_apply (w : FVec Ideal S2048x1024 .f32) (x2 : FVec Ideal S1024x256 .f32) (p : Fin 2048) (e : Fin 256) :
    matmul dot_S2048x1024_S1024x256_S2048x256_1_0_0_1_n_n none w x2 (constant (F := Ideal) S2048x256 .f32 0x00000000#32) (ix2 p e)
      = ∑ q : Fin 1024, w (ix2 p q) * x2 (ix2 q e) := by
  refine (Ideal.matmul_constant_zero_apply dot_S2048x1024_S1024x256_S2048x256_1_0_0_1_n_n none w x2 (ix2 p e)).trans ?_
  refine (Equiv.sum_comp (contrEquiv1 dot_S2048x1024_S1024x256_S2048x256_1_0_0_1_n_n 1024 rfl rfl).symm _).symm.trans ?_
  refine Finset.sum_congr rfl fun q _ => ?_
  have hk := contrEquiv1_symm_val dot_S2048x1024_S1024x256_S2048x256_1_0_0_1_n_n 1024 rfl rfl q
  congr 1
  · refine congrArg w (Shape.idx_ext₂ ?_ ?_)
    · exact lhsB_0 _ _
    · exact (lhsB_1 _ _).trans hk
  · refine congrArg x2 (Shape.idx_ext₂ ?_ ?_)
    · exact (rhsB_0 _ _).trans hk
    · exact rhsB_1 _ _

/-! ## The payloads at an entry -/

/-- The exponential of a vector at an entry. -/
theorem vexp_apply {s : Shape} {φ : FTy} (a : FVec Ideal s φ) (i : s.Idx) : exp a i = Ideal.exp (a i) := rfl

/-- The new running maximum of row `p`. -/
theorem pay10_apply (x0 : Vec Ideal S2048x32 .f32) (x1 : Vec Ideal S32x1024 .f32) (x3 : Vec Ideal S2048x1024 .i32)
    (v18 : Vec Ideal S2048x1 .f32) (p : Fin 2048) :
    k0_pay10 (F := Ideal) x0 x1 x3 v18 (ix2 p (0 : Fin 1))
      = max (v18 (ix2 p (0 : Fin 1)) : EReal) (blkMax (scv x0 x1 x3 p)) := by
  unfold k0_pay10
  refine (maximumf_apply _ _ (ix2 p (0 : Fin 1))).trans ?_
  refine congrArg (max (v18 (ix2 p (0 : Fin 1)) : EReal)) ?_
  refine (colCast_apply _ _ p 0).trans ?_
  refine (rowMax_apply _ _ _ _ p).trans ?_
  exact congrArg blkMax (funext fun q => pay9_apply x0 x1 x3 p q)

/-- The rescaling factor of row `p`. -/
theorem pay11_apply (x0 : Vec Ideal S2048x32 .f32) (x1 : Vec Ideal S32x1024 .f32) (x3 : Vec Ideal S2048x1024 .i32)
    (v18 v22 : Vec Ideal S2048x1 .f32) (p : Fin 2048) :
    k0_pay11 (F := Ideal) x0 x1 x3 v18 v22 (ix2 p (0 : Fin 1))
      = Ideal.exp ((v22 (ix2 p (0 : Fin 1)) : EReal) - max (v18 (ix2 p (0 : Fin 1)) : EReal) (blkMax (scv x0 x1 x3 p))) := by
  unfold k0_pay11
  refine (vexp_apply _ (ix2 p (0 : Fin 1))).trans ?_
  refine congrArg Ideal.exp ?_
  refine (subf_apply _ _ (ix2 p (0 : Fin 1))).trans ?_
  exact congrArg (fun w : EReal => (v22 (ix2 p (0 : Fin 1)) : EReal) - w) (pay10_apply x0 x1 x3 v18 p)

/-- The block's exponentials of row `p`. -/
theorem pay12_apply (x0 : Vec Ideal S2048x32 .f32) (x1 : Vec Ideal S32x1024 .f32) (x3 : Vec Ideal S2048x1024 .i32)
    (v18 : Vec Ideal S2048x1 .f32) (p : Fin 2048) (q : Fin 1024) :
    k0_pay12 (F := Ideal) x0 x1 x3 v18 (ix2 p q)
      = Ideal.exp (scv x0 x1 x3 p q - max (v18 (ix2 p (0 : Fin 1)) : EReal) (blkMax (scv x0 x1 x3 p))) := by
  unfold k0_pay12
  refine (vexp_apply _ (ix2 p q)).trans ?_
  refine congrArg Ideal.exp ?_
  refine (subf_apply _ _ (ix2 p q)).trans ?_
  exact congrArg₂ (fun a b : EReal => a - b) (pay9_apply x0 x1 x3 p q)
    ((colBcastK_apply _ _ p q).trans (pay10_apply x0 x1 x3 v18 p))

/-- The new normaliser of row `p`. -/
theorem pay13_apply (x0 : Vec Ideal S2048x32 .f32) (x1 : Vec Ideal S32x1024 .f32) (x3 : Vec Ideal S2048x1024 .i32)
    (v18 v22 v28 : Vec Ideal S2048x1 .f32) (p : Fin 2048) :
    k0_pay13 (F := Ideal) x0 x1 x3 v18 v22 v28 (ix2 p (0 : Fin 1))
      = Ideal.exp ((v22 (ix2 p (0 : Fin 1)) : EReal) - max (v18 (ix2 p (0 : Fin 1)) : EReal) (blkMax (scv x0 x1 x3 p)))
          * (v28 (ix2 p (0 : Fin 1)) : EReal)
        + ∑ q : Fin 1024, Ideal.exp (scv x0 x1 x3 p q - max (v18 (ix2 p (0 : Fin 1)) : EReal) (blkMax (scv x0 x1 x3 p))) := by
  unfold k0_pay13
  refine (addf_apply _ _ (ix2 p (0 : Fin 1))).trans ?_
  refine congrArg₂ (fun a b : EReal => a + b) ?_ ?_
  · refine (mulf_apply _ _ (ix2 p (0 : Fin 1))).trans ?_
    exact congrArg (fun a : EReal => a * (v28 (ix2 p (0 : Fin 1)) : EReal)) (pay11_apply x0 x1 x3 v18 v22 p)
  · refine (colCast_apply _ _ p 0).trans ?_
    refine (rowSum_apply _ _ _ _ p).trans ?_
    exact Finset.sum_congr rfl fun q _ => pay12_apply x0 x1 x3 v18 p q

/-- The new weighted sum at an entry. -/
theorem pay2_apply (v24 : FVec Ideal S2048x1 .f32) (v27 : FVec Ideal S2048x1024 .f32) (x2 : Vec Ideal S1024x256 .f32)
    (v39 : Vec Ideal S2048x256 .f32) (p : Fin 2048) (e : Fin 256) :
    k0_pay2 (F := Ideal) v24 v27 x2 v39 (ix2 p e)
      = v24 (ix2 p (0 : Fin 1)) * (v39 (ix2 p e) : EReal) + ∑ q : Fin 1024, v27 (ix2 p q) * (x2 (ix2 q e) : EReal) := by
  unfold k0_pay2
  refine (congrFun (shapeCast_self _ _) (ix2 p e)).trans ?_
  refine (addf_apply _ _ (ix2 p e)).trans ?_
  refine congrArg₂ (fun a b : EReal => a + b) ?_ ?_
  · refine (mulf_apply _ _ (ix2 p e)).trans ?_
    exact congrArg (fun a : EReal => a * (v39 (ix2 p e) : EReal)) (colBcastE_apply v24 _ p e)
  · refine (congrArg (fun X : FVec Ideal S1024x256 .f32 => matmul dot_S2048x1024_S1024x256_S2048x256_1_0_0_1_n_n none v27 X
      (constant (F := Ideal) S2048x256 .f32 0x00000000#32) (ix2 p e)) (shapeCast_self x2 _)).trans ?_
    exact mmB_apply v27 x2 p e

/-- The quotient at an entry. -/
theorem pay4_apply (v52 : Vec Ideal S2048x256 .f32) (v53 : Vec Ideal S2048x1 .f32) (p : Fin 2048) (e : Fin 256) :
    k0_pay4 (F := Ideal) v52 v53 (ix2 p e) = Ideal.div (v52 (ix2 p e) : EReal) (v53 (ix2 p (0 : Fin 1)) : EReal) := by
  unfold k0_pay4
  refine (divf_apply _ _ (ix2 p e)).trans ?_
  exact congrArg (Ideal.div (v52 (ix2 p e) : EReal)) (colBcastE_apply v53 _ p e)

/-- The three stores that only re-cast their operand. -/
theorem pay1_eq (v : FVec Ideal S2048x1 .f32) : k0_pay1 (F := Ideal) v = v := shapeCast_self _ _
theorem pay3_eq (v : FVec Ideal S2048x1 .f32) : k0_pay3 (F := Ideal) v = v := shapeCast_self _ _
theorem pay8_eq (v : Vec Ideal S2048x256 .f32) : k0_pay8 (F := Ideal) v = v := shapeCast_self _ _

/-- The three resets. -/
theorem pay5_apply (i : S2048x1.Idx) : k0_pay5 (F := Ideal) i = negBig := by
  unfold k0_pay5
  exact congrFun (shapeCast_self _ _) i
theorem pay6_apply (i : S2048x1.Idx) : k0_pay6 (F := Ideal) i = 0 := by
  unfold k0_pay6
  refine (congrFun (shapeCast_self _ _) i).trans ?_
  exact Ideal.ofBits_zero_f32
theorem pay7_apply (i : S2048x256.Idx) : k0_pay7 (F := Ideal) i = 0 := by
  unfold k0_pay7
  refine (congrFun (shapeCast_self _ _) i).trans ?_
  exact Ideal.ofBits_zero_f32

/-! ## One step of the recurrence, row by row -/

/-- A row's carried state out of any three scratch contents. -/
def stv (v18 v28 : Vec Ideal S2048x1 .f32) (v39 : Vec Ideal S2048x256 .f32) (p : Fin 2048) : St :=
  ⟨(v18 (ix2 p (0 : Fin 1)) : EReal), (v28 (ix2 p (0 : Fin 1)) : EReal), fun e => (v39 (ix2 p e) : EReal)⟩

/-- A state is its three fields. -/
theorem St.ext' {a b : St} (hm : a.m = b.m) (hl : a.l = b.l) (ha : ∀ e, a.acc e = b.acc e) : a = b := by
  cases a; cases b
  simp only [St.mk.injEq]
  exact ⟨hm, hl, funext ha⟩

/-- The reset contents are the initial state. -/
theorem stv_init (p : Fin 2048) : stv (k0_pay5 (F := Ideal)) (k0_pay6 (F := Ideal)) (k0_pay7 (F := Ideal)) p = St.init :=
  St.ext' (pay5_apply (ix2 p (0 : Fin 1))) (pay6_apply (ix2 p (0 : Fin 1))) (fun e => pay7_apply (ix2 p e))

/-- The stored maximum of row `p` is the stepped maximum. -/
theorem step_m (x0 : Vec Ideal S2048x32 .f32) (x1 : Vec Ideal S32x1024 .f32) (x2 : Vec Ideal S1024x256 .f32)
    (x3 : Vec Ideal S2048x1024 .i32) (v18 v28 : Vec Ideal S2048x1 .f32) (v39 : Vec Ideal S2048x256 .f32) (p : Fin 2048) :
    k0_pay3 (F := Ideal) (k0_pay10 (F := Ideal) x0 x1 x3 v18) (ix2 p (0 : Fin 1))
      = (St.step (scv x0 x1 x3 p) (fun q e => (x2 (ix2 q e) : EReal)) (stv v18 v28 v39 p)).m :=
  (congrFun (pay3_eq _) _).trans (pay10_apply x0 x1 x3 v18 p)

/-- The stored normaliser of row `p` is the stepped normaliser. -/
theorem step_l (x0 : Vec Ideal S2048x32 .f32) (x1 : Vec Ideal S32x1024 .f32) (x2 : Vec Ideal S1024x256 .f32)
    (x3 : Vec Ideal S2048x1024 .i32) (v18 v28 : Vec Ideal S2048x1 .f32) (v39 : Vec Ideal S2048x256 .f32) (p : Fin 2048) :
    k0_pay1 (F := Ideal) (k0_pay13 (F := Ideal) x0 x1 x3 v18 v18 v28) (ix2 p (0 : Fin 1))
      = (St.step (scv x0 x1 x3 p) (fun q e => (x2 (ix2 q e) : EReal)) (stv v18 v28 v39 p)).l :=
  (congrFun (pay1_eq _) _).trans (pay13_apply x0 x1 x3 v18 v18 v28 p)

/-- The stored weighted sum of row `p` is the stepped weighted sum. -/
theorem step_acc (x0 : Vec Ideal S2048x32 .f32) (x1 : Vec Ideal S32x1024 .f32) (x2 : Vec Ideal S1024x256 .f32)
    (x3 : Vec Ideal S2048x1024 .i32) (v18 v28 : Vec Ideal S2048x1 .f32) (v39 : Vec Ideal S2048x256 .f32) (p : Fin 2048)
    (e : Fin 256) :
    k0_pay2 (F := Ideal) (k0_pay11 (F := Ideal) x0 x1 x3 v18 v18) (k0_pay12 (F := Ideal) x0 x1 x3 v18) x2 v39 (ix2 p e)
      = (St.step (scv x0 x1 x3 p) (fun q e => (x2 (ix2 q e) : EReal)) (stv v18 v28 v39 p)).acc e := by
  refine (pay2_apply _ _ x2 v39 p e).trans ?_
  exact congrArg₂ (fun (a : EReal) (f : Fin 1024 → EReal) => a * (v39 (ix2 p e) : EReal) + ∑ q : Fin 1024, f q * (x2 (ix2 q e) : EReal))
    (pay11_apply x0 x1 x3 v18 v18 p) (funext fun q => pay12_apply x0 x1 x3 v18 p q)

end Cert.KernelIdeal.Body

end
-- ==== Proof.KI.PieceValSc.lean ====
/-
  What the opening point of a query tile leaves in the three scratch buffers, row by row. Its stores into each
  buffer are a reset (the finite fill, zero, zero) followed by the update read back over that reset; the update
  covers the buffer, so the buffer holds the update's payload over the reset contents, and row by row that is one
  step of the blockwise softmax recurrence from the initial state. A triple of contents whose components are the
  three stored payloads over any carried triple is one step from the carried row: the same fact serves the points
  inside a tile's walk.
-/
import proofs.«426227_j46033459479181_3_alg».proof.Proof.KI.Tile
import proofs.«426227_j46033459479181_3_alg».proof.Proof.KI.PayVal
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

open Idealize.ShloMosaic.ValueIdx Cert.Attn

theorem hz2 : (![0, 0] : Fin 2 → Nat) = fun _ => 0 := by
  funext a; match a with | ⟨0, _⟩ => rfl | ⟨1, _⟩ => rfl

/-! ## The opening point: what its stores leave in the three scratch buffers -/

theorem scA_fst (c : Dev nD) (t : Fin cfg0.N) (h0 : t.val % 8 = 0) (h1 : ¬t.val % 8 = 7) :
    (scA (F := Ideal) m c t h0 h1).1
      = k0_pay3 (F := Ideal) (k0_pay10 (F := Ideal) (xb0 m c t) (xb1 m c t) (xb3 m c t) (k0_pay5 (F := Ideal))) := by
  unfold scA rb1
  dsimp only
  rw [View.read_writes_eq_canon _ _ _ (coverA0 m c t h0 h1)]
  unfold atA runA
  dsimp only
  sl_unfold_words
  rw [View.canon_cons_unit_zero (S := S2048x1) hz2]
  simp only [View.readAt_eq_ld, (hs0 t).read_unread, (hs1 t).read_unread, (hs2 t).read_unread, (hs3 t).read_unread,
    View.ld_unit_zero (S := S2048x32) hz2, View.ld_unit_zero (S := S32x1024) hz2, View.ld_unit_zero (S := S1024x256) hz2,
    View.ld_unit_zero (S := S2048x1024) hz2, View.readCov_unit_zero (S := S2048x1) _ hz2,
    View.readCov_unit_zero (S := S2048x256) _ hz2]

theorem scA_snd (c : Dev nD) (t : Fin cfg0.N) (h0 : t.val % 8 = 0) (h1 : ¬t.val % 8 = 7) :
    (scA (F := Ideal) m c t h0 h1).2.1
      = k0_pay1 (F := Ideal) (k0_pay13 (F := Ideal) (xb0 m c t) (xb1 m c t) (xb3 m c t) (k0_pay5 (F := Ideal)) (k0_pay5 (F := Ideal))
          (k0_pay6 (F := Ideal))) := by
  unfold scA rb1
  dsimp only
  rw [View.read_writes_eq_canon _ _ _ (coverA1 m c t h0 h1)]
  unfold atA runA
  dsimp only
  sl_unfold_words
  rw [View.canon_cons_unit_zero (S := S2048x1) hz2]
  simp only [View.readAt_eq_ld, (hs0 t).read_unread, (hs1 t).read_unread, (hs2 t).read_unread, (hs3 t).read_unread,
    View.ld_unit_zero (S := S2048x32) hz2, View.ld_unit_zero (S := S32x1024) hz2, View.ld_unit_zero (S := S1024x256) hz2,
    View.ld_unit_zero (S := S2048x1024) hz2, View.readCov_unit_zero (S := S2048x1) _ hz2,
    View.readCov_unit_zero (S := S2048x256) _ hz2]

theorem scA_thd (c : Dev nD) (t : Fin cfg0.N) (h0 : t.val % 8 = 0) (h1 : ¬t.val % 8 = 7) :
    (scA (F := Ideal) m c t h0 h1).2.2
      = k0_pay2 (F := Ideal) (k0_pay11 (F := Ideal) (xb0 m c t) (xb1 m c t) (xb3 m c t) (k0_pay5 (F := Ideal)) (k0_pay5 (F := Ideal)))
          (k0_pay12 (F := Ideal) (xb0 m c t) (xb1 m c t) (xb3 m c t) (k0_pay5 (F := Ideal))) (xb2 m c t) (k0_pay7 (F := Ideal)) := by
  unfold scA rb2
  dsimp only
  rw [View.read_writes_eq_canon _ _ _ (coverA2 m c t h0 h1)]
  unfold atA runA
  dsimp only
  sl_unfold_words
  rw [View.canon_cons_unit_zero (S := S2048x256) hz2]
  simp only [View.readAt_eq_ld, (hs0 t).read_unread, (hs1 t).read_unread, (hs2 t).read_unread, (hs3 t).read_unread,
    View.ld_unit_zero (S := S2048x32) hz2, View.ld_unit_zero (S := S32x1024) hz2, View.ld_unit_zero (S := S1024x256) hz2,
    View.ld_unit_zero (S := S2048x1024) hz2, View.readCov_unit_zero (S := S2048x1) _ hz2,
    View.readCov_unit_zero (S := S2048x256) _ hz2]

/-- A triple of scratch contents whose three components are the stored payloads over a carried triple is, row by
    row, one step of the recurrence from the carried row. -/
theorem stOf_step (xs : Sc Ideal) (x0 : Vec Ideal S2048x32 .f32) (x1 : Vec Ideal S32x1024 .f32) (x2 : Vec Ideal S1024x256 .f32)
    (x3 : Vec Ideal S2048x1024 .i32) (v18 v28 : Vec Ideal S2048x1 .f32) (v39 : Vec Ideal S2048x256 .f32)
    (e1 : xs.1 = k0_pay3 (F := Ideal) (k0_pay10 (F := Ideal) x0 x1 x3 v18))
    (e2 : xs.2.1 = k0_pay1 (F := Ideal) (k0_pay13 (F := Ideal) x0 x1 x3 v18 v18 v28))
    (e3 : xs.2.2 = k0_pay2 (F := Ideal) (k0_pay11 (F := Ideal) x0 x1 x3 v18 v18) (k0_pay12 (F := Ideal) x0 x1 x3 v18) x2 v39)
    (p : Fin 2048) :
    stOf xs p = St.step (scv x0 x1 x3 p) (fun q e => (x2 (ix2 q e) : EReal)) (stv v18 v28 v39 p) := by
  obtain ⟨a, b, d⟩ := xs
  dsimp only at e1 e2 e3
  subst e1 e2 e3
  exact St.ext' (step_m x0 x1 x2 x3 v18 v28 v39 p) (step_l x0 x1 x2 x3 v18 v28 v39 p)
    (fun e => step_acc x0 x1 x2 x3 v18 v28 v39 p e)

theorem sbTile_eq (c : Dev nD) (t : Fin cfg0.N) (p : Fin 2048) :
    sb m c t p = scv (xb0 m c t) (xb1 m c t) (xb3 m c t) p := rfl
theorem vbTile_eq (c : Dev nD) (t : Fin cfg0.N) : vb m c t = fun q e => (xb2 m c t (ix2 q e) : EReal) := rfl

/-- Row by row the opening point leaves one step of the recurrence from the initial state. -/
theorem scA_row (c : Dev nD) (t : Fin cfg0.N) (h0 : t.val % 8 = 0) (h1 : ¬t.val % 8 = 7) (p : Fin 2048) :
    stOf (scA (F := Ideal) m c t h0 h1) p = St.step (sb m c t p) (vb m c t) St.init := by
  have h := stOf_step (scA (F := Ideal) m c t h0 h1) (xb0 m c t) (xb1 m c t) (xb2 m c t) (xb3 m c t)
    (k0_pay5 (F := Ideal)) (k0_pay6 (F := Ideal)) (k0_pay7 (F := Ideal))
    (scA_fst m c t h0 h1) (scA_snd m c t h0 h1) (scA_thd m c t h0 h1) p
  rw [stv_init] at h
  rw [sbTile_eq, vbTile_eq]
  exact h

end Cert.KernelIdeal.Body

end
-- ==== Proof.KI.PieceValScB.lean ====
/-
  What the two cases of the body after a query tile's opening point leave in the three scratch buffers, read at a
  row. Each case loads the point's blocks and the carried maximum, normaliser and weighted sum whole, and stores each
  of the three buffers once, whole: the new maximum, the rescaled normaliser plus the block's exponentials, the
  rescaled weighted sum plus the exponentials' products with the value rows. So each buffer ends at its one store's
  payload, and row by row the three payloads are one step of the blockwise softmax recurrence from the carried row.
-/
import proofs.«426227_j46033459479181_3_alg».proof.Proof.KI.Tile
import proofs.«426227_j46033459479181_3_alg».proof.Proof.KI.PayVal
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

open Idealize.ShloMosaic.ValueIdx Cert.Attn

/-- Two zero offsets, however spelt. -/
theorem scHz2 : (![0, 0] : Fin 2 → Nat) = fun _ => 0 := by
  funext a; match a with | ⟨0, _⟩ => rfl | ⟨1, _⟩ => rfl

/-- A whole scratch buffer reads back the contents it holds. -/
theorem scRead0 (h : (scM0).IsWhole) (X : Vec Ideal S2048x1 .f32) :
    View.read (Elt Ideal) (View.whole cc0_scratch0) (h.unread X) = X := h.read_unread X
theorem scRead1 (h : (scM1).IsWhole) (X : Vec Ideal S2048x1 .f32) :
    View.read (Elt Ideal) (View.whole cc0_scratch1) (h.unread X) = X := h.read_unread X
theorem scRead2 (h : (scM2).IsWhole) (X : Vec Ideal S2048x256 .f32) :
    View.read (Elt Ideal) (View.whole cc0_scratch2) (h.unread X) = X := h.read_unread X

/-- The three fields of a row's carried state, over any scratch contents. -/
theorem stOf_m (xs : Sc Ideal) (p : Fin 2048) : (stOf xs p).m = (xs.1 (ix2 p (0 : Fin 1)) : EReal) := rfl
theorem stOf_l (xs : Sc Ideal) (p : Fin 2048) : (stOf xs p).l = (xs.2.1 (ix2 p (0 : Fin 1)) : EReal) := rfl
theorem stOf_acc (xs : Sc Ideal) (p : Fin 2048) (e : Fin 256) : (stOf xs p).acc e = (xs.2.2 (ix2 p e) : EReal) := rfl

/-- A tile row's masked scores, the point's value rows and a row's carried state, through the blocks as variables. -/
theorem sb_eq_scv (c : Dev nD) (t : Fin cfg0.N) (p : Fin 2048) : sb m c t p = scv (xb0 m c t) (xb1 m c t) (xb3 m c t) p := rfl
theorem vb_eq_fun (c : Dev nD) (t : Fin cfg0.N) : vb m c t = fun q e => (xb2 m c t (ix2 q e) : EReal) := rfl
theorem stOf_eq_stv (xs : Sc Ideal) (p : Fin 2048) : stOf xs p = stv xs.1 xs.2.1 xs.2.2 p := rfl

/-- What the case leaves in the running-maximum buffer: the one store's payload. -/
theorem scB_fst (c : Dev nD) (t : Fin cfg0.N) (h0 : ¬t.val % 8 = 0) (h1 : ¬t.val % 8 = 7) (xs : Sc Ideal) :
    (scB (F := Ideal) m c t h0 h1 xs).1
      = k0_pay3 (F := Ideal) (k0_pay10 (F := Ideal) (xb0 m c t) (xb1 m c t) (xb3 m c t) xs.1) := by
  unfold scB rb1
  dsimp only
  rw [View.read_writes_eq_canon _ _ _ (coverB0 m c t h0 h1 xs)]
  unfold atB runB
  dsimp only
  sl_unfold_words
  rw [View.canon_unit_zero (S := S2048x1) scHz2]
  simp only [View.readAt_eq_ld, Memref.IsWhole.read_unread, View.ld_unit_zero (S := S2048x32) scHz2,
    View.ld_unit_zero (S := S32x1024) scHz2, View.ld_unit_zero (S := S2048x1024) scHz2, View.ld_unit_zero (S := S2048x1) scHz2,
    scRead0, scRead1, scRead2]

/-- What the case leaves in the normaliser buffer: the one store's payload. -/
theorem scB_snd (c : Dev nD) (t : Fin cfg0.N) (h0 : ¬t.val % 8 = 0) (h1 : ¬t.val % 8 = 7) (xs : Sc Ideal) :
    (scB (F := Ideal) m c t h0 h1 xs).2.1
      = k0_pay1 (F := Ideal) (k0_pay13 (F := Ideal) (xb0 m c t) (xb1 m c t) (xb3 m c t) xs.1 xs.1 xs.2.1) := by
  unfold scB rb1
  dsimp only
  rw [View.read_writes_eq_canon _ _ _ (coverB1 m c t h0 h1 xs)]
  unfold atB runB
  dsimp only
  sl_unfold_words
  rw [View.canon_unit_zero (S := S2048x1) scHz2]
  simp only [View.readAt_eq_ld, Memref.IsWhole.read_unread, View.ld_unit_zero (S := S2048x32) scHz2,
    View.ld_unit_zero (S := S32x1024) scHz2, View.ld_unit_zero (S := S2048x1024) scHz2, View.ld_unit_zero (S := S2048x1) scHz2,
    scRead0, scRead1, scRead2]

/-- What the case leaves in the weighted-sum buffer: the one store's payload. -/
theorem scB_thd (c : Dev nD) (t : Fin cfg0.N) (h0 : ¬t.val % 8 = 0) (h1 : ¬t.val % 8 = 7) (xs : Sc Ideal) :
    (scB (F := Ideal) m c t h0 h1 xs).2.2
      = k0_pay2 (F := Ideal) (k0_pay11 (F := Ideal) (xb0 m c t) (xb1 m c t) (xb3 m c t) xs.1 xs.1)
          (k0_pay12 (F := Ideal) (xb0 m c t) (xb1 m c t) (xb3 m c t) xs.1) (xb2 m c t) xs.2.2 := by
  unfold scB rb2
  dsimp only
  rw [View.read_writes_eq_canon _ _ _ (coverB2 m c t h0 h1 xs)]
  unfold atB runB
  dsimp only
  sl_unfold_words
  rw [View.canon_unit_zero (S := S2048x256) scHz2]
  simp only [View.readAt_eq_ld, Memref.IsWhole.read_unread, View.ld_unit_zero (S := S2048x32) scHz2,
    View.ld_unit_zero (S := S32x1024) scHz2, View.ld_unit_zero (S := S2048x1024) scHz2, View.ld_unit_zero (S := S2048x1) scHz2,
    View.ld_unit_zero (S := S1024x256) scHz2, View.ld_unit_zero (S := S2048x256) scHz2, scRead0, scRead1, scRead2]

/-- What the case leaves in the running-maximum buffer: the one store's payload. -/
theorem scC_fst (c : Dev nD) (t : Fin cfg0.N) (h0 : ¬t.val % 8 = 0) (h1 : t.val % 8 = 7) (xs : Sc Ideal) :
    (scC (F := Ideal) m c t h0 h1 xs).1
      = k0_pay3 (F := Ideal) (k0_pay10 (F := Ideal) (xb0 m c t) (xb1 m c t) (xb3 m c t) xs.1) := by
  unfold scC rb1
  dsimp only
  rw [View.read_writes_eq_canon _ _ _ (coverC0 m c t h0 h1 xs)]
  unfold atC runC
  dsimp only
  sl_unfold_words
  rw [View.canon_unit_zero (S := S2048x1) scHz2]
  simp only [View.readAt_eq_ld, Memref.IsWhole.read_unread, View.ld_unit_zero (S := S2048x32) scHz2,
    View.ld_unit_zero (S := S32x1024) scHz2, View.ld_unit_zero (S := S2048x1024) scHz2, View.ld_unit_zero (S := S2048x1) scHz2,
    scRead0, scRead1, scRead2]

/-- What the case leaves in the normaliser buffer: the one store's payload. -/
theorem scC_snd (c : Dev nD) (t : Fin cfg0.N) (h0 : ¬t.val % 8 = 0) (h1 : t.val % 8 = 7) (xs : Sc Ideal) :
    (scC (F := Ideal) m c t h0 h1 xs).2.1
      = k0_pay1 (F := Ideal) (k0_pay13 (F := Ideal) (xb0 m c t) (xb1 m c t) (xb3 m c t) xs.1 xs.1 xs.2.1) := by
  unfold scC rb1
  dsimp only
  rw [View.read_writes_eq_canon _ _ _ (coverC1 m c t h0 h1 xs)]
  unfold atC runC
  dsimp only
  sl_unfold_words
  rw [View.canon_unit_zero (S := S2048x1) scHz2]
  simp only [View.readAt_eq_ld, Memref.IsWhole.read_unread, View.ld_unit_zero (S := S2048x32) scHz2,
    View.ld_unit_zero (S := S32x1024) scHz2, View.ld_unit_zero (S := S2048x1024) scHz2, View.ld_unit_zero (S := S2048x1) scHz2,
    scRead0, scRead1, scRead2]

/-- What the case leaves in the weighted-sum buffer: the one store's payload. -/
theorem scC_thd (c : Dev nD) (t : Fin cfg0.N) (h0 : ¬t.val % 8 = 0) (h1 : t.val % 8 = 7) (xs : Sc Ideal) :
    (scC (F := Ideal) m c t h0 h1 xs).2.2
      = k0_pay2 (F := Ideal) (k0_pay11 (F := Ideal) (xb0 m c t) (xb1 m c t) (xb3 m c t) xs.1 xs.1)
          (k0_pay12 (F := Ideal) (xb0 m c t) (xb1 m c t) (xb3 m c t) xs.1) (xb2 m c t) xs.2.2 := by
  unfold scC rb2
  dsimp only
  rw [View.read_writes_eq_canon _ _ _ (coverC2 m c t h0 h1 xs)]
  unfold atC runC
  dsimp only
  sl_unfold_words
  rw [View.canon_unit_zero (S := S2048x256) scHz2]
  simp only [View.readAt_eq_ld, Memref.IsWhole.read_unread, View.ld_unit_zero (S := S2048x32) scHz2,
    View.ld_unit_zero (S := S32x1024) scHz2, View.ld_unit_zero (S := S2048x1024) scHz2, View.ld_unit_zero (S := S2048x1) scHz2,
    View.ld_unit_zero (S := S1024x256) scHz2, View.ld_unit_zero (S := S2048x256) scHz2, scRead0, scRead1, scRead2]

/-- Inside a query tile's walk row `p` of the three scratch buffers takes one step of the recurrence from what the point before left. -/
theorem scB_row (c : Dev nD) (t : Fin cfg0.N) (h0 : ¬t.val % 8 = 0) (h1 : ¬t.val % 8 = 7) (xs : Sc Ideal) (p : Fin 2048) :
    stOf (scB (F := Ideal) m c t h0 h1 xs) p = St.step (sb m c t p) (vb m c t) (stOf xs p) := by
  rw [sb_eq_scv, vb_eq_fun, stOf_eq_stv xs p]
  refine St.ext' ?_ ?_ (fun e => ?_)
  · rw [stOf_m, scB_fst]
    exact step_m (xb0 m c t) (xb1 m c t) (xb2 m c t) (xb3 m c t) xs.1 xs.2.1 xs.2.2 p
  · rw [stOf_l, scB_snd]
    exact step_l (xb0 m c t) (xb1 m c t) (xb2 m c t) (xb3 m c t) xs.1 xs.2.1 xs.2.2 p
  · rw [stOf_acc, scB_thd]
    exact step_acc (xb0 m c t) (xb1 m c t) (xb2 m c t) (xb3 m c t) xs.1 xs.2.1 xs.2.2 p e

/-- At the closing point of a query tile row `p` of the three scratch buffers takes one step of the recurrence from what the point before left. -/
theorem scC_row (c : Dev nD) (t : Fin cfg0.N) (h0 : ¬t.val % 8 = 0) (h1 : t.val % 8 = 7) (xs : Sc Ideal) (p : Fin 2048) :
    stOf (scC (F := Ideal) m c t h0 h1 xs) p = St.step (sb m c t p) (vb m c t) (stOf xs p) := by
  rw [sb_eq_scv, vb_eq_fun, stOf_eq_stv xs p]
  refine St.ext' ?_ ?_ (fun e => ?_)
  · rw [stOf_m, scC_fst]
    exact step_m (xb0 m c t) (xb1 m c t) (xb2 m c t) (xb3 m c t) xs.1 xs.2.1 xs.2.2 p
  · rw [stOf_l, scC_snd]
    exact step_l (xb0 m c t) (xb1 m c t) (xb2 m c t) (xb3 m c t) xs.1 xs.2.1 xs.2.2 p
  · rw [stOf_acc, scC_thd]
    exact step_acc (xb0 m c t) (xb1 m c t) (xb2 m c t) (xb3 m c t) xs.1 xs.2.1 xs.2.2 p e

end Cert.KernelIdeal.Body

end
-- ==== Proof.KI.PieceValOut.lean ====
/-
  What the two cases that store into the output block leave there, read at an entry. The opening point of a query
  tile stores one piece, the projected query block, through the rectangle of the left 256 columns; the closing point
  stores one piece, the quotient of the weighted sum by the normaliser as the scratch buffers hold them after the
  point's own update, through the rectangle of the right 256 columns. An entry under the piece reads the piece's
  payload at its position in the rectangle; any other entry reads what the block held.
-/
import proofs.«426227_j46033459479181_3_alg».proof.Proof.KI.Tile
import proofs.«426227_j46033459479181_3_alg».proof.Proof.KI.PieceValScB
import Idealize.ShloMosaic.Lib.WritesUnit
import Idealize.ShloMosaic.Lib.Pipeline.Value
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

open Idealize.ShloMosaic.ValueIdx Cert.Attn

/-- The zero offsets of a rank-2 rectangle. -/
private theorem outHz2 : (![0, 0] : Fin 2 → Nat) = fun _ => 0 := by
  funext a; match a with | ⟨0, _⟩ => rfl | ⟨1, _⟩ => rfl

/-- A row's carried normaliser and weighted sum are entries of the second and third scratch contents. -/
private theorem outStOf_l (xs : Sc Ideal) (p : Fin 2048) : (stOf xs p).l = (xs.2.1 (ix2 p (0 : Fin 1)) : EReal) := rfl
private theorem outStOf_acc (xs : Sc Ideal) (p : Fin 2048) (e : Fin 256) : (stOf xs p).acc e = (xs.2.2 (ix2 p e) : EReal) := rfl

/-- The quotient by a column spread along the 256 lanes, at an entry. -/
private theorem outPay4_apply (v52 : Vec Ideal S2048x256 .f32) (v53 : Vec Ideal S2048x1 .f32) (p : Fin 2048) (e : Fin 256) :
    k0_pay4 (F := Ideal) v52 v53 (ix2 p e) = Ideal.div (v52 (ix2 p e) : EReal) (v53 (ix2 p (0 : Fin 1)) : EReal) := by
  unfold k0_pay4
  refine (divf_apply _ _ _).trans ?_
  refine congrArg (Ideal.div _) ?_
  exact broadcastTo_apply v53 _ (ix2 p e) (ix2 p (0 : Fin 1)) (fun a => match a with | ⟨0, _⟩ => rfl | ⟨1, _⟩ => rfl)

theorem outA_apply (c : Dev nD) (t : Fin cfg0.N) (h0 : t.val % 8 = 0) (h1 : ¬t.val % 8 = 7) (y5 : Vec Ideal S2048x512 .f32)
    (p : Fin 2048) (col : Fin 512) :
    outA (F := Ideal) m c t h0 h1 y5 (ix2 p col)
      = if h : col.val < 256 then (xb4 m c t (ix2 p (⟨col.val, h⟩ : Fin 256)) : EReal) else (y5 (ix2 p col) : EReal) := by
  unfold outA
  unfold atA runA
  dsimp only
  sl_unfold_words
  by_cases h : col.val < 256
  · rw [dif_pos h]
    refine (View.read_writes_cons_unit_of_mem (ms5 t).view _ inb_S2048x512_S2048x256_0_0 _ _ (ix2 p col)
      (ix2 p (⟨col.val, h⟩ : Fin 256)) rfl ?_).trans ?_
    · intro a
      match a with
      | ⟨0, _⟩ => show p.val = 0 + p.val; omega
      | ⟨1, _⟩ => show col.val = 0 + col.val; omega
    · unfold k0_pay8
      simp only [shapeCast_self, View.readAt_eq_ld, View.ld_unit_zero (S := S2048x256) outHz2, (hs4 t).read_unread]
  · rw [dif_neg h]
    refine (View.read_writes_cons_unit_of_not_mem (ms5 t).view _ inb_S2048x512_S2048x256_0_0 _ _ (ix2 p col) rfl
      (1 : Fin 2) (Or.inr ?_)).trans ?_
    · show 0 + 256 ≤ col.val
      omega
    · rw [View.writes_nil, (hs5 t).read_unread]

/-- The normaliser and the weighted sum the closing point loads back after its own update. -/
private abbrev ldL (c : Dev nD) (t : Fin cfg0.N) (h0 : ¬t.val % 8 = 0) (h1 : t.val % 8 = 7) (xs : Sc Ideal) : Vec Ideal S2048x1 .f32 :=
  scM1.view.readCov (atC (F := Ideal) m c t h0 h1 xs).2.1 (Rect.unit (s := S2048x1) ![0, 0] ![2048, 1] inb_S2048x1_S2048x1_0_0).toLoadRect
private abbrev ldAcc (c : Dev nD) (t : Fin cfg0.N) (h0 : ¬t.val % 8 = 0) (h1 : t.val % 8 = 7) (xs : Sc Ideal) : Vec Ideal S2048x256 .f32 :=
  scM2.view.readCov (atC (F := Ideal) m c t h0 h1 xs).2.2.1 (Rect.unit (s := S2048x256) ![0, 0] ![2048, 256] inb_S2048x256_S2048x256_0_0).toLoadRect

/-- They are the second and third scratch contents after the point. -/
private theorem scC_l_eq (c : Dev nD) (t : Fin cfg0.N) (h0 : ¬t.val % 8 = 0) (h1 : t.val % 8 = 7) (xs : Sc Ideal) :
    (scC (F := Ideal) m c t h0 h1 xs).2.1 = ldL m c t h0 h1 xs := by
  unfold scC rb1 ldL
  dsimp only
  rw [View.read_writes_eq_canon _ _ _ (coverC1 m c t h0 h1 xs)]
  unfold atC runC
  dsimp only
  sl_unfold_words
  rw [View.canon_unit_zero (S := S2048x1) outHz2, View.readCov_unit_zero (S := S2048x1) _ outHz2]

private theorem scC_acc_eq (c : Dev nD) (t : Fin cfg0.N) (h0 : ¬t.val % 8 = 0) (h1 : t.val % 8 = 7) (xs : Sc Ideal) :
    (scC (F := Ideal) m c t h0 h1 xs).2.2 = ldAcc m c t h0 h1 xs := by
  unfold scC rb2 ldAcc
  dsimp only
  rw [View.read_writes_eq_canon _ _ _ (coverC2 m c t h0 h1 xs)]
  unfold atC runC
  dsimp only
  sl_unfold_words
  rw [View.canon_unit_zero (S := S2048x256) outHz2, View.readCov_unit_zero (S := S2048x256) _ outHz2]

/-- The right half of the closing point's output block is the stored quotient. -/
private theorem outC_right (c : Dev nD) (t : Fin cfg0.N) (h0 : ¬t.val % 8 = 0) (h1 : t.val % 8 = 7) (xs : Sc Ideal) (y5 : Vec Ideal S2048x512 .f32)
    (p : Fin 2048) (col : Fin 512) (h : ¬col.val < 256) :
    outC (F := Ideal) m c t h0 h1 xs y5 (ix2 p col)
      = k0_pay4 (F := Ideal) (ldAcc m c t h0 h1 xs) (ldL m c t h0 h1 xs) (ix2 p (⟨col.val - 256, by omega⟩ : Fin 256)) := by
  unfold outC ldAcc ldL
  unfold atC runC
  dsimp only
  sl_unfold_words
  refine View.read_writes_cons_unit_of_mem (ms5 t).view _ inb_S2048x512_S2048x256_0_256 _ _ (ix2 p col)
    (ix2 p (⟨col.val - 256, by omega⟩ : Fin 256)) rfl ?_
  intro a
  match a with
  | ⟨0, _⟩ => show p.val = 0 + p.val; omega
  | ⟨1, _⟩ => show col.val = 256 + (col.val - 256); omega

/-- The left half of the closing point's output block is what the block held. -/
private theorem outC_left (c : Dev nD) (t : Fin cfg0.N) (h0 : ¬t.val % 8 = 0) (h1 : t.val % 8 = 7) (xs : Sc Ideal) (y5 : Vec Ideal S2048x512 .f32)
    (p : Fin 2048) (col : Fin 512) (h : col.val < 256) :
    outC (F := Ideal) m c t h0 h1 xs y5 (ix2 p col) = (y5 (ix2 p col) : EReal) := by
  unfold outC
  unfold atC runC
  dsimp only
  sl_unfold_words
  refine (View.read_writes_cons_unit_of_not_mem (ms5 t).view _ inb_S2048x512_S2048x256_0_256 _ _ (ix2 p col) rfl
    (1 : Fin 2) (Or.inl ?_)).trans ?_
  · show col.val < 256
    exact h
  · rw [View.writes_nil, (hs5 t).read_unread]

/-- The closing point's output block, the right half through the row's carried state as the scratch buffers hold it
    after the point. -/
theorem outC_apply_sc (c : Dev nD) (t : Fin cfg0.N) (h0 : ¬t.val % 8 = 0) (h1 : t.val % 8 = 7) (xs : Sc Ideal) (y5 : Vec Ideal S2048x512 .f32)
    (p : Fin 2048) (col : Fin 512) :
    outC (F := Ideal) m c t h0 h1 xs y5 (ix2 p col)
      = if h : col.val < 256 then (y5 (ix2 p col) : EReal)
        else Ideal.div ((stOf (scC (F := Ideal) m c t h0 h1 xs) p).acc ⟨col.val - 256, by omega⟩) (stOf (scC (F := Ideal) m c t h0 h1 xs) p).l := by
  by_cases h : col.val < 256
  · rw [dif_pos h]
    exact outC_left m c t h0 h1 xs y5 p col h
  · rw [dif_neg h, outStOf_l, outStOf_acc]
    refine (outC_right m c t h0 h1 xs y5 p col h).trans ?_
    refine (outPay4_apply _ _ p _).trans ?_
    exact congr (congrArg Ideal.div (congrFun (scC_acc_eq m c t h0 h1 xs).symm _)) (congrFun (scC_l_eq m c t h0 h1 xs).symm _)

/-- The closing point's output block, given that the scratch buffers after the point hold the row's stepped state. -/
theorem outC_apply_of_row (c : Dev nD) (t : Fin cfg0.N) (h0 : ¬t.val % 8 = 0) (h1 : t.val % 8 = 7) (xs : Sc Ideal) (y5 : Vec Ideal S2048x512 .f32)
    (p : Fin 2048) (col : Fin 512)
    (hrow : stOf (scC (F := Ideal) m c t h0 h1 xs) p = St.step (sb m c t p) (vb m c t) (stOf xs p)) :
    outC (F := Ideal) m c t h0 h1 xs y5 (ix2 p col)
      = if h : col.val < 256 then (y5 (ix2 p col) : EReal)
        else Ideal.div ((St.step (sb m c t p) (vb m c t) (stOf xs p)).acc ⟨col.val - 256, by omega⟩) (St.step (sb m c t p) (vb m c t) (stOf xs p)).l := by
  rw [← hrow]
  exact outC_apply_sc m c t h0 h1 xs y5 p col

theorem outC_apply (c : Dev nD) (t : Fin cfg0.N) (h0 : ¬t.val % 8 = 0) (h1 : t.val % 8 = 7) (xs : Sc Ideal) (y5 : Vec Ideal S2048x512 .f32)
    (p : Fin 2048) (col : Fin 512) :
    outC (F := Ideal) m c t h0 h1 xs y5 (ix2 p col)
      = if h : col.val < 256 then (y5 (ix2 p col) : EReal)
        else Ideal.div ((St.step (sb m c t p) (vb m c t) (stOf xs p)).acc ⟨col.val - 256, by omega⟩) (St.step (sb m c t p) (vb m c t) (stOf xs p)).l := by
  exact outC_apply_of_row m c t h0 h1 xs y5 p col (scC_row m c t h0 h1 xs p)

end Cert.KernelIdeal.Body

end
-- ==== Proof.KI.PieceVal.lean ====
/-
  What each case of the body leaves, read at an entry: row by row the three scratch buffers take one step of the
  blockwise softmax recurrence (from the initial state at a point that opens a query tile, from what the point before
  left otherwise), and the output block is overwritten in one half only: the left half with the projected query rows
  at the opening point, the right half with the quotient of the stepped weighted sum by the stepped normaliser at the
  closing point. The three parts are proved in the modules imported here.
-/
import proofs.«426227_j46033459479181_3_alg».proof.Proof.KI.PieceValSc
import proofs.«426227_j46033459479181_3_alg».proof.Proof.KI.PieceValScB
import proofs.«426227_j46033459479181_3_alg».proof.Proof.KI.PieceValOut
-- ==== Proof.KI.Online.lean ====
/-
  The carried state is the blockwise softmax recurrence. A window's block at a point is a rectangle of its array:
  the point number `t` is `8 * tile + key block`, the query tile's rows start at `2048 * (t / 8)` and the key block's
  keys at `1024 * (t % 8)`. So a tile row's masked scores at the point are the global row's masked scores at the
  block's keys, and by induction on the point the carried state of row `p` after point `t` is the state of the
  global row after its first `t % 8 + 1` key blocks.
-/
import proofs.«426227_j46033459479181_3_alg».proof.Proof.KI.KDefs
import proofs.«426227_j46033459479181_3_alg».proof.Proof.KI.PieceVal
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

open Idealize.ShloMosaic.ValueIdx Cert.Attn

/-! ## The block index of each window at a point: the tile number `t / 8`, the key block number `t % 8` -/

private theorem index0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
private theorem index1 : ∀ t : Fin cfg0.N, win0_1.index t (0 : Fin 2) = 0 ∧ win0_1.index t (1 : Fin 2) = t.val % 8 :=
  (by decide +kernel : ∀ t : Fin grid0.N, win0_1.index t (0 : Fin 2) = 0 ∧ win0_1.index t (1 : Fin 2) = t.val % 8)
private theorem index2 : ∀ t : Fin cfg0.N, win0_2.index t (0 : Fin 2) = t.val % 8 ∧ win0_2.index t (1 : Fin 2) = 0 :=
  (by decide +kernel : ∀ t : Fin grid0.N, win0_2.index t (0 : Fin 2) = t.val % 8 ∧ win0_2.index t (1 : Fin 2) = 0)
private theorem index3 : ∀ t : Fin cfg0.N, win0_3.index t (0 : Fin 2) = t.val / 8 ∧ win0_3.index t (1 : Fin 2) = t.val % 8 :=
  (by decide +kernel : ∀ t : Fin grid0.N, win0_3.index t (0 : Fin 2) = t.val / 8 ∧ win0_3.index t (1 : Fin 2) = t.val % 8)
private theorem index4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- Key `q` of one of the eight blocks is key `1024 * k + q`. -/
private theorem keyOf_val (k : ℕ) (hk : k < 8) (q : Fin 1024) : (keyOf k q).val = 1024 * k + q.val := by
  unfold keyOf
  rw [dif_pos (by have := q.isLt; omega)]

/-! ## Block reads -/

/-- The point's query-feature block is a rectangle of the query features. -/
private theorem iblk0_apply (c : Dev nD) (t : Fin cfg0.N) (p : Fin 2048) (h : Fin 32) :
    (xb0 m c t (ix2 p h) : EReal) = (opXatt m c (ix2 (rowOf t p) h) : EReal) := by
  have hi := index0 t
  show opXatt m c (((cfg0.win 0).blk t).view.emb (ix2 p h)) = opXatt m c (ix2 (rowOf t p) h)
  refine congrArg (opXatt m c) ?_
  funext a
  apply Fin.ext
  match a with
  | ⟨0, _⟩ => show win0_0.index t 0 * 2048 + 1 * p.val = 2048 * (t.val / 8) + p.val; rw [hi.1]; omega
  | ⟨1, _⟩ => show win0_0.index t 1 * 32 + 1 * h.val = h.val; rw [hi.2]; omega

/-- The point's transposed key-feature block is a rectangle of the transposed key features. -/
private theorem iblk1_apply (c : Dev nD) (t : Fin cfg0.N) (h : Fin 32) (q : Fin 1024) :
    (xb1 m c t (ix2 h q) : EReal) = (opNattT m c (ix2 h (keyOf (t.val % 8) q)) : EReal) := by
  have hi := index1 t
  have hk := keyOf_val (t.val % 8) (Nat.mod_lt _ (by decide)) q
  show opNattT m c (((cfg0.win 1).blk t).view.emb (ix2 h q)) = opNattT m c (ix2 h (keyOf (t.val % 8) q))
  refine congrArg (opNattT m c) ?_
  funext a
  apply Fin.ext
  match a with
  | ⟨0, _⟩ => show win0_1.index t 0 * 32 + 1 * h.val = h.val; rw [hi.1]; omega
  | ⟨1, _⟩ => show win0_1.index t 1 * 1024 + 1 * q.val = (keyOf (t.val % 8) q).val; rw [hi.2, hk]; omega

/-- The point's value block is a rectangle of the value rows. -/
private theorem iblk2_apply (c : Dev nD) (t : Fin cfg0.N) (q : Fin 1024) (e : Fin 256) :
    (xb2 m c t (ix2 q e) : EReal) = (opVal m c (ix2 (keyOf (t.val % 8) q) e) : EReal) := by
  have hi := index2 t
  have hk := keyOf_val (t.val % 8) (Nat.mod_lt _ (by decide)) q
  show opVal m c (((cfg0.win 2).blk t).view.emb (ix2 q e)) = opVal m c (ix2 (keyOf (t.val % 8) q) e)
  refine congrArg (opVal m c) ?_
  funext a
  apply Fin.ext
  match a with
  | ⟨0, _⟩ => show win0_2.index t 0 * 1024 + 1 * q.val = (keyOf (t.val % 8) q).val; rw [hi.1, hk]; omega
  | ⟨1, _⟩ => show win0_2.index t 1 * 256 + 1 * e.val = e.val; rw [hi.2]; omega

/-- The point's adjacency block is a rectangle of the adjacency words. -/
private theorem iblk3_apply (c : Dev nD) (t : Fin cfg0.N) (p : Fin 2048) (q : Fin 1024) :
    (xb3 m c t (ix2 p q) : BitVec 32) = (opAdj m c (ix2 (rowOf t p) (keyOf (t.val % 8) q)) : BitVec 32) := by
  have hi := index3 t
  have hk := keyOf_val (t.val % 8) (Nat.mod_lt _ (by decide)) q
  show opAdj m c (((cfg0.win 3).blk t).view.emb (ix2 p q)) = opAdj m c (ix2 (rowOf t p) (keyOf (t.val % 8) q))
  refine congrArg (opAdj m c) ?_
  funext a
  apply Fin.ext
  match a with
  | ⟨0, _⟩ => show win0_3.index t 0 * 2048 + 1 * p.val = 2048 * (t.val / 8) + p.val; rw [hi.1]; omega
  | ⟨1, _⟩ => show win0_3.index t 1 * 1024 + 1 * q.val = (keyOf (t.val % 8) q).val; rw [hi.2, hk]; omega

/-- The point's projected-query block is a rectangle of the projected rows. -/
theorem iblk4_apply (c : Dev nD) (t : Fin cfg0.N) (p : Fin 2048) (e : Fin 256) :
    (xb4 m c t (ix2 p e) : EReal) = oxK m c (rowOf t p) e := by
  have hi := index4 t
  unfold oxK
  show opOx m c (((cfg0.win 4).blk t).view.emb (ix2 p e)) = opOx m c (ix2 (rowOf t p) e)
  refine congrArg (opOx m c) ?_
  funext a
  apply Fin.ext
  match a with
  | ⟨0, _⟩ => show win0_4.index t 0 * 2048 + 1 * p.val = 2048 * (t.val / 8) + p.val; rw [hi.1]; omega
  | ⟨1, _⟩ => show win0_4.index t 1 * 256 + 1 * e.val = e.val; rw [hi.2]; omega

/-- A tile row's masked scores at the point are the global row's at the key block's keys. -/
theorem sb_eq (c : Dev nD) (t : Fin cfg0.N) (p : Fin 2048) (q : Fin 1024) :
    sb m c t p q = score (lgK m c) (adjK m c) (rowOf t p) (keyOf (t.val % 8) q) := by
  unfold sb score lgK adjK
  rw [iblk3_apply m c t p q]
  simp only [iblk0_apply m c t p, iblk1_apply m c t _ q]

/-- The point's value rows are the key block's. -/
theorem vb_eq (c : Dev nD) (t : Fin cfg0.N) (q : Fin 1024) (e : Fin 256) :
    vb m c t q e = valK m c (keyOf (t.val % 8) q) e := by
  unfold vb valK
  exact iblk2_apply m c t q e

/-! ## The carried state by induction on the point -/

/-- A point's step is the step over the global row's scores and the value rows at the key block's keys. -/
private theorem step_eq (c : Dev nD) (t : Fin cfg0.N) (p : Fin 2048) (st : St) :
    St.step (sb m c t p) (vb m c t) st
      = St.step (fun q => score (lgK m c) (adjK m c) (rowOf t p) (keyOf (t.val % 8) q))
          (fun q e => valK m c (keyOf (t.val % 8) q) e) st := by
  have hs : sb m c t p = fun q => score (lgK m c) (adjK m c) (rowOf t p) (keyOf (t.val % 8) q) :=
    funext fun q => sb_eq m c t p q
  have hv : vb m c t = fun q e => valK m c (keyOf (t.val % 8) q) e :=
    funext fun q => funext fun e => vb_eq m c t q e
  rw [hs, hv]

/-- A point that opens a query tile leaves the state after the first key block. -/
private theorem scAt_row_open (c : Dev nD) (t : Fin cfg0.N) (h0 : t.val % 8 = 0) (p : Fin 2048) :
    stOf (scAt (F := Ideal) m c t.val t.isLt) p
      = online (score (lgK m c) (adjK m c) (rowOf t p)) (valK m c) (t.val % 8 + 1) := by
  rw [scAt_A m c t h0 (by omega), scA_row, step_eq, h0]
  rfl

/-- Any other point steps what the point before left, which belongs to the same tile. -/
private theorem scAt_row_step (c : Dev nD) (t : Fin cfg0.N) (h0 : ¬t.val % 8 = 0) (p : Fin 2048)
    (ih : stOf (scAt (F := Ideal) m c (t.val - 1) (Nat.lt_of_le_of_lt (Nat.sub_le _ _) t.isLt)) p
        = online (score (lgK m c) (adjK m c) (rowOf t p)) (valK m c) (t.val % 8)) :
    stOf (scAt (F := Ideal) m c t.val t.isLt) p
      = online (score (lgK m c) (adjK m c) (rowOf t p)) (valK m c) (t.val % 8 + 1) := by
  by_cases h1 : t.val % 8 = 7
  · rw [scAt_C m c t h0 h1, scC_row, ih, step_eq]
    rfl
  · rw [scAt_B m c t h0 h1, scB_row, ih, step_eq]
    rfl

/-- After point `t` row `p` of the tile carries the state of its global row after `t % 8 + 1` key blocks. -/
theorem scAt_row (c : Dev nD) (t : Fin cfg0.N) (p : Fin 2048) :
    stOf (scAt (F := Ideal) m c t.val t.isLt) p
      = online (score (lgK m c) (adjK m c) (rowOf t p)) (valK m c) (t.val % 8 + 1) := by
  obtain ⟨n, hn⟩ := t
  induction n with
  | zero => exact scAt_row_open m c ⟨0, hn⟩ (Nat.zero_mod _) p
  | succ k ih =>
    by_cases h0 : (k + 1) % 8 = 0
    · exact scAt_row_open m c ⟨k + 1, hn⟩ h0 p
    · refine scAt_row_step m c ⟨k + 1, hn⟩ h0 p ?_
      have hk : k < cfg0.N := Nat.lt_of_succ_lt hn
      have hp : stOf (scAt (F := Ideal) m c k hk) p
          = online (score (lgK m c) (adjK m c) (rowOf ⟨k, hk⟩ p)) (valK m c) (k % 8 + 1) := ih hk
      have hr : rowOf ⟨k, hk⟩ p = rowOf ⟨k + 1, hn⟩ p := by
        apply Fin.ext
        show 2048 * (k / 8) + p.val = 2048 * ((k + 1) / 8) + p.val
        omega
      have he : k % 8 + 1 = (k + 1) % 8 := by omega
      rw [hr, he] at hp
      exact hp

end Cert.KernelIdeal.Body

end
-- ==== Proof.KI.OutBlock.lean ====
/-
  The output block of a query tile along the tile's eight points. The opening point sets the block's left half to the
  projected query rows; no later point of the tile changes that half; the closing point sets the right half to the
  quotient of the weighted sum by the normaliser after all eight key blocks. So whatever the body may leave in the
  block at the closing point is the kernel's result on the tile's rows.
-/
import proofs.«426227_j46033459479181_3_alg».proof.Proof.KI.Data
import proofs.«426227_j46033459479181_3_alg».proof.Proof.KI.Online
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

open Idealize.ShloMosaic.ValueIdx Cert.Attn

/-- The output window is never fetched. -/
private theorem fetch5 : ∀ t : Fin cfg0.N, (cfg0.win 5).fetch t = false :=
  (by decide +kernel : ∀ t : Fin grid0.N, win0_5.fetch t = false)

/-! ## The three branches of the output block's relation -/

private theorem rel5_open (c : Dev nD) (t : Fin cfg0.N) (h0 : t.val % 8 = 0) (Y X : Vec Ideal S2048x512 .f32)
    (h : rel5 m c t Y X) : X = outA m c t h0 (by omega) Y := by
  unfold rel5 at h
  rw [dif_pos h0] at h
  exact h

private theorem rel5_close (c : Dev nD) (t : Fin cfg0.N) (h0 : ¬t.val % 8 = 0) (h1 : t.val % 8 = 7)
    (Y X : Vec Ideal S2048x512 .f32) (h : rel5 m c t Y X) :
    X = outC m c t h0 h1 (scAt m c (t.val - 1) (Nat.lt_of_le_of_lt (Nat.sub_le _ _) t.isLt)) Y := by
  unfold rel5 at h
  rw [dif_neg h0, dif_pos h1] at h
  exact h

private theorem rel5_mid (c : Dev nD) (t : Fin cfg0.N) (h0 : ¬t.val % 8 = 0) (h1 : ¬t.val % 8 = 7)
    (Y X : Vec Ideal S2048x512 .f32) (h : rel5 m c t Y X) : X = Y := by
  unfold rel5 at h
  rw [dif_neg h0, dif_neg h1] at h
  exact h

/-- Inside a tile's walk the body finds in the output block what it left there at the point before: the block is
    not fetched, and only a tile's closing point writes it back. -/
private theorem leaves_pred (c : Dev nD) (t : Fin cfg0.N) (h0 : ¬t.val % 8 = 0) (Y : Vec Ideal S2048x512 .f32)
    (hY : (rdat (F := Ideal) m c).Finds 5 t Y) :
    (rdat (F := Ideal) m c).Leaves 5 ⟨t.val - 1, Nat.lt_of_le_of_lt (Nat.sub_le _ _) t.isLt⟩ Y := by
  have ht : t.val ≠ 0 := fun h => h0 (by rw [h])
  rcases ((rdat (F := Ideal) m c).finds_of_pos (fetch5 t) ht Y).mp hY with hfl | hl
  · exact absurd ((flush0_5 _).mp hfl) (by show ¬(t.val - 1) % 8 = 7; omega)
  · exact hl

/-- The point before, inside a tile's walk, belongs to the same tile. -/
private theorem rowOf_pred (t : Fin cfg0.N) (h0 : ¬t.val % 8 = 0) (p : Fin 2048) :
    rowOf ⟨t.val - 1, Nat.lt_of_le_of_lt (Nat.sub_le _ _) t.isLt⟩ p = rowOf t p := by
  apply Fin.ext
  show 2048 * ((t.val - 1) / 8) + p.val = 2048 * (t.val / 8) + p.val
  omega

/-- From a tile's opening point on, the left half of the output block holds the projected query rows. -/
private theorem leaves_left (c : Dev nD) (p : Fin 2048) (col : Fin 512) (hc : col.val < 256) :
    ∀ (n : ℕ) (t : Fin cfg0.N), t.val = n → ∀ X : Vec Ideal S2048x512 .f32, (rdat (F := Ideal) m c).Leaves 5 t X →
      (X (ix2 p col) : EReal) = oxK m c (rowOf t p) ⟨col.val, hc⟩ := by
  intro n
  induction n with
  | zero =>
    intro t ht X h
    obtain ⟨Y, hY, hrel⟩ := h
    have hrel : rel5 m c t Y X := hrel
    have h0 : t.val % 8 = 0 := by rw [ht]
    have e := rel5_open m c t h0 Y X hrel
    subst e
    rw [outA_apply, dif_pos hc]
    exact iblk4_apply m c t p ⟨col.val, hc⟩
  | succ k ih =>
    intro t ht X h
    obtain ⟨Y, hY, hrel⟩ := h
    have hrel : rel5 m c t Y X := hrel
    by_cases h0 : t.val % 8 = 0
    · have e := rel5_open m c t h0 Y X hrel
      subst e
      rw [outA_apply, dif_pos hc]
      exact iblk4_apply m c t p ⟨col.val, hc⟩
    · have hYl := leaves_pred m c t h0 Y hY
      have hYv := ih ⟨t.val - 1, Nat.lt_of_le_of_lt (Nat.sub_le _ _) t.isLt⟩ (by show t.val - 1 = k; omega) Y hYl
      rw [rowOf_pred t h0 p] at hYv
      by_cases h1 : t.val % 8 = 7
      · have e := rel5_close m c t h0 h1 Y X hrel
        subst e
        rw [outC_apply, dif_pos hc]
        exact hYv
      · have e := rel5_mid m c t h0 h1 Y X hrel
        subst e
        exact hYv

/-- Whatever the body may leave in the output block at a tile's closing point is the kernel's result on the tile's rows. -/
theorem leaves_close (c : Dev nD) (t : Fin cfg0.N) (h7 : t.val % 8 = 7) (X : Vec Ideal S2048x512 .f32)
    (h : (rdat (F := Ideal) m c).Leaves 5 t X) (p : Fin 2048) (col : Fin 512) :
    (X (ix2 p col) : EReal) = kernelOut (lgK m c) (adjK m c) (valK m c) (oxK m c) (rowOf t p) col := by
  have h0 : ¬t.val % 8 = 0 := by omega
  obtain ⟨Y, hY, hrel⟩ := h
  have hrel : rel5 m c t Y X := hrel
  have e := rel5_close m c t h0 h7 Y X hrel
  subst e
  have hYl := leaves_pred m c t h0 Y hY
  unfold kernelOut outOf
  rw [outC_apply]
  by_cases hc : col.val < 256
  · rw [dif_pos hc, dif_pos hc]
    have hYv := leaves_left m c p col hc (t.val - 1) ⟨t.val - 1, Nat.lt_of_le_of_lt (Nat.sub_le _ _) t.isLt⟩ rfl Y hYl
    rw [rowOf_pred t h0 p] at hYv
    exact hYv
  · rw [dif_neg hc, dif_neg hc]
    have hstep : St.step (sb m c t p) (vb m c t)
          (stOf (scAt (F := Ideal) m c (t.val - 1) (Nat.lt_of_le_of_lt (Nat.sub_le _ _) t.isLt)) p)
        = online (score (lgK m c) (adjK m c) (rowOf t p)) (valK m c) (7 + 1) := by
      rw [← scC_row m c t h0 h7, ← scAt_C m c t h0 h7, scAt_row, h7]
    rw [hstep]
    rfl

end Cert.KernelIdeal.Body

end
-- ==== Proof.KI.Value.lean ====
/-
  The kernel's result array. The output block of a query tile is written back once, after the tile's closing point.
  Along the tile's eight points the block's left half is set to the projected query rows at the opening point and
  kept from then on, and its right half is set at the closing point to the quotient of the weighted sum by the
  normaliser after all eight key blocks. The four tiles' blocks tile the array, so the array ends as the kernel's
  result of the operands as launched.
-/
import proofs.«426227_j46033459479181_3_alg».proof.Proof.KI.Data
import proofs.«426227_j46033459479181_3_alg».proof.Proof.KI.OutBlock
set_option maxRecDepth 16384

noncomputable section

namespace Cert.KernelIdeal.Body

/-! ## An array under write-backs of related contents

What holds of every element that any write-back may write — whatever contents, among those the body may leave, the
staging buffer held — holds of every element under a written-back block after all write-backs: the last write-back
that covered the element wrote a value with the property. -/

section Related

open Idealize.ShloMosaic Idealize.ShloMosaic.TcCoe
open Idealize.SL Idealize.SL.Sem

variable {nD' : Nat} {τ' : Topo} {sig' : RefSig} {Val : EltTy → Type} {Λ' : Idealize.SL.Sem.Labels}
variable {Ix : Type} [DecidableEq Ix] {Name : Type} [DecidableEq Name] {U : Type} [Idealize.SL.RA.URA U] {Lvl : Type}
variable {cfg : Pipeline.Cfg sig' Λ'} {c : Dev nD'} (rd : Pipeline.RDat τ' Val Ix Name U Lvl cfg c)

/-- A property of every element any write-back may write is a property, after the write-backs of the points below
    `n`, of every element under the block of a point below `n` that writes back. -/
theorem arrOut_forall_of_leaves (w : Fin cfg.W)
    (P : ((cfg.win w).arr.view.loc (c.tc : Thread nD' τ')).2.ty.Idx → Val ((cfg.win w).arr.view.loc (c.tc : Thread nD' τ')).2.ty.elt → Prop)
    (hP : ∀ t, (cfg.win w).flush t = true → ∀ X, rd.Leaves w t X → ∀ y : ((cfg.win w).xblock (cfg.grid.coords t)).Idx,
      P (((cfg.win w).blk t).view.emb y)
        (_root_.cast (congrArg Val ((cfg.win w).blk t).view.elt_eq.symm) ((cfg.win w).cut (cfg.grid.coords t) X y))) :
    ∀ (n : Nat) (G : Buf Val ((cfg.win w).arr.view.loc (c.tc : Thread nD' τ'))), rd.ArrAt w n G →
      ∀ (t : Fin cfg.N) (i : ((cfg.win w).arr.view.loc (c.tc : Thread nD' τ')).2.ty.Idx),
      t.val < n → (cfg.win w).flush t = true → i ∈ ((cfg.win w).blk t).view.set → P i (G i)
  | 0, _, _, _, _, ht, _, _ => absurd ht (Nat.not_lt_zero _)
  | n + 1, G, hG, t, i, ht, hf, hi => by
    by_cases hn : n < cfg.N
    swap
    · rw [rd.ArrAt_stable w (n + 1) (by omega), ← rd.ArrAt_stable w n (by omega)] at hG
      exact arrOut_forall_of_leaves w P hP n G hG t i (by have := t.isLt; omega) hf hi
    rw [show n + 1 = (⟨n, hn⟩ : Fin cfg.N).val + 1 from rfl, rd.ArrAt_succ] at hG
    by_cases hfn : (cfg.win w).flush ⟨n, hn⟩ = true
    · rw [if_pos hfn] at hG
      obtain ⟨G₀, X, hG₀, hX, rfl⟩ := hG
      by_cases hin : i ∈ ((cfg.win w).blk ⟨n, hn⟩).view.set
      · obtain ⟨y, -, rfl⟩ := Finset.mem_map.mp hin
        rw [View.write_emb_of_mem _ _ (Finset.mem_univ y)]
        exact hP _ hfn X hX y
      · rw [View.write_of_not_mem _ _ _ (by rwa [View.setOn_univ])]
        have htn : t.val ≠ n := fun e => hin (by have : t = ⟨n, hn⟩ := Fin.ext e; exact this ▸ hi)
        exact arrOut_forall_of_leaves w P hP n G₀ hG₀ t i (by omega) hf hi
    · rw [if_neg hfn] at hG
      have htn : t.val ≠ n := fun e => hfn (by have : t = ⟨n, hn⟩ := Fin.ext e; exact this ▸ hf)
      exact arrOut_forall_of_leaves w P hP n G hG t i (by omega) hf hi

/-- The same after every write-back, at the element under index `y` of the block a point `t` wrote back. -/
theorem arrOut_emb_of_leaves (w : Fin cfg.W)
    (P : ((cfg.win w).arr.view.loc (c.tc : Thread nD' τ')).2.ty.Idx → Val ((cfg.win w).arr.view.loc (c.tc : Thread nD' τ')).2.ty.elt → Prop)
    (hP : ∀ t, (cfg.win w).flush t = true → ∀ X, rd.Leaves w t X → ∀ y : ((cfg.win w).xblock (cfg.grid.coords t)).Idx,
      P (((cfg.win w).blk t).view.emb y)
        (_root_.cast (congrArg Val ((cfg.win w).blk t).view.elt_eq.symm) ((cfg.win w).cut (cfg.grid.coords t) X y)))
    (G : Buf Val ((cfg.win w).arr.view.loc (c.tc : Thread nD' τ'))) (hG : rd.ArrAt w cfg.N G)
    (t : Fin cfg.N) (hf : (cfg.win w).flush t = true) (y : ((cfg.win w).xblock (cfg.grid.coords t)).Idx) :
    P (((cfg.win w).blk t).view.emb y) (G (((cfg.win w).blk t).view.emb y)) :=
  arrOut_forall_of_leaves rd w P hP cfg.N G hG t _ t.isLt hf (((cfg.win w).blk t).view.emb_mem_set y)

/-- What a run to the relational post says of window `w`'s array: it holds contents the data admit after every
    write-back. (Stated at a variable configuration.) -/
theorem arrOut_framePost {cfg₁ : Pipeline.Cfg sig' Λ'} {U' : Type} [Idealize.SL.RA.URA U']
    {rdat : (c : Dev nD') → Pipeline.RDat τ' Val Unit ℕ U' ℕ cfg₁ c}
    {V : (c : Dev nD') → (b : Ref sig' .tc) → Buf Val ((c.tc : Thread nD' τ').loc b)} {r : PUnit × MemSt nD' τ' sig' Val}
    (h : Pipeline.RDat.FramePost cfg₁ rdat V r) (c : Dev nD') (w : Fin cfg₁.W) :
    (rdat c).ArrAt w cfg₁.N (r.2.mem ((cfg₁.spec w).arr.view.loc (c.tc : Thread nD' τ'))) :=
  (h c).1 w

/-- An element of a window's block at point `t` sits in the array, on each axis, at the block index times the block's
    size plus its own coordinate. -/
theorem arrOut_rect_emb_val {G : Pipeline.Grid} (w : Pipeline.Window sig' G) (t : Fin G.N) (y : (w.xblock (G.coords t)).Idx)
    (a : Fin w.shape.rank) : ((w.rect t).emb y a : Nat) = w.index t a * w.size a + y a := by
  rw [Rect.emb_apply]
  show w.index t a * w.size a + 1 * (y a : Nat) = w.index t a * w.size a + y a
  omega

end Related

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

open Idealize.ShloMosaic.ValueIdx Cert.Attn

/-! ## The output window's blocks in the result array -/

/-- The output window's block index at point `t`: the query tile on the row axis, 0 on the column axis. -/
theorem arrOut_index : ∀ t : Fin cfg0.N, (cfg0.win 5).index t ⟨0, by decide⟩ = t.val / 8 ∧ (cfg0.win 5).index t ⟨1, by decide⟩ = 0 :=
  (by decide +kernel : ∀ t : Fin grid0.N, win0_5.index t ⟨0, by decide⟩ = t.val / 8 ∧ win0_5.index t ⟨1, by decide⟩ = 0)

/-- Entry `(p, col)` of the output block of point `t` sits in the result array at the tile's row `2048 * (t / 8) + p`
    and the same column. -/
theorem arrOut_emb (t : Fin cfg0.N) (p : Fin 2048) (col : Fin 512) :
    ((cfg0.win 5).blk t).view.emb (ix2 p col) = ix2 (rowOf t p) col := by
  funext a
  apply Fin.ext
  simp only [View.emb_slice, Function.Embedding.trans_apply, View.emb_whole, Function.Embedding.refl_apply]
  match a with
  | ⟨0, _⟩ =>
    refine (arrOut_rect_emb_val (cfg0.win 5) t (ix2 p col) ⟨0, by decide⟩).trans ?_
    rw [(arrOut_index t).1]
    show t.val / 8 * 2048 + p.val = 2048 * (t.val / 8) + p.val
    omega
  | ⟨1, _⟩ =>
    refine (arrOut_rect_emb_val (cfg0.win 5) t (ix2 p col) ⟨1, by decide⟩).trans ?_
    rw [(arrOut_index t).2]
    show 0 * 512 + col.val = col.val
    omega

/-- What the result array is to hold at an index: the kernel's result of the operands at the index's coordinates. -/
def arrOutP (c : Dev nD) (i : S8192x512.Idx) (v : EReal) : Prop :=
  v = kernelOut (lgK m c) (adjK m c) (valK m c) (oxK m c) (i 0) (i 1)

/-- Every element a write-back of the output window writes is the kernel's result at the element's place in the
    array: a write-back happens at a tile's closing point, and what the body may leave in the block there is the
    kernel's result on the tile's rows. -/
theorem arrOut_written (c : Dev nD) (t : Fin cfg0.N) (hf : (cfg0.win 5).flush t = true)
    (X : (cfg0.win 5).block.Idx → Elt Ideal (cfg0.win 5).elt) (hX : (rdat (F := Ideal) m c).Leaves 5 t X)
    (y : ((cfg0.win 5).xblock (cfg0.grid.coords t)).Idx) :
    arrOutP m c (((cfg0.win 5).blk t).view.emb y)
      (_root_.cast (congrArg (Elt Ideal) ((cfg0.win 5).blk t).view.elt_eq.symm) ((cfg0.win 5).cut (cfg0.grid.coords t) X y)) := by
  obtain ⟨p, col, rfl⟩ : ∃ (p : Fin 2048) (col : Fin 512), y = ix2 p col := ⟨y 0, y 1, eq_ix2 (n0 := 2048) (n1 := 512) y⟩
  rw [arrOut_emb]
  exact leaves_close m c t ((flush0_5 t).mp hf) X hX p col

/-- Whatever the result array may hold after every write-back, it holds the kernel's result of the operands. -/
theorem arrAt_out (c : Dev nD) (G : Buf (Elt Ideal) ((cfg0.win 5).arr.view.loc (c.tc : Thread nD τ)))
    (h : (rdat (F := Ideal) m c).ArrAt 5 cfg0.N G) (a : Fin 8192) (b : Fin 512) :
    (G (ix2 a b) : EReal) = kernelOut (lgK m c) (adjK m c) (valK m c) (oxK m c) a b := by
  have hN : cfg0.N = 32 := N_0
  have ha : a.val < 8192 := a.isLt
  have ht : 8 * (a.val / 2048) + 7 < cfg0.N := by rw [hN]; omega
  have hf : (cfg0.win 5).flush ⟨8 * (a.val / 2048) + 7, ht⟩ = true :=
    (flush0_5 _).mpr (by show (8 * (a.val / 2048) + 7) % 8 = 7; omega)
  have hp : a.val % 2048 < 2048 := Nat.mod_lt _ (by decide)
  have key := arrOut_emb_of_leaves (rdat (F := Ideal) m c) 5 (arrOutP m c)
    (fun t hf X hX y => arrOut_written m c t hf X hX y) G h ⟨8 * (a.val / 2048) + 7, ht⟩ hf (ix2 (⟨a.val % 2048, hp⟩ : Fin 2048) b)
  rw [arrOut_emb] at key
  have hr : rowOf ⟨8 * (a.val / 2048) + 7, ht⟩ (⟨a.val % 2048, hp⟩ : Fin 2048) = a :=
    Fin.ext (by show 2048 * ((8 * (a.val / 2048) + 7) / 8) + a.val % 2048 = a.val; omega)
  rw [hr] at key
  exact key

/-- Every weakly fair execution of the idealized kernel program terminates with the result array at the kernel's
    result of the operands as launched, and the fifteen argument arrays unchanged. -/
theorem value_run : θ_run (defs (F := Ideal)) (onTc (τ := τ) (main (F := Ideal))) ⟨m, fun _ => 0, ρ⟩ (fun r => ∀ c : Dev nD,
      (∀ (a : Fin 8192) (b : Fin 512), (r.2.mem ((c.tc : Thread nD τ).loc main_v27) (ix2 a b) : EReal) = kernelOut (lgK m c) (adjK m c) (valK m c) (oxK m c) a b)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)) :=
  (θ_run defs _ _).mono (fun r h c => ⟨fun a b => arrAt_out m c _ (arrOut_framePost h c 5) a b,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 3 rfl).trans ((A_eq m c 3).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

end Cert.KernelIdeal.Body

end
-- ==== Proof.KI.ArgsOf.lean ====
/-
  The fifteen argument arrays of the program, read out of the launch memory as curried functions of their coordinates.
-/
import proofs.«426227_j46033459479181_3_alg».proof.KernelIdeal
import proofs.«426227_j46033459479181_3_alg».proof.Proof.AttnSpec

noncomputable section

namespace Cert.KernelIdeal.Hand

open Cert.KernelIdeal
open Idealize.ShloMosaic Idealize.SL.Sem Idealize.ShloMosaic.ValueIdx

/-- The arguments on core `c`, as the specification takes them. -/
def argsOf [Facts] (m : (ℓ : Loc nD τ sig) → Buf (Elt Ideal) ℓ) (c : Dev nD) : Cert.Attn.Args where
  x := fun r d => m ((c.tc : Thread nD τ).loc main_arg0) (ix2 r d)
  ng := fun r d => m ((c.tc : Thread nD τ).loc main_arg1) (ix2 r d)
  adj := fun r j => m ((c.tc : Thread nD τ).loc main_arg2) (ix2 r j)
  Wx1 := fun d k => m ((c.tc : Thread nD τ).loc main_arg3) (ix2 d k)
  bx1 := fun k => m ((c.tc : Thread nD τ).loc main_arg4) (ix1 k)
  Wx2 := fun k h => m ((c.tc : Thread nD τ).loc main_arg5) (ix2 k h)
  bx2 := fun h => m ((c.tc : Thread nD τ).loc main_arg6) (ix1 h)
  Wn1 := fun d k => m ((c.tc : Thread nD τ).loc main_arg7) (ix2 d k)
  bn1 := fun k => m ((c.tc : Thread nD τ).loc main_arg8) (ix1 k)
  Wn2 := fun k h => m ((c.tc : Thread nD τ).loc main_arg9) (ix2 k h)
  bn2 := fun h => m ((c.tc : Thread nD τ).loc main_arg10) (ix1 h)
  Wv := fun d e => m ((c.tc : Thread nD τ).loc main_arg11) (ix2 d e)
  bv := fun e => m ((c.tc : Thread nD τ).loc main_arg12) (ix1 e)
  Wfx := fun d e => m ((c.tc : Thread nD τ).loc main_arg13) (ix2 d e)
  bfx := fun e => m ((c.tc : Thread nD τ).loc main_arg14) (ix1 e)

end Cert.KernelIdeal.Hand

end
-- ==== Proof.KI.HostVals.lean ====
/-
  The pallas_call's operands as launched are the dense layers of the arguments: the query features and the value
  rows and projected rows are the host's matrix products, bias additions and hyperbolic tangent read at an entry,
  and the transposed key features read at (h, j) are the key features at (j, h); so the logits the kernel forms
  are the inner products of query and key features.
-/
import proofs.«426227_j46033459479181_3_alg».proof.Proof.KI.KDefs
import proofs.«426227_j46033459479181_3_alg».proof.Proof.KI.ArgsOf
import Idealize.ShloMosaic.Lib.StackMember
import Idealize.ShloMosaic.Lib.KernelVsHost
import Idealize.ShloMosaic.Lib.ValueLayout
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StackMember Cert.Attn Cert.KernelIdeal.Hand

/-! ## Single operations at an entry, at any extents -/

section Generic
variable {p k n : Nat} {α : Type}

/-- A rows-by-columns product at an entry: the sum over the contracted coordinate. -/
theorem dotPlain_apply (D : DotDims ⟨2, ![p, k]⟩ ⟨2, ![k, n]⟩ ⟨2, ![p, n]⟩) (hD : D = DotDims.plain p k n)
    (A : FVec Ideal ⟨2, ![p, k]⟩ .f32) (B : FVec Ideal ⟨2, ![k, n]⟩ .f32) (a : Fin p) (b : Fin n) :
    Host.dotGeneral D none A B (ix2 a b) = ∑ c : Fin k, A (ix2 a c) * B (ix2 c b) := by
  subst hD; exact dotGeneral_plain_apply none A B a b

/-- A vector made one row and repeated down the rows reads the vector at the column. -/
theorem biasRows_apply (h1 : (⟨1, ![n]⟩ : Shape).BroadcastsInDim ⟨2, ![1, n]⟩ ![1])
    (h2 : (⟨2, ![1, n]⟩ : Shape).BroadcastsInDim ⟨2, ![p, n]⟩ ![0, 1]) (b : (⟨1, ![n]⟩ : Shape).Idx → α)
    (r : Fin p) (c : Fin n) :
    broadcastInDim ⟨2, ![p, n]⟩ ![0, 1] h2 (broadcastInDim ⟨2, ![1, n]⟩ ![1] h1 b) (ix2 r c) = b (ix1 c) := by
  rw [broadcastInDim_oneRow_apply]
  refine broadcastInDim_apply ![1] h1 b (ix2 (0 : Fin 1) c) (ix1 c) ?_
  intro a
  fin_cases a
  show c.val = if n = 1 then 0 else c.val
  split_ifs with hn
  · have := c.isLt; omega
  · rfl

end Generic

/-! ## The host's dense layers as terms of the argument arrays -/

/-- A dense layer from 512 to 32 columns: the contraction against the weights plus the bias row on every row. -/
def dense512x32 (x : FVec Ideal S8192x512 .f32) (W : FVec Ideal S512x32 .f32) (b : FVec Ideal S32 .f32) :
    FVec Ideal S8192x32 .f32 :=
  addf (Host.dotGeneral dot_S8192x512_S512x32_S8192x32_1_0_0_1_n_n none x W)
    (broadcastInDim S8192x32 ![0, 1] Facts₀.bcast_S1x32_S8192x32_0_1 (broadcastInDim S1x32 ![1] Facts₀.bcast_S32_S1x32_1 b))

/-- A dense layer from 32 to 32 columns. -/
def dense32x32 (x : FVec Ideal S8192x32 .f32) (W : FVec Ideal S32x32 .f32) (b : FVec Ideal S32 .f32) :
    FVec Ideal S8192x32 .f32 :=
  addf (Host.dotGeneral dot_S8192x32_S32x32_S8192x32_1_0_0_1_n_n none x W)
    (broadcastInDim S8192x32 ![0, 1] Facts₀.bcast_S1x32_S8192x32_0_1 (broadcastInDim S1x32 ![1] Facts₀.bcast_S32_S1x32_1 b))

/-- A dense layer from 512 to 256 columns. -/
def dense512x256 (x : FVec Ideal S8192x512 .f32) (W : FVec Ideal S512x256 .f32) (b : FVec Ideal S256 .f32) :
    FVec Ideal S8192x256 .f32 :=
  addf (Host.dotGeneral dot_S8192x512_S512x256_S8192x256_1_0_0_1_n_n none x W)
    (broadcastInDim S8192x256 ![0, 1] Facts₀.bcast_S1x256_S8192x256_0_1 (broadcastInDim S1x256 ![1] Facts₀.bcast_S256_S1x256_1 b))

/-- The attention features of a set of rows: two dense layers with a hyperbolic tangent between them. -/
def feat (x : FVec Ideal S8192x512 .f32) (W1 : FVec Ideal S512x32 .f32) (b1 : FVec Ideal S32 .f32)
    (W2 : FVec Ideal S32x32 .f32) (b2 : FVec Ideal S32 .f32) : FVec Ideal S8192x32 .f32 :=
  dense32x32 (Host.tanh (dense512x32 x W1 b1)) W2 b2

/-- The attention features with rows and columns exchanged. -/
def featT (x : FVec Ideal S8192x512 .f32) (W1 : FVec Ideal S512x32 .f32) (b1 : FVec Ideal S32 .f32)
    (W2 : FVec Ideal S32x32 .f32) (b2 : FVec Ideal S32 .f32) : FVec Ideal S32x8192 .f32 :=
  transpose S32x8192 [1, 0] (feat x W1 b1 W2 b2) Facts₀.transposes_S8192x32_S32x8192_1_0

/-! ## The dense layers at an entry -/

/-- A dense layer from 512 to 32 columns at an entry is the specification's linear layer. -/
theorem dense512x32_apply (x : FVec Ideal S8192x512 .f32) (W : FVec Ideal S512x32 .f32) (b : FVec Ideal S32 .f32)
    (r : Fin 8192) (c : Fin 32) :
    dense512x32 x W b (ix2 r c)
      = Attn.lin (fun r d => x (ix2 r d)) (fun d c => W (ix2 d c)) (fun c => b (ix1 c)) r c := by
  unfold dense512x32 Attn.lin
  exact congrArg₂ (· + ·) (dotPlain_apply dot_S8192x512_S512x32_S8192x32_1_0_0_1_n_n rfl x W r c)
    (biasRows_apply Facts₀.bcast_S32_S1x32_1 Facts₀.bcast_S1x32_S8192x32_0_1 b r c)

/-- A dense layer from 32 to 32 columns at an entry is the specification's linear layer. -/
theorem dense32x32_apply (x : FVec Ideal S8192x32 .f32) (W : FVec Ideal S32x32 .f32) (b : FVec Ideal S32 .f32)
    (r : Fin 8192) (c : Fin 32) :
    dense32x32 x W b (ix2 r c)
      = Attn.lin (fun r d => x (ix2 r d)) (fun d c => W (ix2 d c)) (fun c => b (ix1 c)) r c := by
  unfold dense32x32 Attn.lin
  exact congrArg₂ (· + ·) (dotPlain_apply dot_S8192x32_S32x32_S8192x32_1_0_0_1_n_n rfl x W r c)
    (biasRows_apply Facts₀.bcast_S32_S1x32_1 Facts₀.bcast_S1x32_S8192x32_0_1 b r c)

/-- A dense layer from 512 to 256 columns at an entry is the specification's linear layer. -/
theorem dense512x256_apply (x : FVec Ideal S8192x512 .f32) (W : FVec Ideal S512x256 .f32) (b : FVec Ideal S256 .f32)
    (r : Fin 8192) (c : Fin 256) :
    dense512x256 x W b (ix2 r c)
      = Attn.lin (fun r d => x (ix2 r d)) (fun d c => W (ix2 d c)) (fun c => b (ix1 c)) r c := by
  unfold dense512x256 Attn.lin
  exact congrArg₂ (· + ·) (dotPlain_apply dot_S8192x512_S512x256_S8192x256_1_0_0_1_n_n rfl x W r c)
    (biasRows_apply Facts₀.bcast_S256_S1x256_1 Facts₀.bcast_S1x256_S8192x256_0_1 b r c)

/-- The attention features at an entry are the specification's two-layer perceptron. -/
theorem feat_apply (x : FVec Ideal S8192x512 .f32) (W1 : FVec Ideal S512x32 .f32) (b1 : FVec Ideal S32 .f32)
    (W2 : FVec Ideal S32x32 .f32) (b2 : FVec Ideal S32 .f32) (r : Fin 8192) (h : Fin 32) :
    feat x W1 b1 W2 b2 (ix2 r h)
      = Attn.mlp (fun r d => x (ix2 r d)) (fun d c => W1 (ix2 d c)) (fun c => b1 (ix1 c))
          (fun c h => W2 (ix2 c h)) (fun h => b2 (ix1 h)) r h := by
  unfold feat Attn.mlp
  have e : (fun (r : Fin 8192) (d : Fin 32) => Host.tanh (dense512x32 x W1 b1) (ix2 r d))
      = fun r c => Ideal.tanh (Attn.lin (fun r d => x (ix2 r d)) (fun d c => W1 (ix2 d c)) (fun c => b1 (ix1 c)) r c) :=
    funext fun r' => funext fun d => congrArg Ideal.tanh (dense512x32_apply x W1 b1 r' d)
  rw [dense32x32_apply, e]

/-- The exchanged features at (h, j) are the features at (j, h). -/
theorem featT_apply (x : FVec Ideal S8192x512 .f32) (W1 : FVec Ideal S512x32 .f32) (b1 : FVec Ideal S32 .f32)
    (W2 : FVec Ideal S32x32 .f32) (b2 : FVec Ideal S32 .f32) (h : Fin 32) (j : Fin 8192) :
    featT x W1 b1 W2 b2 (ix2 h j) = feat x W1 b1 W2 b2 (ix2 j h) := by
  unfold featT
  exact transpose_ix2_apply (feat x W1 b1 W2 b2) Facts₀.transposes_S8192x32_S32x8192_1_0 h j

/-! ## The operands as launched -/

section After
variable (Vl : Valuation τ sig (Elt Ideal))

/-- After the host operations the query features' buffer holds the attention features of the first argument. -/
theorem after_v21 :
    StableHlo.after (hostOps0 (F := Ideal)) Vl (Proc.devRef .tc main_v21)
      = feat (Vl (Proc.devRef .tc main_arg0)) (Vl (Proc.devRef .tc main_arg3)) (Vl (Proc.devRef .tc main_arg4)) (Vl (Proc.devRef .tc main_arg5)) (Vl (Proc.devRef .tc main_arg6)) := by
  after_results_simp
  rfl

/-- After the host operations the transposed buffer holds the exchanged attention features of the second argument. -/
theorem after_v26 :
    StableHlo.after (hostOps0 (F := Ideal)) Vl (Proc.devRef .tc main_v26)
      = featT (Vl (Proc.devRef .tc main_arg1)) (Vl (Proc.devRef .tc main_arg7)) (Vl (Proc.devRef .tc main_arg8)) (Vl (Proc.devRef .tc main_arg9)) (Vl (Proc.devRef .tc main_arg10)) := by
  after_results_simp
  rfl

/-- After the host operations the value rows' buffer holds a dense layer of the second argument. -/
theorem after_v12 :
    StableHlo.after (hostOps0 (F := Ideal)) Vl (Proc.devRef .tc main_v12)
      = dense512x256 (Vl (Proc.devRef .tc main_arg1)) (Vl (Proc.devRef .tc main_arg11)) (Vl (Proc.devRef .tc main_arg12)) := by
  after_results_simp
  rfl

/-- After the host operations the projected rows' buffer holds a dense layer of the first argument. -/
theorem after_v25 :
    StableHlo.after (hostOps0 (F := Ideal)) Vl (Proc.devRef .tc main_v25)
      = dense512x256 (Vl (Proc.devRef .tc main_arg0)) (Vl (Proc.devRef .tc main_arg13)) (Vl (Proc.devRef .tc main_arg14)) := by
  after_results_simp
  rfl

end After

variable (m : (ℓ : Loc nD τ sig) → Buf (Elt Ideal) ℓ)

/-- The query features as launched are the attention features of the first argument. -/
theorem opXatt_eq (c : Dev nD) :
    (opXatt m c : S8192x32.Idx → EReal) = feat (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  after_v21 (fun b => m (c, b))

/-- The transposed key features as launched are the exchanged attention features of the second argument. -/
theorem opNattT_eq (c : Dev nD) :
    (opNattT m c : S32x8192.Idx → EReal) = featT (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) :=
  after_v26 (fun b => m (c, b))

/-- The value rows as launched are a dense layer of the second argument. -/
theorem opVal_eq (c : Dev nD) :
    (opVal m c : S8192x256.Idx → EReal) = dense512x256 (m ((c.tc : Thread nD τ).loc main_arg1)) (m ((c.tc : Thread nD τ).loc main_arg11)) (m ((c.tc : Thread nD τ).loc main_arg12)) :=
  after_v12 (fun b => m (c, b))

/-- The projected rows as launched are a dense layer of the first argument. -/
theorem opOx_eq (c : Dev nD) :
    (opOx m c : S8192x256.Idx → EReal) = dense512x256 (m ((c.tc : Thread nD τ).loc main_arg0)) (m ((c.tc : Thread nD τ).loc main_arg13)) (m ((c.tc : Thread nD τ).loc main_arg14)) :=
  after_v25 (fun b => m (c, b))

/-- The query features as launched, at an entry. -/
theorem opXatt_at (c : Dev nD) (r : Fin 8192) (h : Fin 32) :
    (opXatt m c (ix2 r h) : EReal) = (argsOf m c).xAtt r h :=
  (congrFun (opXatt_eq m c) (ix2 r h)).trans (feat_apply _ _ _ _ _ r h)

/-- The transposed key features as launched, at an entry: the key features with the coordinates exchanged. -/
theorem opNattT_at (c : Dev nD) (h : Fin 32) (j : Fin 8192) :
    (opNattT m c (ix2 h j) : EReal) = (argsOf m c).nAtt j h :=
  (congrFun (opNattT_eq m c) (ix2 h j)).trans ((featT_apply _ _ _ _ _ h j).trans (feat_apply _ _ _ _ _ j h))

theorem lgK_eq (c : Dev nD) : lgK m c = (argsOf m c).lg := by
  funext r j
  unfold lgK Args.lg logit
  exact Finset.sum_congr rfl fun h _ => congrArg₂ (· * ·) (opXatt_at m c r h) (opNattT_at m c h j)

theorem adjK_eq (c : Dev nD) : adjK m c = (argsOf m c).adj := by
  funext r j
  unfold adjK argsOf
  rw [show opAdj m c = _ from V_main_arg2 m c]

theorem valK_eq (c : Dev nD) : valK m c = (argsOf m c).value := by
  funext j e
  unfold valK
  exact (congrFun (opVal_eq m c) (ix2 j e)).trans (dense512x256_apply _ _ _ j e)

theorem oxK_eq (c : Dev nD) : oxK m c = (argsOf m c).outX := by
  funext r e
  unfold oxK
  exact (congrFun (opOx_eq m c) (ix2 r e)).trans (dense512x256_apply _ _ _ r e)

end Cert.KernelIdeal.Body

end
-- ==== Proof.KI.Finite.lean ====
/-
  The precondition says of every float argument array that each entry's absolute value is below +∞. At the
  extended reals that is exactly: each entry is a real number (neither +∞ nor -∞, the latter also standing for a
  not-a-number pattern). One lemma reads the fact off a single entry, one reads it off an array of any shape
  through the conjunction over all entries, and the theorem instantiates the latter at the fourteen float arguments.
-/
import proofs.«426227_j46033459479181_3_alg».proof.Defs
import proofs.«426227_j46033459479181_3_alg».proof.Proof.Gen.KernelIdeal
import proofs.«426227_j46033459479181_3_alg».proof.Proof.Gen.Pre_finite_inputs
import proofs.«426227_j46033459479181_3_alg».proof.Proof.KI.ArgsOf
import Idealize.ShloMosaic.Lib.ReduceAll

noncomputable section

namespace Cert.KernelIdeal.Hand

open Cert.KernelIdeal
open Idealize.ShloMosaic Idealize.SL.Sem Idealize.ShloMosaic.ValueIdx

/-- The pattern `0x7F800000` denotes `+∞`. -/
theorem ofBits_inf : Ideal.ofBits .f32 0x7F800000#32 = ⊤ := by simp [Ideal.ofBits, Ideal.ieee]

/-- An extended real whose absolute value `max x (-x)` is strictly below `+∞` is a real number. -/
theorem real_of_abs_lt_inf (x : EReal)
    (h : FloatOps.cmpf (F := Ideal) (φ := .f32) .olt (FloatOps.hostAbsf x) (FloatOps.ofBits .f32 0x7F800000#32) = 1#1) :
    x ≠ ⊤ ∧ x ≠ ⊥ := by
  change Ideal.cmp .olt (max x (-x)) (Ideal.ofBits .f32 0x7F800000#32) = 1#1 at h
  rw [ofBits_inf] at h
  induction x using EReal.rec with
  | bot => simp [Ideal.cmp] at h
  | top => simp [Ideal.cmp] at h
  | coe r => exact ⟨EReal.coe_ne_top r, EReal.coe_ne_bot r⟩

/-- The scalar shape has one index. -/
instance subsingleton_scalar_idx : Subsingleton Cert.Pre_finite_inputs.S_.Idx :=
  ⟨fun _ _ => funext fun d => d.elim0⟩

/-- An array all of whose entries compare below `+∞` in absolute value (the conjunction over all entries is 1)
    has only real entries. -/
theorem real_of_all {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf v) (broadcastInDim s ![] hb (constant Cert.Pre_finite_inputs.S_ .f32 0x7F800000#32)))
          (constantI Cert.Pre_finite_inputs.S_ 1 1#1) hr hu ix0 = 1#1) (i : s.Idx) : v i ≠ ⊤ ∧ v i ≠ ⊥ :=
  real_of_abs_lt_inf (v i) (Host.reduce_andi_all _ _ hr hu ix0 e i)

/-- Under the precondition every float argument is real-valued. -/
theorem args_finite (m : (ℓ : Loc nD τ sig) → Buf (Elt Ideal) ℓ) (hpre : Cert.Pre_KernelIdeal m) (c : Dev nD) :
    (argsOf m c).Finite := by
  have h := congrFun (hpre c) ix0
  unfold Cert.Pre_finite_inputs.fn Cert.Pre_finite_inputs.fn_part1 Cert.Pre_finite_inputs.fn_part2
    Cert.Pre_finite_inputs.fn_part3 Cert.Pre_finite_inputs.fn_part4 at h
  dsimp only at h
  obtain ⟨h, h14⟩ := IntOp.andi_eq_one.1 h
  obtain ⟨h, h13⟩ := IntOp.andi_eq_one.1 h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h0, h1⟩ := IntOp.andi_eq_one.1 h
  have r0 := real_of_all _ _ _ _ h0
  have r1 := real_of_all _ _ _ _ h1
  have r3 := real_of_all _ _ _ _ h3
  have r4 := real_of_all _ _ _ _ h4
  have r5 := real_of_all _ _ _ _ h5
  have r6 := real_of_all _ _ _ _ h6
  have r7 := real_of_all _ _ _ _ h7
  have r8 := real_of_all _ _ _ _ h8
  have r9 := real_of_all _ _ _ _ h9
  have r10 := real_of_all _ _ _ _ h10
  have r11 := real_of_all _ _ _ _ h11
  have r12 := real_of_all _ _ _ _ h12
  have r13 := real_of_all _ _ _ _ h13
  have r14 := real_of_all _ _ _ _ h14
  exact
    { x := fun r d => r0 (ix2 r d)
      ng := fun r d => r1 (ix2 r d)
      Wx1 := fun d k => r3 (ix2 d k)
      bx1 := fun k => r4 (ix1 k)
      Wx2 := fun k j => r5 (ix2 k j)
      bx2 := fun j => r6 (ix1 j)
      Wn1 := fun d k => r7 (ix2 d k)
      bn1 := fun k => r8 (ix1 k)
      Wn2 := fun k j => r9 (ix2 k j)
      bn2 := fun j => r10 (ix1 j)
      Wv := fun d e => r11 (ix2 d e)
      bv := fun e => r12 (ix1 e)
      Wfx := fun d e => r13 (ix2 d e)
      bfx := fun e => r14 (ix1 e) }

end Cert.KernelIdeal.Hand

end
-- ==== Proof.RI.ArgsOf.lean ====
/-
  The fifteen argument arrays of the program, read out of the launch memory as curried functions of their coordinates.
-/
import proofs.«426227_j46033459479181_3_alg».proof.ReferenceIdeal
import proofs.«426227_j46033459479181_3_alg».proof.Proof.AttnSpec

noncomputable section

namespace Cert.ReferenceIdeal.Hand

open Cert.ReferenceIdeal
open Idealize.ShloMosaic Idealize.SL.Sem Idealize.ShloMosaic.ValueIdx

/-- The arguments on core `c`, as the specification takes them. -/
def argsOf [Facts] (m : (ℓ : Loc nD τ sig) → Buf (Elt Ideal) ℓ) (c : Dev nD) : Cert.Attn.Args where
  x := fun r d => m ((c.tc : Thread nD τ).loc main_arg0) (ix2 r d)
  ng := fun r d => m ((c.tc : Thread nD τ).loc main_arg1) (ix2 r d)
  adj := fun r j => m ((c.tc : Thread nD τ).loc main_arg2) (ix2 r j)
  Wx1 := fun d k => m ((c.tc : Thread nD τ).loc main_arg3) (ix2 d k)
  bx1 := fun k => m ((c.tc : Thread nD τ).loc main_arg4) (ix1 k)
  Wx2 := fun k h => m ((c.tc : Thread nD τ).loc main_arg5) (ix2 k h)
  bx2 := fun h => m ((c.tc : Thread nD τ).loc main_arg6) (ix1 h)
  Wn1 := fun d k => m ((c.tc : Thread nD τ).loc main_arg7) (ix2 d k)
  bn1 := fun k => m ((c.tc : Thread nD τ).loc main_arg8) (ix1 k)
  Wn2 := fun k h => m ((c.tc : Thread nD τ).loc main_arg9) (ix2 k h)
  bn2 := fun h => m ((c.tc : Thread nD τ).loc main_arg10) (ix1 h)
  Wv := fun d e => m ((c.tc : Thread nD τ).loc main_arg11) (ix2 d e)
  bv := fun e => m ((c.tc : Thread nD τ).loc main_arg12) (ix1 e)
  Wfx := fun d e => m ((c.tc : Thread nD τ).loc main_arg13) (ix2 d e)
  bfx := fun e => m ((c.tc : Thread nD τ).loc main_arg14) (ix1 e)

end Cert.ReferenceIdeal.Hand

end
-- ==== Proof.RI.Term.lean ====
/-
  The reference program's result as one pure function of its fifteen argument arrays: each tensor operation of
  the program, in order, applied to the values before it. The stages are named: a dense layer (a contraction
  against the weights plus the bias row repeated down the rows), the two-layer attention features, the logits
  (the contraction of the query features against the key features), the leaky rectifier, the adjacency mask,
  the row softmax (subtract the row maximum, exponentiate, divide by the row sum), the aggregate (the
  contraction of the softmax against the value rows) and the two halves laid side by side.
-/
import proofs.«426227_j46033459479181_3_alg».proof.ReferenceIdeal
import proofs.«426227_j46033459479181_3_alg».proof.Proof.Gen.ReferenceIdeal
import proofs.«426227_j46033459479181_3_alg».proof.Proof.RI.ArgsOf

noncomputable section

namespace Cert.ReferenceIdeal.Hand

open Cert.ReferenceIdeal
open Idealize.ShloMosaic Idealize.SL.Sem

variable [Facts]
open Facts₀ Facts

/-- A dense layer from 512 to 32 columns: the contraction against the weights plus the bias row on every row. -/
def dense512x32 (x : FVec Ideal S8192x512 .f32) (W : FVec Ideal S512x32 .f32) (b : FVec Ideal S32 .f32) :
    FVec Ideal S8192x32 .f32 :=
  addf (Host.dotGeneral dot_S8192x512_S512x32_S8192x32_1_0_0_1_n_n none x W)
    (broadcastInDim S8192x32 ![0, 1] bcast_S1x32_S8192x32_0_1 (broadcastInDim S1x32 ![1] bcast_S32_S1x32_1 b))

/-- A dense layer from 32 to 32 columns. -/
def dense32x32 (x : FVec Ideal S8192x32 .f32) (W : FVec Ideal S32x32 .f32) (b : FVec Ideal S32 .f32) :
    FVec Ideal S8192x32 .f32 :=
  addf (Host.dotGeneral dot_S8192x32_S32x32_S8192x32_1_0_0_1_n_n none x W)
    (broadcastInDim S8192x32 ![0, 1] bcast_S1x32_S8192x32_0_1 (broadcastInDim S1x32 ![1] bcast_S32_S1x32_1 b))

/-- A dense layer from 512 to 256 columns. -/
def dense512x256 (x : FVec Ideal S8192x512 .f32) (W : FVec Ideal S512x256 .f32) (b : FVec Ideal S256 .f32) :
    FVec Ideal S8192x256 .f32 :=
  addf (Host.dotGeneral dot_S8192x512_S512x256_S8192x256_1_0_0_1_n_n none x W)
    (broadcastInDim S8192x256 ![0, 1] bcast_S1x256_S8192x256_0_1 (broadcastInDim S1x256 ![1] bcast_S256_S1x256_1 b))

/-- The attention features of a set of rows: two dense layers with a hyperbolic tangent between them. -/
def feat (x : FVec Ideal S8192x512 .f32) (W1 : FVec Ideal S512x32 .f32) (b1 : FVec Ideal S32 .f32)
    (W2 : FVec Ideal S32x32 .f32) (b2 : FVec Ideal S32 .f32) : FVec Ideal S8192x32 .f32 :=
  dense32x32 (Host.tanh (dense512x32 x W1 b1)) W2 b2

/-- The logits: query features against key features, contracted over the 32 features. -/
def logits (q k : FVec Ideal S8192x32 .f32) : FVec Ideal S8192x8192 .f32 :=
  Host.dotGeneral dot_S8192x32_S8192x32_S8192x8192_1_1_0_0_n_n none q k

/-- The leaky rectifier with slope `a`: the entry where it is at least zero, the slope times the entry elsewhere. -/
def leakyRelu (x : FVec Ideal S8192x8192 .f32) (a : FVec Ideal S_ .f32) : FVec Ideal S8192x8192 .f32 :=
  select
    (cmpf .oge x (broadcastInDim S8192x8192 ![] bcast_S_S8192x8192 (constant S_ .f32 0x00000000#32)))
    x
    (mulf (broadcastInDim S8192x8192 ![] bcast_S_S8192x8192 (id a)) x)

/-- The adjacency mask: the entry where the adjacency word is positive, the finite fill elsewhere. -/
def masked (adj : IVec S8192x8192 32) (x : FVec Ideal S8192x8192 .f32) : FVec Ideal S8192x8192 .f32 :=
  select
    (cmpi .sgt adj (broadcastInDim S8192x8192 ![] bcast_S_S8192x8192 (constantI S_ 32 0#32)))
    x
    (broadcastInDim S8192x8192 ![] bcast_S_S8192x8192 (constant S_ .f32 0xD9FFCB9E#32))

/-- The row maxima: the maximum over the columns from minus infinity, then once more against minus infinity. -/
def rowMaxima (s : FVec Ideal S8192x8192 .f32) : FVec Ideal S8192 .f32 :=
  maximumf (broadcastInDim S8192 ![] bcast_S_S8192 (constant S_ .f32 0xFF800000#32))
    (Host.reduce FloatOps.maximumf s (constant S_ .f32 0xFF800000#32) reducesTo_S8192x8192_S8192_d1 h_S_)

/-- The exponentials of the entries less their row's maximum. -/
def expShifted (s : FVec Ideal S8192x8192 .f32) : FVec Ideal S8192x8192 .f32 :=
  Host.exp (subf s
    (broadcastInDim S8192x8192 ![0, 1] bcast_S8192x1_S8192x8192_0_1
      (broadcastInDim S8192x1 ![0] bcast_S8192_S8192x1_0 (rowMaxima s))))

/-- The row softmax: the shifted exponentials over their row sums. -/
def softmax (s : FVec Ideal S8192x8192 .f32) : FVec Ideal S8192x8192 .f32 :=
  Host.divf (expShifted s)
    (broadcastInDim S8192x8192 ![0, 1] bcast_S8192x1_S8192x8192_0_1
      (broadcastInDim S8192x1 ![0] bcast_S8192_S8192x1_0
        (Host.reduceAdd (expShifted s) (constant S_ .f32 0x00000000#32) reducesTo_S8192x8192_S8192_d1 h_S_)))

/-- The masked scores of every query row against every key. -/
def scores (a0 a1 : FVec Ideal S8192x512 .f32) (a2 : IVec S8192x8192 32)
    (a3 : FVec Ideal S512x32 .f32) (a4 : FVec Ideal S32 .f32) (a5 : FVec Ideal S32x32 .f32) (a6 : FVec Ideal S32 .f32)
    (a7 : FVec Ideal S512x32 .f32) (a8 : FVec Ideal S32 .f32) (a9 : FVec Ideal S32x32 .f32) (a10 : FVec Ideal S32 .f32) :
    FVec Ideal S8192x8192 .f32 :=
  masked a2 (leakyRelu (logits (feat a0 a3 a4 a5 a6) (feat a1 a7 a8 a9 a10)) (constant S_ .f32 0x3C23D70A#32))

/-- The aggregate: the softmax of the scores contracted against the value rows. -/
def aggregate (s : FVec Ideal S8192x8192 .f32) (v : FVec Ideal S8192x256 .f32) : FVec Ideal S8192x256 .f32 :=
  Host.dotGeneral dot_S8192x8192_S8192x256_S8192x256_1_0_0_1_n_n none (softmax s) v

/-- The reference's result: the projected query rows beside the aggregate. -/
def refTerm (a0 a1 : FVec Ideal S8192x512 .f32) (a2 : IVec S8192x8192 32)
    (a3 : FVec Ideal S512x32 .f32) (a4 : FVec Ideal S32 .f32) (a5 : FVec Ideal S32x32 .f32) (a6 : FVec Ideal S32 .f32)
    (a7 : FVec Ideal S512x32 .f32) (a8 : FVec Ideal S32 .f32) (a9 : FVec Ideal S32x32 .f32) (a10 : FVec Ideal S32 .f32)
    (a11 : FVec Ideal S512x256 .f32) (a12 : FVec Ideal S256 .f32) (a13 : FVec Ideal S512x256 .f32)
    (a14 : FVec Ideal S256 .f32) : FVec Ideal S8192x512 .f32 :=
  concatenate S8192x512 1
    [⟨S8192x256, dense512x256 a0 a13 a14⟩,
     ⟨S8192x256, aggregate (scores a0 a1 a2 a3 a4 a5 a6 a7 a8 a9 a10) (dense512x256 a1 a11 a12)⟩]
    concatenates_S8192x256_S8192x256_S8192x512_d1

/-- The term takes the launch memory's argument buffers as they are. -/
example (m : (ℓ : Loc nD τ sig) → Buf (Elt Ideal) ℓ) (c : Dev nD) : FVec Ideal S8192x512 .f32 :=
  refTerm (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13))
    (m ((c.tc : Thread nD τ).loc main_arg14))

end Cert.ReferenceIdeal.Hand

end
-- ==== Proof.RI.Run.lean ====
/-
  The run of the reference program. @main is a straight line of fifty-seven host operations once its two calls are
  unfolded at their sites: the leaky rectifier (seven operations, the last the select of the function it calls in
  turn) after the logits, and the masking select (two operations) after the adjacency's comparison with zero. The
  operations are listed in order; the program is shown equal to that list run in sequence; and every weakly fair
  execution from any launch memory with zero counters is shown to terminate with the result buffer at the operations'
  composed term of the fifteen argument arrays, each argument array unchanged.
-/
import proofs.«426227_j46033459479181_3_alg».proof.ReferenceIdeal
import proofs.«426227_j46033459479181_3_alg».proof.Proof.Gen.ReferenceIdeal
import Idealize.ShloMosaic.Lib.StableHlo.Run
import proofs.«426227_j46033459479181_3_alg».proof.Proof.RI.Term

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's fifty-seven operations in order, the calls unfolded: twenty-four of its own up to the rectifier's slope;
    the rectifier's seven over its call's buffers (the zero and its broadcast, the comparison with it, the slope
    converted to its own type and broadcast, the product, the select between the logit and the product); the integer
    zero, its broadcast, the adjacency's comparison with it and the finite fill; the masking's two (the fill's
    broadcast, the select); then the softmax over each row, the weighted sum of the value rows, the projected query
    rows and the concatenation of the two. -/
abbrev ops : List (HloOp τ sig (Elt F)) :=
  [ StableHlo.binary main_arg1 main_arg7 main_v0 ((fun l r => Host.dotGeneral dot_S8192x512_S512x32_S8192x32_1_0_0_1_n_n none l r) : (⟨S8192x512, .f32⟩ : BufTy).Contents (Elt F) → (⟨S512x32, .f32⟩ : BufTy).Contents (Elt F) → (⟨S8192x32, .f32⟩ : BufTy).Contents (Elt F)),
    StableHlo.unary main_arg8 main_v1 (broadcastInDim S1x32 ![1] bcast_S32_S1x32_1 : (⟨S32, .f32⟩ : BufTy).Contents (Elt F) → (⟨S1x32, .f32⟩ : BufTy).Contents (Elt F)),
    StableHlo.unary main_v1 main_v2 (broadcastInDim S8192x32 ![0, 1] bcast_S1x32_S8192x32_0_1 : (⟨S1x32, .f32⟩ : BufTy).Contents (Elt F) → (⟨S8192x32, .f32⟩ : BufTy).Contents (Elt F)),
    StableHlo.binary main_v0 main_v2 main_v3 (addf : (⟨S8192x32, .f32⟩ : BufTy).Contents (Elt F) → (⟨S8192x32, .f32⟩ : BufTy).Contents (Elt F) → (⟨S8192x32, .f32⟩ : BufTy).Contents (Elt F)),
    StableHlo.unary main_v3 main_v4 (Host.tanh : (⟨S8192x32, .f32⟩ : BufTy).Contents (Elt F) → (⟨S8192x32, .f32⟩ : BufTy).Contents (Elt F)),
    StableHlo.binary main_v4 main_arg9 main_v5 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    StableHlo.unary main_arg10 main_v6 (broadcastInDim S1x32 ![1] bcast_S32_S1x32_1 : (⟨S32, .f32⟩ : BufTy).Contents (Elt F) → (⟨S1x32, .f32⟩ : BufTy).Contents (Elt F)),
    StableHlo.unary main_v6 main_v7 (broadcastInDim S8192x32 ![0, 1] bcast_S1x32_S8192x32_0_1 : (⟨S1x32, .f32⟩ : BufTy).Contents (Elt F) → (⟨S8192x32, .f32⟩ : BufTy).Contents (Elt F)),
    StableHlo.binary main_v5 main_v7 main_v8 (addf : (⟨S8192x32, .f32⟩ : BufTy).Contents (Elt F) → (⟨S8192x32, .f32⟩ : BufTy).Contents (Elt F) → (⟨S8192x32, .f32⟩ : BufTy).Contents (Elt F)),
    StableHlo.binary main_arg1 main_arg11 main_v9 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    StableHlo.unary main_arg12 main_v10 (broadcastInDim S1x256 ![1] bcast_S256_S1x256_1 : (⟨S256, .f32⟩ : BufTy).Contents (Elt F) → (⟨S1x256, .f32⟩ : BufTy).Contents (Elt F)),
    StableHlo.unary main_v10 main_v11 (broadcastInDim S8192x256 ![0, 1] bcast_S1x256_S8192x256_0_1 : (⟨S1x256, .f32⟩ : BufTy).Contents (Elt F) → (⟨S8192x256, .f32⟩ : BufTy).Contents (Elt F)),
    StableHlo.binary main_v9 main_v11 main_v12 (addf : (⟨S8192x256, .f32⟩ : BufTy).Contents (Elt F) → (⟨S8192x256, .f32⟩ : BufTy).Contents (Elt F) → (⟨S8192x256, .f32⟩ : BufTy).Contents (Elt F)),
    StableHlo.binary main_arg0 main_arg3 main_v13 ((fun l r => Host.dotGeneral dot_S8192x512_S512x32_S8192x32_1_0_0_1_n_n none l r) : (⟨S8192x512, .f32⟩ : BufTy).Contents (Elt F) → (⟨S512x32, .f32⟩ : BufTy).Contents (Elt F) → (⟨S8192x32, .f32⟩ : BufTy).Contents (Elt F)),
    StableHlo.unary main_arg4 main_v14 (broadcastInDim S1x32 ![1] bcast_S32_S1x32_1 : (⟨S32, .f32⟩ : BufTy).Contents (Elt F) → (⟨S1x32, .f32⟩ : BufTy).Contents (Elt F)),
    StableHlo.unary main_v14 main_v15 (broadcastInDim S8192x32 ![0, 1] bcast_S1x32_S8192x32_0_1 : (⟨S1x32, .f32⟩ : BufTy).Contents (Elt F) → (⟨S8192x32, .f32⟩ : BufTy).Contents (Elt F)),
    StableHlo.binary main_v13 main_v15 main_v16 (addf : (⟨S8192x32, .f32⟩ : BufTy).Contents (Elt F) → (⟨S8192x32, .f32⟩ : BufTy).Contents (Elt F) → (⟨S8192x32, .f32⟩ : BufTy).Contents (Elt F)),
    StableHlo.unary main_v16 main_v17 (Host.tanh : (⟨S8192x32, .f32⟩ : BufTy).Contents (Elt F) → (⟨S8192x32, .f32⟩ : BufTy).Contents (Elt F)),
    StableHlo.binary main_v17 main_arg5 main_v18 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    StableHlo.unary main_arg6 main_v19 (broadcastInDim S1x32 ![1] bcast_S32_S1x32_1 : (⟨S32, .f32⟩ : BufTy).Contents (Elt F) → (⟨S1x32, .f32⟩ : BufTy).Contents (Elt F)),
    StableHlo.unary main_v19 main_v20 (broadcastInDim S8192x32 ![0, 1] bcast_S1x32_S8192x32_0_1 : (⟨S1x32, .f32⟩ : BufTy).Contents (Elt F) → (⟨S8192x32, .f32⟩ : BufTy).Contents (Elt F)),
    StableHlo.binary main_v18 main_v20 main_v21 (addf : (⟨S8192x32, .f32⟩ : BufTy).Contents (Elt F) → (⟨S8192x32, .f32⟩ : BufTy).Contents (Elt F) → (⟨S8192x32, .f32⟩ : BufTy).Contents (Elt F)),
    StableHlo.binary main_v21 main_v8 main_v22 ((fun l r => Host.dotGeneral dot_S8192x32_S8192x32_S8192x8192_1_1_0_0_n_n none l r) : (⟨S8192x32, .f32⟩ : BufTy).Contents (Elt F) → (⟨S8192x32, .f32⟩ : BufTy).Contents (Elt F) → (⟨S8192x8192, .f32⟩ : BufTy).Contents (Elt F)),
    StableHlo.nullary main_cst (constant S_ .f32 0x3C23D70A#32),
    StableHlo.TRef.nullary main_call0.cst (constant S_ .f32 0x00000000#32),
    StableHlo.TRef.unary main_call0.cst main_call0.v0 (broadcastInDim S8192x8192 ![] bcast_S_S8192x8192),
    StableHlo.TRef.binary (.of main_v22 : StableHlo.TRef sig ⟨S8192x8192, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S8192x8192 ![] bcast_S_S8192x8192),
    StableHlo.TRef.binary main_call0.v3 (.of main_v22 : StableHlo.TRef sig ⟨S8192x8192, .f32⟩) main_call0.v4 mulf,
    StableHlo.TRef.ternary main_call0.v1 (.of main_v22 : StableHlo.TRef sig ⟨S8192x8192, .f32⟩) main_call0.v4 main_call0.call0.v0 select,
    StableHlo.nullary main_c (constantI S_ 32 0#32),
    StableHlo.unary main_c main_v24 (broadcastInDim S8192x8192 ![] bcast_S_S8192x8192 : (⟨S_, .i32⟩ : BufTy).Contents (Elt F) → (⟨S8192x8192, .i32⟩ : BufTy).Contents (Elt F)),
    StableHlo.binary main_arg2 main_v24 main_v25 (cmpi .sgt : (⟨S8192x8192, .i32⟩ : BufTy).Contents (Elt F) → (⟨S8192x8192, .i32⟩ : BufTy).Contents (Elt F) → (⟨S8192x8192, .i1⟩ : BufTy).Contents (Elt F)),
    StableHlo.nullary main_cst_0 (constant S_ .f32 0xD9FFCB9E#32),
    StableHlo.TRef.unary (.of main_cst_0 : StableHlo.TRef sig ⟨S_, .f32⟩) main_call1.v0 (broadcastInDim S8192x8192 ![] bcast_S_S8192x8192),
    StableHlo.TRef.ternary (.of main_v25 : StableHlo.TRef sig ⟨S8192x8192, .i1⟩) (.of main_v23 : StableHlo.TRef sig ⟨S8192x8192, .f32⟩) main_call1.v0 main_call1.v1 select,
    StableHlo.nullary main_cst_1 (constant S_ .f32 0xFF800000#32),
    StableHlo.binary main_v26 main_cst_1 main_v27 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_2 (constant S_ .f32 0xFF800000#32),
    StableHlo.unary main_cst_2 main_v28 (broadcastInDim S8192 ![] bcast_S_S8192 : (⟨S_, .f32⟩ : BufTy).Contents (Elt F) → (⟨S8192, .f32⟩ : BufTy).Contents (Elt F)),
    StableHlo.binary main_v28 main_v27 main_v29 (maximumf : (⟨S8192, .f32⟩ : BufTy).Contents (Elt F) → (⟨S8192, .f32⟩ : BufTy).Contents (Elt F) → (⟨S8192, .f32⟩ : BufTy).Contents (Elt F)),
    StableHlo.unary main_v29 main_v30 (broadcastInDim S8192x1 ![0] bcast_S8192_S8192x1_0 : (⟨S8192, .f32⟩ : BufTy).Contents (Elt F) → (⟨S8192x1, .f32⟩ : BufTy).Contents (Elt F)),
    StableHlo.unary main_v30 main_v31 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v26 main_v31 main_v32 (subf : (⟨S8192x8192, .f32⟩ : BufTy).Contents (Elt F) → (⟨S8192x8192, .f32⟩ : BufTy).Contents (Elt F) → (⟨S8192x8192, .f32⟩ : BufTy).Contents (Elt F)),
    StableHlo.unary main_v32 main_v33 (Host.exp : (⟨S8192x8192, .f32⟩ : BufTy).Contents (Elt F) → (⟨S8192x8192, .f32⟩ : BufTy).Contents (Elt F)),
    StableHlo.nullary main_cst_3 (constant S_ .f32 0x00000000#32),
    StableHlo.binary main_v33 main_cst_3 main_v34 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v34 main_v35 (broadcastInDim S8192x1 ![0] bcast_S8192_S8192x1_0 : (⟨S8192, .f32⟩ : BufTy).Contents (Elt F) → (⟨S8192x1, .f32⟩ : BufTy).Contents (Elt F)),
    StableHlo.unary main_v35 main_v36 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v33 main_v36 main_v37 (Host.divf : (⟨S8192x8192, .f32⟩ : BufTy).Contents (Elt F) → (⟨S8192x8192, .f32⟩ : BufTy).Contents (Elt F) → (⟨S8192x8192, .f32⟩ : BufTy).Contents (Elt F)),
    StableHlo.binary main_v37 main_v12 main_v38 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    StableHlo.binary main_arg0 main_arg13 main_v39 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    StableHlo.unary main_arg14 main_v40 (broadcastInDim S1x256 ![1] bcast_S256_S1x256_1 : (⟨S256, .f32⟩ : BufTy).Contents (Elt F) → (⟨S1x256, .f32⟩ : BufTy).Contents (Elt F)),
    StableHlo.unary main_v40 main_v41 (broadcastInDim S8192x256 ![0, 1] bcast_S1x256_S8192x256_0_1 : (⟨S1x256, .f32⟩ : BufTy).Contents (Elt F) → (⟨S8192x256, .f32⟩ : BufTy).Contents (Elt F)),
    StableHlo.binary main_v39 main_v41 main_v42 (addf : (⟨S8192x256, .f32⟩ : BufTy).Contents (Elt F) → (⟨S8192x256, .f32⟩ : BufTy).Contents (Elt F) → (⟨S8192x256, .f32⟩ : BufTy).Contents (Elt F)),
    StableHlo.binary main_v42 main_v38 main_v43 ((fun a b => concatenate S8192x512 1 [⟨S8192x256, a⟩, ⟨S8192x256, b⟩] concatenates_S8192x256_S8192x256_S8192x512_d1) : (⟨S8192x256, .f32⟩ : BufTy).Contents (Elt F) → (⟨S8192x256, .f32⟩ : BufTy).Contents (Elt F) → (⟨S8192x512, .f32⟩ : BufTy).Contents (Elt F)) ]

-- fifty-seven binds re-associated: the rewrite under the chain recurses once per statement
set_option maxRecDepth 2048 in
/-- @main is that straight line: the functions' definitions unfolded at their calls, both sides are one chain of
    steps once sequencing is reassociated. -/
theorem main_eq (c : Dev nD) : main (F := F) c = seq ops := by
  simp only [main, fn_leaky_relu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., binary_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., binary_bufs_sub ..⟩

/-- The key rows' attention features: the first nine operations. -/
abbrev opsA : List (HloOp τ sig (Elt F)) :=
  [ StableHlo.binary main_arg1 main_arg7 main_v0 ((fun l r => Host.dotGeneral dot_S8192x512_S512x32_S8192x32_1_0_0_1_n_n none l r) : (⟨S8192x512, .f32⟩ : BufTy).Contents (Elt F) → (⟨S512x32, .f32⟩ : BufTy).Contents (Elt F) → (⟨S8192x32, .f32⟩ : BufTy).Contents (Elt F)),
    StableHlo.unary main_arg8 main_v1 (broadcastInDim S1x32 ![1] bcast_S32_S1x32_1 : (⟨S32, .f32⟩ : BufTy).Contents (Elt F) → (⟨S1x32, .f32⟩ : BufTy).Contents (Elt F)),
    StableHlo.unary main_v1 main_v2 (broadcastInDim S8192x32 ![0, 1] bcast_S1x32_S8192x32_0_1 : (⟨S1x32, .f32⟩ : BufTy).Contents (Elt F) → (⟨S8192x32, .f32⟩ : BufTy).Contents (Elt F)),
    StableHlo.binary main_v0 main_v2 main_v3 (addf : (⟨S8192x32, .f32⟩ : BufTy).Contents (Elt F) → (⟨S8192x32, .f32⟩ : BufTy).Contents (Elt F) → (⟨S8192x32, .f32⟩ : BufTy).Contents (Elt F)),
    StableHlo.unary main_v3 main_v4 (Host.tanh : (⟨S8192x32, .f32⟩ : BufTy).Contents (Elt F) → (⟨S8192x32, .f32⟩ : BufTy).Contents (Elt F)),
    StableHlo.binary main_v4 main_arg9 main_v5 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    StableHlo.unary main_arg10 main_v6 (broadcastInDim S1x32 ![1] bcast_S32_S1x32_1 : (⟨S32, .f32⟩ : BufTy).Contents (Elt F) → (⟨S1x32, .f32⟩ : BufTy).Contents (Elt F)),
    StableHlo.unary main_v6 main_v7 (broadcastInDim S8192x32 ![0, 1] bcast_S1x32_S8192x32_0_1 : (⟨S1x32, .f32⟩ : BufTy).Contents (Elt F) → (⟨S8192x32, .f32⟩ : BufTy).Contents (Elt F)),
    StableHlo.binary main_v5 main_v7 main_v8 (addf : (⟨S8192x32, .f32⟩ : BufTy).Contents (Elt F) → (⟨S8192x32, .f32⟩ : BufTy).Contents (Elt F) → (⟨S8192x32, .f32⟩ : BufTy).Contents (Elt F)) ]

theorem afterA (V : Valuation τ sig (Elt Ideal)) :
    after (opsA (F := Ideal)) V (Proc.devRef .tc main_v8)
      = feat (V (Proc.devRef .tc main_arg1)) (V (Proc.devRef .tc main_arg7)) (V (Proc.devRef .tc main_arg8)) (V (Proc.devRef .tc main_arg9)) (V (Proc.devRef .tc main_arg10)) := by
  after_results_simp
  rfl
theorem keepA_main_arg0 (V : Valuation τ sig (Elt Ideal)) :
    after (opsA (F := Ideal)) V (Proc.devRef .tc main_arg0) = V (Proc.devRef .tc main_arg0) := by
  after_results_simp
theorem keepA_main_arg1 (V : Valuation τ sig (Elt Ideal)) :
    after (opsA (F := Ideal)) V (Proc.devRef .tc main_arg1) = V (Proc.devRef .tc main_arg1) := by
  after_results_simp
theorem keepA_main_arg2 (V : Valuation τ sig (Elt Ideal)) :
    after (opsA (F := Ideal)) V (Proc.devRef .tc main_arg2) = V (Proc.devRef .tc main_arg2) := by
  after_results_simp
theorem keepA_main_arg3 (V : Valuation τ sig (Elt Ideal)) :
    after (opsA (F := Ideal)) V (Proc.devRef .tc main_arg3) = V (Proc.devRef .tc main_arg3) := by
  after_results_simp
theorem keepA_main_arg4 (V : Valuation τ sig (Elt Ideal)) :
    after (opsA (F := Ideal)) V (Proc.devRef .tc main_arg4) = V (Proc.devRef .tc main_arg4) := by
  after_results_simp
theorem keepA_main_arg5 (V : Valuation τ sig (Elt Ideal)) :
    after (opsA (F := Ideal)) V (Proc.devRef .tc main_arg5) = V (Proc.devRef .tc main_arg5) := by
  after_results_simp
theorem keepA_main_arg6 (V : Valuation τ sig (Elt Ideal)) :
    after (opsA (F := Ideal)) V (Proc.devRef .tc main_arg6) = V (Proc.devRef .tc main_arg6) := by
  after_results_simp
theorem keepA_main_arg11 (V : Valuation τ sig (Elt Ideal)) :
    after (opsA (F := Ideal)) V (Proc.devRef .tc main_arg11) = V (Proc.devRef .tc main_arg11) := by
  after_results_simp
theorem keepA_main_arg12 (V : Valuation τ sig (Elt Ideal)) :
    after (opsA (F := Ideal)) V (Proc.devRef .tc main_arg12) = V (Proc.devRef .tc main_arg12) := by
  after_results_simp
theorem keepA_main_arg13 (V : Valuation τ sig (Elt Ideal)) :
    after (opsA (F := Ideal)) V (Proc.devRef .tc main_arg13) = V (Proc.devRef .tc main_arg13) := by
  after_results_simp
theorem keepA_main_arg14 (V : Valuation τ sig (Elt Ideal)) :
    after (opsA (F := Ideal)) V (Proc.devRef .tc main_arg14) = V (Proc.devRef .tc main_arg14) := by
  after_results_simp

/-- The value rows: the next four. -/
abbrev opsB : List (HloOp τ sig (Elt F)) :=
  [ StableHlo.binary main_arg1 main_arg11 main_v9 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    StableHlo.unary main_arg12 main_v10 (broadcastInDim S1x256 ![1] bcast_S256_S1x256_1 : (⟨S256, .f32⟩ : BufTy).Contents (Elt F) → (⟨S1x256, .f32⟩ : BufTy).Contents (Elt F)),
    StableHlo.unary main_v10 main_v11 (broadcastInDim S8192x256 ![0, 1] bcast_S1x256_S8192x256_0_1 : (⟨S1x256, .f32⟩ : BufTy).Contents (Elt F) → (⟨S8192x256, .f32⟩ : BufTy).Contents (Elt F)),
    StableHlo.binary main_v9 main_v11 main_v12 (addf : (⟨S8192x256, .f32⟩ : BufTy).Contents (Elt F) → (⟨S8192x256, .f32⟩ : BufTy).Contents (Elt F) → (⟨S8192x256, .f32⟩ : BufTy).Contents (Elt F)) ]

theorem afterB (V : Valuation τ sig (Elt Ideal)) :
    after (opsB (F := Ideal)) V (Proc.devRef .tc main_v12)
      = dense512x256 (V (Proc.devRef .tc main_arg1)) (V (Proc.devRef .tc main_arg11)) (V (Proc.devRef .tc main_arg12)) := by
  after_results_simp
  rfl
theorem keepB_main_v8 (V : Valuation τ sig (Elt Ideal)) :
    after (opsB (F := Ideal)) V (Proc.devRef .tc main_v8) = V (Proc.devRef .tc main_v8) := by
  after_results_simp
theorem keepB_main_arg0 (V : Valuation τ sig (Elt Ideal)) :
    after (opsB (F := Ideal)) V (Proc.devRef .tc main_arg0) = V (Proc.devRef .tc main_arg0) := by
  after_results_simp
theorem keepB_main_arg2 (V : Valuation τ sig (Elt Ideal)) :
    after (opsB (F := Ideal)) V (Proc.devRef .tc main_arg2) = V (Proc.devRef .tc main_arg2) := by
  after_results_simp
theorem keepB_main_arg3 (V : Valuation τ sig (Elt Ideal)) :
    after (opsB (F := Ideal)) V (Proc.devRef .tc main_arg3) = V (Proc.devRef .tc main_arg3) := by
  after_results_simp
theorem keepB_main_arg4 (V : Valuation τ sig (Elt Ideal)) :
    after (opsB (F := Ideal)) V (Proc.devRef .tc main_arg4) = V (Proc.devRef .tc main_arg4) := by
  after_results_simp
theorem keepB_main_arg5 (V : Valuation τ sig (Elt Ideal)) :
    after (opsB (F := Ideal)) V (Proc.devRef .tc main_arg5) = V (Proc.devRef .tc main_arg5) := by
  after_results_simp
theorem keepB_main_arg6 (V : Valuation τ sig (Elt Ideal)) :
    after (opsB (F := Ideal)) V (Proc.devRef .tc main_arg6) = V (Proc.devRef .tc main_arg6) := by
  after_results_simp
theorem keepB_main_arg13 (V : Valuation τ sig (Elt Ideal)) :
    after (opsB (F := Ideal)) V (Proc.devRef .tc main_arg13) = V (Proc.devRef .tc main_arg13) := by
  after_results_simp
theorem keepB_main_arg14 (V : Valuation τ sig (Elt Ideal)) :
    after (opsB (F := Ideal)) V (Proc.devRef .tc main_arg14) = V (Proc.devRef .tc main_arg14) := by
  after_results_simp

/-- The query rows' attention features: the next nine. -/
abbrev opsC : List (HloOp τ sig (Elt F)) :=
  [ StableHlo.binary main_arg0 main_arg3 main_v13 ((fun l r => Host.dotGeneral dot_S8192x512_S512x32_S8192x32_1_0_0_1_n_n none l r) : (⟨S8192x512, .f32⟩ : BufTy).Contents (Elt F) → (⟨S512x32, .f32⟩ : BufTy).Contents (Elt F) → (⟨S8192x32, .f32⟩ : BufTy).Contents (Elt F)),
    StableHlo.unary main_arg4 main_v14 (broadcastInDim S1x32 ![1] bcast_S32_S1x32_1 : (⟨S32, .f32⟩ : BufTy).Contents (Elt F) → (⟨S1x32, .f32⟩ : BufTy).Contents (Elt F)),
    StableHlo.unary main_v14 main_v15 (broadcastInDim S8192x32 ![0, 1] bcast_S1x32_S8192x32_0_1 : (⟨S1x32, .f32⟩ : BufTy).Contents (Elt F) → (⟨S8192x32, .f32⟩ : BufTy).Contents (Elt F)),
    StableHlo.binary main_v13 main_v15 main_v16 (addf : (⟨S8192x32, .f32⟩ : BufTy).Contents (Elt F) → (⟨S8192x32, .f32⟩ : BufTy).Contents (Elt F) → (⟨S8192x32, .f32⟩ : BufTy).Contents (Elt F)),
    StableHlo.unary main_v16 main_v17 (Host.tanh : (⟨S8192x32, .f32⟩ : BufTy).Contents (Elt F) → (⟨S8192x32, .f32⟩ : BufTy).Contents (Elt F)),
    StableHlo.binary main_v17 main_arg5 main_v18 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    StableHlo.unary main_arg6 main_v19 (broadcastInDim S1x32 ![1] bcast_S32_S1x32_1 : (⟨S32, .f32⟩ : BufTy).Contents (Elt F) → (⟨S1x32, .f32⟩ : BufTy).Contents (Elt F)),
    StableHlo.unary main_v19 main_v20 (broadcastInDim S8192x32 ![0, 1] bcast_S1x32_S8192x32_0_1 : (⟨S1x32, .f32⟩ : BufTy).Contents (Elt F) → (⟨S8192x32, .f32⟩ : BufTy).Contents (Elt F)),
    StableHlo.binary main_v18 main_v20 main_v21 (addf : (⟨S8192x32, .f32⟩ : BufTy).Contents (Elt F) → (⟨S8192x32, .f32⟩ : BufTy).Contents (Elt F) → (⟨S8192x32, .f32⟩ : BufTy).Contents (Elt F)) ]

theorem afterC (V : Valuation τ sig (Elt Ideal)) :
    after (opsC (F := Ideal)) V (Proc.devRef .tc main_v21)
      = feat (V (Proc.devRef .tc main_arg0)) (V (Proc.devRef .tc main_arg3)) (V (Proc.devRef .tc main_arg4)) (V (Proc.devRef .tc main_arg5)) (V (Proc.devRef .tc main_arg6)) := by
  after_results_simp
  rfl
theorem keepC_main_v8 (V : Valuation τ sig (Elt Ideal)) :
    after (opsC (F := Ideal)) V (Proc.devRef .tc main_v8) = V (Proc.devRef .tc main_v8) := by
  after_results_simp
theorem keepC_main_v12 (V : Valuation τ sig (Elt Ideal)) :
    after (opsC (F := Ideal)) V (Proc.devRef .tc main_v12) = V (Proc.devRef .tc main_v12) := by
  after_results_simp
theorem keepC_main_arg0 (V : Valuation τ sig (Elt Ideal)) :
    after (opsC (F := Ideal)) V (Proc.devRef .tc main_arg0) = V (Proc.devRef .tc main_arg0) := by
  after_results_simp
theorem keepC_main_arg2 (V : Valuation τ sig (Elt Ideal)) :
    after (opsC (F := Ideal)) V (Proc.devRef .tc main_arg2) = V (Proc.devRef .tc main_arg2) := by
  after_results_simp
theorem keepC_main_arg13 (V : Valuation τ sig (Elt Ideal)) :
    after (opsC (F := Ideal)) V (Proc.devRef .tc main_arg13) = V (Proc.devRef .tc main_arg13) := by
  after_results_simp
theorem keepC_main_arg14 (V : Valuation τ sig (Elt Ideal)) :
    after (opsC (F := Ideal)) V (Proc.devRef .tc main_arg14) = V (Proc.devRef .tc main_arg14) := by
  after_results_simp

/-- The masked scores from the two feature arrays and the adjacency: the logits, the rectifier's slope and its seven
    operations, the adjacency's comparison with zero, the fill and the masking's two. -/
abbrev opsD : List (HloOp τ sig (Elt F)) :=
  [ StableHlo.binary main_v21 main_v8 main_v22 ((fun l r => Host.dotGeneral dot_S8192x32_S8192x32_S8192x8192_1_1_0_0_n_n none l r) : (⟨S8192x32, .f32⟩ : BufTy).Contents (Elt F) → (⟨S8192x32, .f32⟩ : BufTy).Contents (Elt F) → (⟨S8192x8192, .f32⟩ : BufTy).Contents (Elt F)),
    StableHlo.nullary main_cst (constant S_ .f32 0x3C23D70A#32),
    StableHlo.TRef.nullary main_call0.cst (constant S_ .f32 0x00000000#32),
    StableHlo.TRef.unary main_call0.cst main_call0.v0 (broadcastInDim S8192x8192 ![] bcast_S_S8192x8192),
    StableHlo.TRef.binary (.of main_v22 : StableHlo.TRef sig ⟨S8192x8192, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S8192x8192 ![] bcast_S_S8192x8192),
    StableHlo.TRef.binary main_call0.v3 (.of main_v22 : StableHlo.TRef sig ⟨S8192x8192, .f32⟩) main_call0.v4 mulf,
    StableHlo.TRef.ternary main_call0.v1 (.of main_v22 : StableHlo.TRef sig ⟨S8192x8192, .f32⟩) main_call0.v4 main_call0.call0.v0 select,
    StableHlo.nullary main_c (constantI S_ 32 0#32),
    StableHlo.unary main_c main_v24 (broadcastInDim S8192x8192 ![] bcast_S_S8192x8192 : (⟨S_, .i32⟩ : BufTy).Contents (Elt F) → (⟨S8192x8192, .i32⟩ : BufTy).Contents (Elt F)),
    StableHlo.binary main_arg2 main_v24 main_v25 (cmpi .sgt : (⟨S8192x8192, .i32⟩ : BufTy).Contents (Elt F) → (⟨S8192x8192, .i32⟩ : BufTy).Contents (Elt F) → (⟨S8192x8192, .i1⟩ : BufTy).Contents (Elt F)),
    StableHlo.nullary main_cst_0 (constant S_ .f32 0xD9FFCB9E#32),
    StableHlo.TRef.unary (.of main_cst_0 : StableHlo.TRef sig ⟨S_, .f32⟩) main_call1.v0 (broadcastInDim S8192x8192 ![] bcast_S_S8192x8192),
    StableHlo.TRef.ternary (.of main_v25 : StableHlo.TRef sig ⟨S8192x8192, .i1⟩) (.of main_v23 : StableHlo.TRef sig ⟨S8192x8192, .f32⟩) main_call1.v0 main_call1.v1 select ]

theorem afterD (V : Valuation τ sig (Elt Ideal)) :
    after (opsD (F := Ideal)) V (Proc.devRef .tc main_v26)
      = masked (V (Proc.devRef .tc main_arg2)) (leakyRelu (logits (V (Proc.devRef .tc main_v21)) (V (Proc.devRef .tc main_v8))) (constant S_ .f32 0x3C23D70A#32)) := by
  after_results_simp
  rfl
theorem keepD_main_v12 (V : Valuation τ sig (Elt Ideal)) :
    after (opsD (F := Ideal)) V (Proc.devRef .tc main_v12) = V (Proc.devRef .tc main_v12) := by
  after_results_simp
theorem keepD_main_arg0 (V : Valuation τ sig (Elt Ideal)) :
    after (opsD (F := Ideal)) V (Proc.devRef .tc main_arg0) = V (Proc.devRef .tc main_arg0) := by
  after_results_simp
theorem keepD_main_arg13 (V : Valuation τ sig (Elt Ideal)) :
    after (opsD (F := Ideal)) V (Proc.devRef .tc main_arg13) = V (Proc.devRef .tc main_arg13) := by
  after_results_simp
theorem keepD_main_arg14 (V : Valuation τ sig (Elt Ideal)) :
    after (opsD (F := Ideal)) V (Proc.devRef .tc main_arg14) = V (Proc.devRef .tc main_arg14) := by
  after_results_simp

/-- The row softmax of the masked scores: the next fourteen. -/
abbrev opsE : List (HloOp τ sig (Elt F)) :=
  [ StableHlo.nullary main_cst_1 (constant S_ .f32 0xFF800000#32),
    StableHlo.binary main_v26 main_cst_1 main_v27 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_2 (constant S_ .f32 0xFF800000#32),
    StableHlo.unary main_cst_2 main_v28 (broadcastInDim S8192 ![] bcast_S_S8192 : (⟨S_, .f32⟩ : BufTy).Contents (Elt F) → (⟨S8192, .f32⟩ : BufTy).Contents (Elt F)),
    StableHlo.binary main_v28 main_v27 main_v29 (maximumf : (⟨S8192, .f32⟩ : BufTy).Contents (Elt F) → (⟨S8192, .f32⟩ : BufTy).Contents (Elt F) → (⟨S8192, .f32⟩ : BufTy).Contents (Elt F)),
    StableHlo.unary main_v29 main_v30 (broadcastInDim S8192x1 ![0] bcast_S8192_S8192x1_0 : (⟨S8192, .f32⟩ : BufTy).Contents (Elt F) → (⟨S8192x1, .f32⟩ : BufTy).Contents (Elt F)),
    StableHlo.unary main_v30 main_v31 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v26 main_v31 main_v32 (subf : (⟨S8192x8192, .f32⟩ : BufTy).Contents (Elt F) → (⟨S8192x8192, .f32⟩ : BufTy).Contents (Elt F) → (⟨S8192x8192, .f32⟩ : BufTy).Contents (Elt F)),
    StableHlo.unary main_v32 main_v33 (Host.exp : (⟨S8192x8192, .f32⟩ : BufTy).Contents (Elt F) → (⟨S8192x8192, .f32⟩ : BufTy).Contents (Elt F)),
    StableHlo.nullary main_cst_3 (constant S_ .f32 0x00000000#32),
    StableHlo.binary main_v33 main_cst_3 main_v34 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v34 main_v35 (broadcastInDim S8192x1 ![0] bcast_S8192_S8192x1_0 : (⟨S8192, .f32⟩ : BufTy).Contents (Elt F) → (⟨S8192x1, .f32⟩ : BufTy).Contents (Elt F)),
    StableHlo.unary main_v35 main_v36 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v33 main_v36 main_v37 (Host.divf : (⟨S8192x8192, .f32⟩ : BufTy).Contents (Elt F) → (⟨S8192x8192, .f32⟩ : BufTy).Contents (Elt F) → (⟨S8192x8192, .f32⟩ : BufTy).Contents (Elt F)) ]

theorem afterE (V : Valuation τ sig (Elt Ideal)) :
    after (opsE (F := Ideal)) V (Proc.devRef .tc main_v37)
      = softmax (V (Proc.devRef .tc main_v26)) := by
  after_results_simp
  rfl
theorem keepE_main_v12 (V : Valuation τ sig (Elt Ideal)) :
    after (opsE (F := Ideal)) V (Proc.devRef .tc main_v12) = V (Proc.devRef .tc main_v12) := by
  after_results_simp
theorem keepE_main_arg0 (V : Valuation τ sig (Elt Ideal)) :
    after (opsE (F := Ideal)) V (Proc.devRef .tc main_arg0) = V (Proc.devRef .tc main_arg0) := by
  after_results_simp
theorem keepE_main_arg13 (V : Valuation τ sig (Elt Ideal)) :
    after (opsE (F := Ideal)) V (Proc.devRef .tc main_arg13) = V (Proc.devRef .tc main_arg13) := by
  after_results_simp
theorem keepE_main_arg14 (V : Valuation τ sig (Elt Ideal)) :
    after (opsE (F := Ideal)) V (Proc.devRef .tc main_arg14) = V (Proc.devRef .tc main_arg14) := by
  after_results_simp

/-- The aggregate, the projected query rows and the two laid side by side: the last six. -/
abbrev opsF : List (HloOp τ sig (Elt F)) :=
  [ StableHlo.binary main_v37 main_v12 main_v38 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    StableHlo.binary main_arg0 main_arg13 main_v39 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    StableHlo.unary main_arg14 main_v40 (broadcastInDim S1x256 ![1] bcast_S256_S1x256_1 : (⟨S256, .f32⟩ : BufTy).Contents (Elt F) → (⟨S1x256, .f32⟩ : BufTy).Contents (Elt F)),
    StableHlo.unary main_v40 main_v41 (broadcastInDim S8192x256 ![0, 1] bcast_S1x256_S8192x256_0_1 : (⟨S1x256, .f32⟩ : BufTy).Contents (Elt F) → (⟨S8192x256, .f32⟩ : BufTy).Contents (Elt F)),
    StableHlo.binary main_v39 main_v41 main_v42 (addf : (⟨S8192x256, .f32⟩ : BufTy).Contents (Elt F) → (⟨S8192x256, .f32⟩ : BufTy).Contents (Elt F) → (⟨S8192x256, .f32⟩ : BufTy).Contents (Elt F)),
    StableHlo.binary main_v42 main_v38 main_v43 ((fun a b => concatenate S8192x512 1 [⟨S8192x256, a⟩, ⟨S8192x256, b⟩] concatenates_S8192x256_S8192x256_S8192x512_d1) : (⟨S8192x256, .f32⟩ : BufTy).Contents (Elt F) → (⟨S8192x256, .f32⟩ : BufTy).Contents (Elt F) → (⟨S8192x512, .f32⟩ : BufTy).Contents (Elt F)) ]

theorem afterF (V : Valuation τ sig (Elt Ideal)) :
    after (opsF (F := Ideal)) V (Proc.devRef .tc main_v43)
      = concatenate S8192x512 1
          [⟨S8192x256, dense512x256 (V (Proc.devRef .tc main_arg0)) (V (Proc.devRef .tc main_arg13)) (V (Proc.devRef .tc main_arg14))⟩,
           ⟨S8192x256, Host.dotGeneral (φ₁ := .f32) (φ₂ := .f32) dot_S8192x8192_S8192x256_S8192x256_1_0_0_1_n_n none (V (Proc.devRef .tc main_v37)) (V (Proc.devRef .tc main_v12))⟩]
          concatenates_S8192x256_S8192x256_S8192x512_d1 := by
  after_results_simp
  rfl

/-- The operations run as two lists one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The fifty-seven operations are the six stretches in order. -/
theorem ops_eq : (ops : List (HloOp τ sig (Elt F))) = opsA ++ opsB ++ opsC ++ opsD ++ opsE ++ opsF := rfl

/-- The result buffer after the operations is the composed term at the argument buffers' contents: stretch by
    stretch from the last, each stretch's result at its own buffer and every buffer it does not write as it was. -/
theorem out_eq (V : Valuation τ sig (Elt Ideal)) :
    after (ops (F := Ideal)) V (Proc.devRef .tc main_v43)
      = refTerm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [ops_eq]
  simp only [after_app]
  rw [afterF]
  rw [afterE, keepE_main_v12, keepE_main_arg0, keepE_main_arg13, keepE_main_arg14]
  rw [afterD, keepD_main_v12, keepD_main_arg0, keepD_main_arg13, keepD_main_arg14]
  rw [afterC, keepC_main_v8, keepC_main_v12, keepC_main_arg0, keepC_main_arg2, keepC_main_arg13, keepC_main_arg14]
  rw [afterB, keepB_main_v8, keepB_main_arg0, keepB_main_arg2, keepB_main_arg3, keepB_main_arg4, keepB_main_arg5, keepB_main_arg6, keepB_main_arg13, keepB_main_arg14]
  rw [afterA, keepA_main_arg0, keepA_main_arg1, keepA_main_arg2, keepA_main_arg3, keepA_main_arg4, keepA_main_arg5, keepA_main_arg6, keepA_main_arg11, keepA_main_arg12, keepA_main_arg13, keepA_main_arg14]
  rfl

theorem arg0_eq (V : Valuation τ sig (Elt Ideal)) :
    after (ops (F := Ideal)) V (Proc.devRef .tc main_arg0) = V (Proc.devRef .tc main_arg0) := by
  after_results_simp
theorem arg1_eq (V : Valuation τ sig (Elt Ideal)) :
    after (ops (F := Ideal)) V (Proc.devRef .tc main_arg1) = V (Proc.devRef .tc main_arg1) := by
  after_results_simp
theorem arg2_eq (V : Valuation τ sig (Elt Ideal)) :
    after (ops (F := Ideal)) V (Proc.devRef .tc main_arg2) = V (Proc.devRef .tc main_arg2) := by
  after_results_simp
theorem arg3_eq (V : Valuation τ sig (Elt Ideal)) :
    after (ops (F := Ideal)) V (Proc.devRef .tc main_arg3) = V (Proc.devRef .tc main_arg3) := by
  after_results_simp
theorem arg4_eq (V : Valuation τ sig (Elt Ideal)) :
    after (ops (F := Ideal)) V (Proc.devRef .tc main_arg4) = V (Proc.devRef .tc main_arg4) := by
  after_results_simp
theorem arg5_eq (V : Valuation τ sig (Elt Ideal)) :
    after (ops (F := Ideal)) V (Proc.devRef .tc main_arg5) = V (Proc.devRef .tc main_arg5) := by
  after_results_simp
theorem arg6_eq (V : Valuation τ sig (Elt Ideal)) :
    after (ops (F := Ideal)) V (Proc.devRef .tc main_arg6) = V (Proc.devRef .tc main_arg6) := by
  after_results_simp
theorem arg7_eq (V : Valuation τ sig (Elt Ideal)) :
    after (ops (F := Ideal)) V (Proc.devRef .tc main_arg7) = V (Proc.devRef .tc main_arg7) := by
  after_results_simp
theorem arg8_eq (V : Valuation τ sig (Elt Ideal)) :
    after (ops (F := Ideal)) V (Proc.devRef .tc main_arg8) = V (Proc.devRef .tc main_arg8) := by
  after_results_simp
theorem arg9_eq (V : Valuation τ sig (Elt Ideal)) :
    after (ops (F := Ideal)) V (Proc.devRef .tc main_arg9) = V (Proc.devRef .tc main_arg9) := by
  after_results_simp
theorem arg10_eq (V : Valuation τ sig (Elt Ideal)) :
    after (ops (F := Ideal)) V (Proc.devRef .tc main_arg10) = V (Proc.devRef .tc main_arg10) := by
  after_results_simp
theorem arg11_eq (V : Valuation τ sig (Elt Ideal)) :
    after (ops (F := Ideal)) V (Proc.devRef .tc main_arg11) = V (Proc.devRef .tc main_arg11) := by
  after_results_simp
theorem arg12_eq (V : Valuation τ sig (Elt Ideal)) :
    after (ops (F := Ideal)) V (Proc.devRef .tc main_arg12) = V (Proc.devRef .tc main_arg12) := by
  after_results_simp
theorem arg13_eq (V : Valuation τ sig (Elt Ideal)) :
    after (ops (F := Ideal)) V (Proc.devRef .tc main_arg13) = V (Proc.devRef .tc main_arg13) := by
  after_results_simp
theorem arg14_eq (V : Valuation τ sig (Elt Ideal)) :
    after (ops (F := Ideal)) V (Proc.devRef .tc main_arg14) = V (Proc.devRef .tc main_arg14) := by
  after_results_simp

/-- At the compiled mesh, from any memory with zero counters: every weakly fair execution of @main terminates with the
    result at the operations' composed term of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v43) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c main_v43).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _)⟩)
    (run_seq scopedRefs_eq scopedSems_eq defs main (fun _ => ops) main_eq (fun _ => ops_sub) m ρ)

end Cert.ReferenceIdeal.Hand

end
-- ==== Proof.RI.Value.lean ====
/-
  The reference's result read at an index is the specification's: each stage of the term, read at explicit
  coordinates, is the corresponding function of the specification.
-/
import proofs.«426227_j46033459479181_3_alg».proof.Proof.RI.Term
import Idealize.ShloMosaic.Lib.StackMember
import Idealize.ShloMosaic.Lib.IdealHost
import Idealize.ShloMosaic.Lib.KernelVsHost
import Idealize.ShloMosaic.PureOps.Reduce

noncomputable section

namespace Cert.ReferenceIdeal.Hand

open Cert.ReferenceIdeal
open Idealize.ShloMosaic Idealize.SL.Sem Idealize.ShloMosaic.ValueIdx Idealize.ShloMosaic.StackMember

/-! ## Single operations at an index, at any extents -/

section Generic
variable {m k n : Nat} {α : Type}

/-- A rows-by-columns product at an entry: the sum over the contracted coordinate. -/
theorem dotPlain_apply (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (a : Fin m) (b : Fin n) :
    Host.dotGeneral D none A B (ix2 a b) = ∑ c : Fin k, A (ix2 a c) * B (ix2 c b) := by
  subst hD; exact dotGeneral_plain_apply none A B a b

/-- A product against a transposed right operand at an entry: both operands are read along their last axis. -/
theorem dotTransposedRhs_apply (D : DotDims ⟨2, ![m, k]⟩ ⟨2, ![n, k]⟩ ⟨2, ![m, n]⟩) (hD : D = DotDims.transposedRhs m k n)
    (A : FVec Ideal ⟨2, ![m, k]⟩ .f32) (B : FVec Ideal ⟨2, ![n, k]⟩ .f32) (a : Fin m) (b : Fin n) :
    Host.dotGeneral D none A B (ix2 a b) = ∑ c : Fin k, A (ix2 a c) * B (ix2 b c) := by
  subst hD
  show FloatOps.dotGeneral _ none _ A B (ix2 a b) = _
  rw [Ideal.dotGeneral_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- A vector made one row and repeated down the rows reads the vector at the column. -/
theorem biasRows_apply (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (r : Fin m) (c : Fin n) :
    broadcastInDim ⟨2, ![m, n]⟩ ![0, 1] h2 (broadcastInDim ⟨2, ![1, n]⟩ ![1] h1 b) (ix2 r c) = b (ix1 c) := by
  rw [broadcastInDim_oneRow_apply]
  refine broadcastInDim_apply ![1] h1 b (ix2 (0 : Fin 1) c) (ix1 c) ?_
  intro a
  fin_cases a
  show c.val = if n = 1 then 0 else c.val
  split_ifs with hn
  · have := c.isLt; omega
  · rfl

/-- A vector made one column and repeated along the columns reads the vector at the row. -/
theorem colBroadcast_apply (h1 : (⟨1, ![m]⟩ : Shape).BroadcastsInDim ⟨2, ![m, 1]⟩ ![0])
    (h2 : (⟨2, ![m, 1]⟩ : Shape).BroadcastsInDim ⟨2, ![m, n]⟩ ![0, 1]) (v : (⟨1, ![m]⟩ : Shape).Idx → α)
    (r : Fin m) (c : Fin n) :
    broadcastInDim ⟨2, ![m, n]⟩ ![0, 1] h2 (broadcastInDim ⟨2, ![m, 1]⟩ ![0] h1 v) (ix2 r c) = v (ix1 r) := by
  refine (broadcastInDim_apply ![0, 1] h2 _ (ix2 r c) (ix2 r (0 : Fin 1)) ?_).trans ?_
  · intro a
    fin_cases a
    · show r.val = if m = 1 then 0 else r.val
      split_ifs with hm
      · have := r.isLt; omega
      · rfl
    · show (0 : ℕ) = if (1 : ℕ) = 1 then 0 else _
      simp
  · refine broadcastInDim_apply ![0] h1 v (ix2 r (0 : Fin 1)) (ix1 r) ?_
    intro a
    fin_cases a
    show r.val = if m = 1 then 0 else r.val
    split_ifs with hm
    · have := r.isLt; omega
    · rfl

/-- The reduced index `r` with column `k` put back is (r, k). -/
theorem lift1_ix2 (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- From minus infinity the maximum over the columns of a row is the fold of the maximum over the row, from the bottom. -/
theorem hostReduceMax_row (x : FVec Ideal ⟨2, ![m, n]⟩ .f32)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (r : Fin m) :
    Host.reduce FloatOps.maximumf x (constant (⟨0, ![]⟩ : Shape) .f32 0xFF800000#32) h' hu (ix1 r)
      = (Finset.univ : Finset (Fin n)).fold max (⊥ : EReal) (fun j => x (ix2 r j)) := by
  rw [Host.reduce_eq_fold_single FloatOps.maximumf x _ h' h hu]
  have hf : (x ∘ h.lift (ix1 r)) = fun k : Fin n => x (ix2 r k) := funext fun k => congrArg x (lift1_ix2 h r k)
  have hb : (constant (F := Ideal) (⟨0, ![]⟩ : Shape) .f32 0xFF800000#32 (Shape.Idx.first hu)) = (⊥ : EReal) := by
    show Ideal.ofBits .f32 0xFF800000#32 = ⊥
    simp [Ideal.ofBits, Ideal.ieee]
  rw [hb]
  exact congrArg (fun f => Finset.fold max (⊥ : EReal) f (Finset.univ : Finset (Fin n))) hf

/-- From zero the sum over the columns of a row is the sum over the row. -/
theorem hostReduceAdd_row (x : FVec Ideal ⟨2, ![m, n]⟩ .f32)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (r : Fin m) :
    Host.reduceAdd x (constant (⟨0, ![]⟩ : Shape) .f32 0x00000000#32) h' hu (ix1 r) = ∑ j : Fin n, x (ix2 r j) := by
  rw [hostReduceAdd_apply, Ideal.hostReduceAdd_single h' h]
  show Ideal.ofBits .f32 0x00000000#32 + _ = _
  rw [Ideal.ofBits_zero_f32, zero_add]
  exact Finset.sum_congr rfl fun k _ => congrArg x (lift1_ix2 h r k)

end Generic

section GenericRows
variable {m n : Nat}

/-- The row maxima as the program computes them, at a row: the fold of the maximum over the row, from the bottom. -/
theorem rowMaxOp_apply (x : FVec Ideal ⟨2, ![m, n]⟩ .f32)
    (hb : (⟨0, ![]⟩ : Shape).BroadcastsInDim (⟨1, ![m]⟩ : Shape) ![])
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (r : Fin m) :
    maximumf (broadcastInDim (⟨1, ![m]⟩ : Shape) ![] hb (constant (⟨0, ![]⟩ : Shape) .f32 0xFF800000#32))
        (Host.reduce FloatOps.maximumf x (constant (⟨0, ![]⟩ : Shape) .f32 0xFF800000#32) h' hu) (ix1 r)
      = (Finset.univ : Finset (Fin n)).fold max (⊥ : EReal) (fun j => x (ix2 r j)) := by
  rw [maximumf_apply, hostReduceMax_row x h' h hu r, broadcastInDim_scalar_apply]
  show max (Ideal.ofBits .f32 0xFF800000#32) _ = _
  rw [show Ideal.ofBits .f32 0xFF800000#32 = (⊥ : EReal) by simp [Ideal.ofBits, Ideal.ieee], max_bot_left]

/-- The exponential of an entry less a per-row value repeated along the columns. -/
theorem expSub_apply (x : FVec Ideal ⟨2, ![m, n]⟩ .f32) (M : FVec Ideal ⟨1, ![m]⟩ .f32)
    (h1 : (⟨1, ![m]⟩ : Shape).BroadcastsInDim ⟨2, ![m, 1]⟩ ![0])
    (h2 : (⟨2, ![m, 1]⟩ : Shape).BroadcastsInDim ⟨2, ![m, n]⟩ ![0, 1]) (r : Fin m) (j : Fin n) :
    Host.exp (subf x (broadcastInDim ⟨2, ![m, n]⟩ ![0, 1] h2 (broadcastInDim ⟨2, ![m, 1]⟩ ![0] h1 M))) (ix2 r j)
      = Ideal.exp (x (ix2 r j) - M (ix1 r)) := by
  show Ideal.exp (x (ix2 r j) - broadcastInDim ⟨2, ![m, n]⟩ ![0, 1] h2 (broadcastInDim ⟨2, ![m, 1]⟩ ![0] h1 M) (ix2 r j)) = _
  rw [colBroadcast_apply]

/-- An entry over a per-row value repeated along the columns. -/
theorem divRows_apply (e : FVec Ideal ⟨2, ![m, n]⟩ .f32) (S : FVec Ideal ⟨1, ![m]⟩ .f32)
    (h1 : (⟨1, ![m]⟩ : Shape).BroadcastsInDim ⟨2, ![m, 1]⟩ ![0])
    (h2 : (⟨2, ![m, 1]⟩ : Shape).BroadcastsInDim ⟨2, ![m, n]⟩ ![0, 1]) (r : Fin m) (j : Fin n) :
    Host.divf e (broadcastInDim ⟨2, ![m, n]⟩ ![0, 1] h2 (broadcastInDim ⟨2, ![m, 1]⟩ ![0] h1 S)) (ix2 r j)
      = Ideal.div (e (ix2 r j)) (S (ix1 r)) := by
  rw [hostDivf_apply, colBroadcast_apply]

end GenericRows

/-! ## The stages of the reference at an index -/

section Stages
variable [Facts]
open Facts₀ Facts

/-- A dense layer from 512 to 32 columns at an entry is the specification's linear layer. -/
theorem dense512x32_apply (x : FVec Ideal S8192x512 .f32) (W : FVec Ideal S512x32 .f32) (b : FVec Ideal S32 .f32)
    (r : Fin 8192) (c : Fin 32) :
    dense512x32 x W b (ix2 r c)
      = Attn.lin (fun r d => x (ix2 r d)) (fun d c => W (ix2 d c)) (fun c => b (ix1 c)) r c := by
  unfold dense512x32 Attn.lin
  exact congrArg₂ (· + ·) (dotPlain_apply dot_S8192x512_S512x32_S8192x32_1_0_0_1_n_n rfl x W r c)
    (biasRows_apply bcast_S32_S1x32_1 bcast_S1x32_S8192x32_0_1 b r c)

/-- A dense layer from 32 to 32 columns at an entry is the specification's linear layer. -/
theorem dense32x32_apply (x : FVec Ideal S8192x32 .f32) (W : FVec Ideal S32x32 .f32) (b : FVec Ideal S32 .f32)
    (r : Fin 8192) (c : Fin 32) :
    dense32x32 x W b (ix2 r c)
      = Attn.lin (fun r d => x (ix2 r d)) (fun d c => W (ix2 d c)) (fun c => b (ix1 c)) r c := by
  unfold dense32x32 Attn.lin
  exact congrArg₂ (· + ·) (dotPlain_apply dot_S8192x32_S32x32_S8192x32_1_0_0_1_n_n rfl x W r c)
    (biasRows_apply bcast_S32_S1x32_1 bcast_S1x32_S8192x32_0_1 b r c)

/-- A dense layer from 512 to 256 columns at an entry is the specification's linear layer. -/
theorem dense512x256_apply (x : FVec Ideal S8192x512 .f32) (W : FVec Ideal S512x256 .f32) (b : FVec Ideal S256 .f32)
    (r : Fin 8192) (c : Fin 256) :
    dense512x256 x W b (ix2 r c)
      = Attn.lin (fun r d => x (ix2 r d)) (fun d c => W (ix2 d c)) (fun c => b (ix1 c)) r c := by
  unfold dense512x256 Attn.lin
  exact congrArg₂ (· + ·) (dotPlain_apply dot_S8192x512_S512x256_S8192x256_1_0_0_1_n_n rfl x W r c)
    (biasRows_apply bcast_S256_S1x256_1 bcast_S1x256_S8192x256_0_1 b r c)

/-- The attention features at an entry are the specification's two-layer perceptron. -/
theorem feat_apply (x : FVec Ideal S8192x512 .f32) (W1 : FVec Ideal S512x32 .f32) (b1 : FVec Ideal S32 .f32)
    (W2 : FVec Ideal S32x32 .f32) (b2 : FVec Ideal S32 .f32) (r : Fin 8192) (h : Fin 32) :
    feat x W1 b1 W2 b2 (ix2 r h)
      = Attn.mlp (fun r d => x (ix2 r d)) (fun d c => W1 (ix2 d c)) (fun c => b1 (ix1 c))
          (fun c h => W2 (ix2 c h)) (fun h => b2 (ix1 h)) r h := by
  unfold feat Attn.mlp
  have e : (fun (r : Fin 8192) (d : Fin 32) => Host.tanh (dense512x32 x W1 b1) (ix2 r d))
      = fun r c => Ideal.tanh (Attn.lin (fun r d => x (ix2 r d)) (fun d c => W1 (ix2 d c)) (fun c => b1 (ix1 c)) r c) :=
    funext fun r' => funext fun d => congrArg Ideal.tanh (dense512x32_apply x W1 b1 r' d)
  rw [dense32x32_apply, e]

/-- The logits at an entry are the inner product of the two feature rows. -/
theorem logits_apply (q k : FVec Ideal S8192x32 .f32) (r j : Fin 8192) :
    logits q k (ix2 r j) = Attn.logit (fun r h => q (ix2 r h)) (fun j h => k (ix2 j h)) r j := by
  unfold logits Attn.logit
  exact dotTransposedRhs_apply dot_S8192x32_S8192x32_S8192x8192_1_1_0_0_n_n rfl q k r j

/-- The leaky rectifier with the program's slope, at an entry. -/
theorem leakyRelu_apply (x : FVec Ideal S8192x8192 .f32) (i : S8192x8192.Idx) :
    leakyRelu x (constant S_ .f32 0x3C23D70A#32) i = Attn.leaky (x i) := by
  unfold leakyRelu Attn.leaky Attn.slope
  have hz : broadcastInDim S8192x8192 ![] bcast_S_S8192x8192 (constant (F := Ideal) S_ .f32 0x00000000#32) i = (0 : EReal) :=
    (broadcastInDim_scalar_apply _ _ i).trans Ideal.ofBits_zero_f32
  have hs : broadcastInDim S8192x8192 ![] bcast_S_S8192x8192 (id (constant (F := Ideal) S_ .f32 0x3C23D70A#32)) i
      = Ideal.ofBits .f32 0x3C23D70A#32 := broadcastInDim_scalar_apply _ _ i
  show Scalar.select (Ideal.cmp .oge (x i)
        (broadcastInDim S8192x8192 ![] bcast_S_S8192x8192 (constant (F := Ideal) S_ .f32 0x00000000#32) i)) (x i)
      (broadcastInDim S8192x8192 ![] bcast_S_S8192x8192 (id (constant (F := Ideal) S_ .f32 0x3C23D70A#32)) i * x i) = _
  rw [hz, hs]
  by_cases h : (0 : EReal) ≤ x i <;> simp [Scalar.select, Ideal.cmp, h]

/-- The adjacency mask at an entry. -/
theorem masked_apply (adj : IVec S8192x8192 32) (x : FVec Ideal S8192x8192 .f32) (i : S8192x8192.Idx) :
    masked adj x i = if (0#32).slt (adj i) = true then x i else Attn.negBig := by
  unfold masked Attn.negBig
  have hc : broadcastInDim S8192x8192 ![] bcast_S_S8192x8192 (constantI S_ 32 0#32) i = 0#32 :=
    broadcastInDim_scalar_apply _ _ i
  have hf : broadcastInDim S8192x8192 ![] bcast_S_S8192x8192 (constant (F := Ideal) S_ .f32 0xD9FFCB9E#32) i
      = Ideal.ofBits .f32 0xD9FFCB9E#32 := broadcastInDim_scalar_apply _ _ i
  show Scalar.select (IntOp.cmpi .sgt (adj i) (broadcastInDim S8192x8192 ![] bcast_S_S8192x8192 (constantI S_ 32 0#32) i))
      (x i) (broadcastInDim S8192x8192 ![] bcast_S_S8192x8192 (constant (F := Ideal) S_ .f32 0xD9FFCB9E#32) i) = _
  rw [hc, hf]
  by_cases h : (0#32).slt (adj i) = true <;> simp [Scalar.select, IntOp.cmpi, h]

/-- The row maxima at a row are the specification's row maximum. -/
theorem rowMaxima_apply (s : FVec Ideal S8192x8192 .f32) (r : Fin 8192) :
    rowMaxima s (ix1 r) = Attn.rowMax (fun j => s (ix2 r j)) := by
  unfold rowMaxima Attn.rowMax
  exact rowMaxOp_apply s bcast_S_S8192 reducesTo_S8192x8192_S8192_d1 (by decide) h_S_ r

/-- The shifted exponentials at an entry. -/
theorem expShifted_apply (s : FVec Ideal S8192x8192 .f32) (r j : Fin 8192) :
    expShifted s (ix2 r j) = Ideal.exp (s (ix2 r j) - Attn.rowMax (fun j' => s (ix2 r j'))) := by
  unfold expShifted
  rw [expSub_apply s (rowMaxima s) bcast_S8192_S8192x1_0 bcast_S8192x1_S8192x8192_0_1 r j, rowMaxima_apply]

/-- The softmax at an entry. -/
theorem softmax_apply (s : FVec Ideal S8192x8192 .f32) (r j : Fin 8192) :
    softmax s (ix2 r j)
      = Ideal.div (Ideal.exp (s (ix2 r j) - Attn.rowMax (fun j' => s (ix2 r j'))))
          (∑ j' : Fin 8192, Ideal.exp (s (ix2 r j') - Attn.rowMax (fun j'' => s (ix2 r j'')))) := by
  unfold softmax
  rw [divRows_apply (expShifted s) _ bcast_S8192_S8192x1_0 bcast_S8192x1_S8192x8192_0_1 r j,
    hostReduceAdd_row (expShifted s) reducesTo_S8192x8192_S8192_d1 (by decide) h_S_ r]
  simp only [expShifted_apply]

/-- The aggregate at an entry is the specification's softmax-weighted sum of the value rows. -/
theorem aggregate_apply (s : FVec Ideal S8192x8192 .f32) (v : FVec Ideal S8192x256 .f32) (r : Fin 8192) (c : Fin 256) :
    aggregate s v (ix2 r c) = Attn.refAgg (fun j => s (ix2 r j)) (fun j c => v (ix2 j c)) c := by
  unfold aggregate Attn.refAgg
  rw [dotPlain_apply dot_S8192x8192_S8192x256_S8192x256_1_0_0_1_n_n rfl (softmax s) v r c]
  simp only [softmax_apply]

/-- Two blocks of 256 columns side by side, at an entry: the left block below column 256, the right block from it on. -/
theorem concat_apply (p q : FVec Ideal S8192x256 .f32) (r : Fin 8192) (col : Fin 512) :
    concatenate S8192x512 1 [⟨S8192x256, p⟩, ⟨S8192x256, q⟩] concatenates_S8192x256_S8192x256_S8192x512_d1 (ix2 r col)
      = Attn.outOf (fun r c => q (ix2 r c)) (fun r c => p (ix2 r c)) r col := by
  unfold Attn.outOf
  by_cases h : col.val < 256
  · rw [dif_pos h]
    refine concatenate_pair_apply_left 1 p q _ (ix2 r col) rfl (ix2 r (⟨col.val, h⟩ : Fin 256)) ?_
    intro b
    fin_cases b <;> rfl
  · rw [dif_neg h]
    have hc := col.isLt
    refine concatenate_pair_apply_right 1 p q _ (ix2 r col) rfl rfl (ix2 r (⟨col.val - 256, by omega⟩ : Fin 256)) ?_ ?_
    · intro b hb
      fin_cases b
      · rfl
      · exact absurd rfl hb
    · show col.val - 256 + 256 = col.val
      omega

end Stages

/-! ## The whole term -/

/-- The fifteen arrays as the specification takes its arguments: curried functions of the coordinates. -/
def vecArgs (a0 a1 : FVec Ideal S8192x512 .f32) (a2 : IVec S8192x8192 32)
    (a3 : FVec Ideal S512x32 .f32) (a4 : FVec Ideal S32 .f32) (a5 : FVec Ideal S32x32 .f32) (a6 : FVec Ideal S32 .f32)
    (a7 : FVec Ideal S512x32 .f32) (a8 : FVec Ideal S32 .f32) (a9 : FVec Ideal S32x32 .f32) (a10 : FVec Ideal S32 .f32)
    (a11 : FVec Ideal S512x256 .f32) (a12 : FVec Ideal S256 .f32) (a13 : FVec Ideal S512x256 .f32)
    (a14 : FVec Ideal S256 .f32) : Attn.Args where
  x := fun r d => a0 (ix2 r d)
  ng := fun r d => a1 (ix2 r d)
  adj := fun r j => a2 (ix2 r j)
  Wx1 := fun d k => a3 (ix2 d k)
  bx1 := fun k => a4 (ix1 k)
  Wx2 := fun k h => a5 (ix2 k h)
  bx2 := fun h => a6 (ix1 h)
  Wn1 := fun d k => a7 (ix2 d k)
  bn1 := fun k => a8 (ix1 k)
  Wn2 := fun k h => a9 (ix2 k h)
  bn2 := fun h => a10 (ix1 h)
  Wv := fun d e => a11 (ix2 d e)
  bv := fun e => a12 (ix1 e)
  Wfx := fun d e => a13 (ix2 d e)
  bfx := fun e => a14 (ix1 e)

section Whole
variable [Facts]
open Facts₀ Facts

variable (a0 a1 : FVec Ideal S8192x512 .f32) (a2 : IVec S8192x8192 32)
    (a3 : FVec Ideal S512x32 .f32) (a4 : FVec Ideal S32 .f32) (a5 : FVec Ideal S32x32 .f32) (a6 : FVec Ideal S32 .f32)
    (a7 : FVec Ideal S512x32 .f32) (a8 : FVec Ideal S32 .f32) (a9 : FVec Ideal S32x32 .f32) (a10 : FVec Ideal S32 .f32)
    (a11 : FVec Ideal S512x256 .f32) (a12 : FVec Ideal S256 .f32) (a13 : FVec Ideal S512x256 .f32)
    (a14 : FVec Ideal S256 .f32)

local notation "AA" => vecArgs a0 a1 a2 a3 a4 a5 a6 a7 a8 a9 a10 a11 a12 a13 a14

/-- The masked scores at an entry are the specification's score of the logits of the two feature sets. -/
theorem scores_apply (r j : Fin 8192) :
    scores a0 a1 a2 a3 a4 a5 a6 a7 a8 a9 a10 (ix2 r j)
      = Attn.score
          (Attn.logit
            (Attn.mlp (fun r d => a0 (ix2 r d)) (fun d k => a3 (ix2 d k)) (fun k => a4 (ix1 k))
              (fun k h => a5 (ix2 k h)) (fun h => a6 (ix1 h)))
            (Attn.mlp (fun r d => a1 (ix2 r d)) (fun d k => a7 (ix2 d k)) (fun k => a8 (ix1 k))
              (fun k h => a9 (ix2 k h)) (fun h => a10 (ix1 h))))
          (fun r j => a2 (ix2 r j)) r j := by
  unfold scores Attn.score
  have e1 : (fun (r : Fin 8192) (h : Fin 32) => feat a0 a3 a4 a5 a6 (ix2 r h))
      = Attn.mlp (fun r d => a0 (ix2 r d)) (fun d k => a3 (ix2 d k)) (fun k => a4 (ix1 k))
          (fun k h => a5 (ix2 k h)) (fun h => a6 (ix1 h)) :=
    funext fun r => funext fun h => feat_apply a0 a3 a4 a5 a6 r h
  have e2 : (fun (r : Fin 8192) (h : Fin 32) => feat a1 a7 a8 a9 a10 (ix2 r h))
      = Attn.mlp (fun r d => a1 (ix2 r d)) (fun d k => a7 (ix2 d k)) (fun k => a8 (ix1 k))
          (fun k h => a9 (ix2 k h)) (fun h => a10 (ix1 h)) :=
    funext fun r => funext fun h => feat_apply a1 a7 a8 a9 a10 r h
  rw [masked_apply, leakyRelu_apply, logits_apply, e1, e2]

/-- The term at an entry is the specification's reference result of the fifteen arrays. -/
theorem refTerm_apply' (r : Fin 8192) (col : Fin 512) :
    refTerm a0 a1 a2 a3 a4 a5 a6 a7 a8 a9 a10 a11 a12 a13 a14 (ix2 r col) = (AA).refResult r col := by
  unfold refTerm
  rw [concat_apply]
  have hagg : (fun (r : Fin 8192) (c : Fin 256) =>
        aggregate (scores a0 a1 a2 a3 a4 a5 a6 a7 a8 a9 a10) (dense512x256 a1 a11 a12) (ix2 r c))
      = fun r => Attn.refAgg (Attn.score (AA).lg (AA).adj r) (AA).value := by
    funext r c
    have e1 : (fun j => scores a0 a1 a2 a3 a4 a5 a6 a7 a8 a9 a10 (ix2 r j)) = Attn.score (AA).lg (AA).adj r :=
      funext fun j => scores_apply a0 a1 a2 a3 a4 a5 a6 a7 a8 a9 a10 r j
    have e2 : (fun (j : Fin 8192) (c : Fin 256) => dense512x256 a1 a11 a12 (ix2 j c)) = (AA).value :=
      funext fun j => funext fun c => dense512x256_apply a1 a11 a12 j c
    rw [aggregate_apply, e1, e2]
  have hox : (fun (r : Fin 8192) (c : Fin 256) => dense512x256 a0 a13 a14 (ix2 r c)) = (AA).outX :=
    funext fun r => funext fun c => dense512x256_apply a0 a13 a14 r c
  rw [hagg, hox]
  rfl

end Whole

/-- The reference's term over the launch memory's argument buffers, at an entry, is the specification's reference
    result of the arguments. -/
theorem refTerm_apply [Facts] (m : (ℓ : Loc nD τ sig) → Buf (Elt Ideal) ℓ) (c : Dev nD) (r : Fin 8192) (col : Fin 512) :
    refTerm (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14))
        (ix2 r col)
      = (argsOf m c).refResult r col :=
  refTerm_apply' (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14)) r col

end Cert.ReferenceIdeal.Hand

end
-- ==== Proof.OnlineSoftmax.lean ====
/-
  The online softmax is the softmax: walking a real-valued row of scores in eight blocks, carrying the running
  maximum `m`, the normaliser `l = ∑ exp (s j - m)` and the weighted sum `acc = ∑ exp (s j - m) * v j` over the
  keys seen so far (both rescaled by `exp (m_old - m_new)` whenever the maximum grows), ends with
  `acc / l = ∑ j, (exp (s j - M) / ∑ j', exp (s j' - M)) * v j` for the row maximum `M`: the exponential of a
  difference factors, so the shift cancels between numerator and denominator, and a quotient of sums is the sum of
  quotients once everything is a real number.
-/
import proofs.«426227_j46033459479181_3_alg».proof.Proof.AttnSpec
import Mathlib.Data.EReal.Basic
import Mathlib.Data.EReal.Operations
import Mathlib.Data.EReal.Inv
import Mathlib.Data.Finset.Fold
import Mathlib.Analysis.SpecialFunctions.Exp
import Mathlib.Algebra.BigOperators.Fin
import Mathlib.Algebra.BigOperators.Group.Finset.Basic
import Mathlib.Algebra.Order.BigOperators.Ring.Finset
import Mathlib.Tactic.FieldSimp
import Mathlib.Tactic.Ring

noncomputable section

namespace Cert.Attn

open Idealize.ShloMosaic

/-! ## The real-number core -/

/-- Changing the shift of a sum of exponentials from `M` to `M'` multiplies it by `exp (M - M')`. -/
private theorem rescale {ι : Type*} (S : Finset ι) (g w : ι → ℝ) (M M' : ℝ) :
    Real.exp (M - M') * ∑ i ∈ S, Real.exp (g i - M) * w i = ∑ i ∈ S, Real.exp (g i - M') * w i := by
  rw [Finset.mul_sum]
  refine Finset.sum_congr rfl fun i _ => ?_
  rw [← mul_assoc, ← Real.exp_add]
  congr 2
  ring

/-- The same without weights. -/
private theorem rescale_one {ι : Type*} (S : Finset ι) (g : ι → ℝ) (M M' : ℝ) :
    Real.exp (M - M') * ∑ i ∈ S, Real.exp (g i - M) = ∑ i ∈ S, Real.exp (g i - M') := by
  simpa using rescale S g (fun _ => 1) M M'

/-- A sum of exponentials over a nonempty set is positive. -/
private theorem sum_exp_pos {ι : Type*} (S : Finset ι) (hS : S.Nonempty) (g : ι → ℝ) (M : ℝ) :
    0 < ∑ i ∈ S, Real.exp (g i - M) :=
  Finset.sum_pos (fun _ _ => Real.exp_pos _) hS

/-- The shift cancels between the weighted sum and the normaliser: the quotient at shift `M` is the
    sum of the normalised weights at shift `M'`. -/
private theorem softmax_shift {ι : Type*} (S : Finset ι) (hS : S.Nonempty) (g w : ι → ℝ) (M M' : ℝ) :
    (∑ i ∈ S, Real.exp (g i - M) * w i) * (1 / ∑ i ∈ S, Real.exp (g i - M))
      = ∑ i ∈ S, Real.exp (g i - M') * (1 / ∑ i' ∈ S, Real.exp (g i' - M')) * w i := by
  have hD : 0 < ∑ i ∈ S, Real.exp (g i - M') := sum_exp_pos S hS g M'
  have hE : 0 < Real.exp (M' - M) := Real.exp_pos _
  rw [← rescale S g w M' M, ← rescale_one S g M' M]
  have hR : ∑ i ∈ S, Real.exp (g i - M') * (1 / ∑ i' ∈ S, Real.exp (g i' - M')) * w i
      = (∑ i ∈ S, Real.exp (g i - M') * w i) * (1 / ∑ i' ∈ S, Real.exp (g i' - M')) := by
    rw [Finset.sum_mul]
    exact Finset.sum_congr rfl fun i _ => by ring
  rw [hR]
  field_simp

/-! ## Coercions -/

/-- The coercion of a finite sum of real numbers is the sum of the coercions. -/
private theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The coercion of a maximum of two real numbers. -/
private theorem coe_max' (x y : ℝ) : max (x : EReal) (y : EReal) = ((max x y : ℝ) : EReal) :=
  (EReal.coe_strictMono.monotone.map_max).symm

/-- The maximum from the bottom element of a nonempty family of real numbers is a real number. -/
private theorem fold_max_real {ι : Type*} (S : Finset ι) (hS : S.Nonempty) (f : ι → ℝ) :
    ∃ M : ℝ, S.fold max ⊥ (fun i => (f i : EReal)) = (M : EReal) := by
  have h1 : S.fold max ⊥ (fun i => (f i : EReal)) ≠ ⊤ := by
    apply ne_of_lt
    rw [Finset.fold_max_lt]
    exact ⟨bot_lt_top, fun x _ => EReal.coe_lt_top _⟩
  have h2 : S.fold max ⊥ (fun i => (f i : EReal)) ≠ ⊥ := by
    apply ne_of_gt
    rw [Finset.lt_fold_max]
    obtain ⟨x, hx⟩ := hS
    exact Or.inr ⟨x, hx, EReal.bot_lt_coe _⟩
  exact ⟨_, (EReal.coe_toReal h1 h2).symm⟩

/-- The masked fill is a real number. -/
private theorem negBig_eq_coe : ∃ N : ℝ, negBig = (N : EReal) := by
  unfold negBig Ideal.ofBits Ideal.ieee
  simp only []
  rw [if_neg (by decide), if_neg (by decide)]
  exact ⟨_, rfl⟩

/-! ## One block -/

/-- One block on a real state and real block data: the new maximum is real, and the normaliser and the weighted sum
    are the rescaled old ones plus the block's terms. -/
private theorem step_real (sb : Fin 1024 → ℝ) (vb : Fin 1024 → Fin 256 → ℝ) (st : St) (M L : ℝ) (A : Fin 256 → ℝ)
    (hm : st.m = (M : EReal)) (hl : st.l = (L : EReal)) (ha : ∀ c, st.acc c = (A c : EReal)) :
    ∃ M' : ℝ, (St.step (fun q => (sb q : EReal)) (fun q c => (vb q c : EReal)) st).m = (M' : EReal) ∧
      (St.step (fun q => (sb q : EReal)) (fun q c => (vb q c : EReal)) st).l
        = ((Real.exp (M - M') * L + ∑ q : Fin 1024, Real.exp (sb q - M') : ℝ) : EReal) ∧
      ∀ c, (St.step (fun q => (sb q : EReal)) (fun q c => (vb q c : EReal)) st).acc c
        = ((Real.exp (M - M') * A c + ∑ q : Fin 1024, Real.exp (sb q - M') * vb q c : ℝ) : EReal) := by
  obtain ⟨B, hB⟩ := fold_max_real (Finset.univ : Finset (Fin 1024)) ⟨⟨0, by norm_num⟩, Finset.mem_univ _⟩ sb
  have hmn : max st.m (blkMax (fun q => (sb q : EReal))) = ((max M B : ℝ) : EReal) := by
    rw [hm, blkMax, hB, coe_max']
  refine ⟨max M B, hmn, ?_, fun c => ?_⟩
  · show Ideal.exp (st.m - max st.m (blkMax (fun q => (sb q : EReal)))) * st.l
        + ∑ q : Fin 1024, Ideal.exp ((sb q : EReal) - max st.m (blkMax (fun q => (sb q : EReal)))) = _
    rw [hmn, hm, hl]
    simp only [← EReal.coe_sub, Ideal.exp_coe, ← EReal.coe_mul, ← coe_sum, ← EReal.coe_add]
  · show Ideal.exp (st.m - max st.m (blkMax (fun q => (sb q : EReal)))) * st.acc c
        + ∑ q : Fin 1024, Ideal.exp ((sb q : EReal) - max st.m (blkMax (fun q => (sb q : EReal)))) * (vb q c : EReal) = _
    rw [hmn, hm, ha c]
    simp only [← EReal.coe_sub, Ideal.exp_coe, ← EReal.coe_mul, ← coe_sum, ← EReal.coe_add]

/-! ## The keys seen so far, counted along the natural numbers -/

/-- A function on the 8192 keys, extended by zero to every natural number. -/
private def extN (f : Fin 8192 → ℝ) (i : ℕ) : ℝ := if h : i < 8192 then f ⟨i, h⟩ else 0

private theorem extN_keyOf (f : Fin 8192 → ℝ) (k : ℕ) (hk : k < 8) (q : Fin 1024) :
    f (keyOf k q) = extN f (1024 * k + q.val) := by
  have h : 1024 * k + q.val < 8192 := by have := q.isLt; omega
  rw [keyOf, dif_pos h, extN, dif_pos h]

private theorem extN_val (f : Fin 8192 → ℝ) (j : Fin 8192) : extN f j.val = f j := by
  rw [extN, dif_pos j.isLt]

/-- After `k ≤ 8` blocks the state is real: for some real shift `M`, the normaliser is the sum of `exp (s j - M)` over the
    first `1024 * k` keys and the weighted sum is the sum of `exp (s j - M) * v j c` over them. -/
private theorem online_inv (s' : Fin 8192 → ℝ) (v' : Fin 8192 → Fin 256 → ℝ) (k : ℕ) (hk : k ≤ 8) :
    ∃ M : ℝ, (online (fun j => (s' j : EReal)) (fun j c => (v' j c : EReal)) k).m = (M : EReal) ∧
      (online (fun j => (s' j : EReal)) (fun j c => (v' j c : EReal)) k).l
        = ((∑ i ∈ Finset.range (1024 * k), Real.exp (extN s' i - M) : ℝ) : EReal) ∧
      ∀ c, (online (fun j => (s' j : EReal)) (fun j c => (v' j c : EReal)) k).acc c
        = ((∑ i ∈ Finset.range (1024 * k), Real.exp (extN s' i - M) * extN (fun j => v' j c) i : ℝ) : EReal) := by
  induction k with
  | zero =>
    obtain ⟨N, hN⟩ := negBig_eq_coe
    refine ⟨N, hN, ?_, fun c => ?_⟩
    · show (0 : EReal) = _
      simp
    · show (0 : EReal) = _
      simp
  | succ k ih =>
    have hk' : k < 8 := by omega
    obtain ⟨M, hm, hl, ha⟩ := ih (by omega)
    obtain ⟨M', hm', hl', ha'⟩ := step_real (fun q => s' (keyOf k q)) (fun q c => v' (keyOf k q) c)
      (online (fun j => (s' j : EReal)) (fun j c => (v' j c : EReal)) k) M _ _ hm hl ha
    refine ⟨M', hm', ?_, fun c => ?_⟩
    · refine hl'.trans ?_
      congr 1
      rw [rescale_one, show 1024 * (k + 1) = 1024 * k + 1024 by ring, Finset.sum_range_add,
        Finset.sum_range (fun x => Real.exp (extN s' (1024 * k + x) - M'))]
      congr 1
      exact Finset.sum_congr rfl fun q _ => by rw [extN_keyOf s' k hk' q]
    · refine (ha' c).trans ?_
      congr 1
      rw [rescale, show 1024 * (k + 1) = 1024 * k + 1024 by ring, Finset.sum_range_add,
        Finset.sum_range (fun x => Real.exp (extN s' (1024 * k + x) - M') * extN (fun j => v' j c) (1024 * k + x))]
      congr 1
      exact Finset.sum_congr rfl fun q _ => by
        rw [extN_keyOf s' k hk' q, extN_keyOf (fun j => v' j c) k hk' q]

/-! ## The two aggregates -/

/-- The kernel's aggregate over real data: for some real shift `M`, the weighted sum over the normaliser. -/
private theorem onlineAgg_real (s' : Fin 8192 → ℝ) (v' : Fin 8192 → Fin 256 → ℝ) (c : Fin 256) :
    ∃ M : ℝ, onlineAgg (fun j => (s' j : EReal)) (fun j c => (v' j c : EReal)) c
      = (((∑ j : Fin 8192, Real.exp (s' j - M) * v' j c) * (1 / ∑ j : Fin 8192, Real.exp (s' j - M)) : ℝ) : EReal) := by
  obtain ⟨M, -, hl, ha⟩ := online_inv s' v' 8 le_rfl
  refine ⟨M, ?_⟩
  have e1 : ∑ i ∈ Finset.range (1024 * 8), Real.exp (extN s' i - M) = ∑ j : Fin 8192, Real.exp (s' j - M) := by
    rw [show 1024 * 8 = 8192 by norm_num, Finset.sum_range (fun i => Real.exp (extN s' i - M))]
    exact Finset.sum_congr rfl fun j _ => by rw [extN_val]
  have e2 : ∑ i ∈ Finset.range (1024 * 8), Real.exp (extN s' i - M) * extN (fun j => v' j c) i
      = ∑ j : Fin 8192, Real.exp (s' j - M) * v' j c := by
    rw [show 1024 * 8 = 8192 by norm_num,
      Finset.sum_range (fun i => Real.exp (extN s' i - M) * extN (fun j => v' j c) i)]
    exact Finset.sum_congr rfl fun j _ => by rw [extN_val, extN_val]
  have hpos : 0 < ∑ j : Fin 8192, Real.exp (s' j - M) :=
    sum_exp_pos _ ⟨⟨0, by norm_num⟩, Finset.mem_univ _⟩ s' M
  rw [onlineAgg, hl, ha c, e1, e2, Ideal.div_coe (ne_of_gt hpos), ← EReal.coe_mul]

/-- The reference's aggregate over real data: for some real shift `M`, the sum of the normalised weights times the values. -/
private theorem refAgg_real (s' : Fin 8192 → ℝ) (v' : Fin 8192 → Fin 256 → ℝ) (c : Fin 256) :
    ∃ M : ℝ, refAgg (fun j => (s' j : EReal)) (fun j c => (v' j c : EReal)) c
      = ((∑ j : Fin 8192, Real.exp (s' j - M) * (1 / ∑ j' : Fin 8192, Real.exp (s' j' - M)) * v' j c : ℝ) : EReal) := by
  obtain ⟨M, hM⟩ := fold_max_real (Finset.univ : Finset (Fin 8192)) ⟨⟨0, by norm_num⟩, Finset.mem_univ _⟩ s'
  refine ⟨M, ?_⟩
  have hpos : 0 < ∑ j : Fin 8192, Real.exp (s' j - M) :=
    sum_exp_pos _ ⟨⟨0, by norm_num⟩, Finset.mem_univ _⟩ s' M
  have hden : ∑ j' : Fin 8192, Ideal.exp ((s' j' : EReal) - (M : EReal))
      = ((∑ j' : Fin 8192, Real.exp (s' j' - M) : ℝ) : EReal) := by
    simp only [← EReal.coe_sub, Ideal.exp_coe, ← coe_sum]
  show ∑ j : Fin 8192, Ideal.div (Ideal.exp ((s' j : EReal) - rowMax (fun j => (s' j : EReal))))
      (∑ j' : Fin 8192, Ideal.exp ((s' j' : EReal) - rowMax (fun j => (s' j : EReal)))) * (v' j c : EReal) = _
  rw [rowMax, hM, hden]
  simp only [Ideal.div_coe (ne_of_gt hpos), ← EReal.coe_sub, Ideal.exp_coe, ← EReal.coe_mul, ← coe_sum]

/-- For a real-valued row of scores and real-valued value rows the kernel's blockwise aggregate is the reference's
    softmax-weighted sum. -/
theorem onlineAgg_eq_refAgg (s : Fin 8192 → EReal) (v : Fin 8192 → Fin 256 → EReal) (hs : Real1 s) (hv : Real2 v)
    (c : Fin 256) : onlineAgg s v c = refAgg s v c := by
  obtain ⟨s', rfl⟩ : ∃ s' : Fin 8192 → ℝ, s = fun j => (s' j : EReal) :=
    ⟨fun j => (s j).toReal, funext fun j => (EReal.coe_toReal (hs j).1 (hs j).2).symm⟩
  obtain ⟨v', rfl⟩ : ∃ v' : Fin 8192 → Fin 256 → ℝ, v = fun j c => (v' j c : EReal) :=
    ⟨fun j c => (v j c).toReal, funext fun j => funext fun c => (EReal.coe_toReal (hv j c).1 (hv j c).2).symm⟩
  obtain ⟨M, hK⟩ := onlineAgg_real s' v' c
  obtain ⟨M', hR⟩ := refAgg_real s' v' c
  rw [hK, hR, softmax_shift Finset.univ ⟨⟨0, by norm_num⟩, Finset.mem_univ _⟩ s' (fun j => v' j c) M M']

end Cert.Attn

end
-- ==== Proof.RealArgs.lean ====
/-
  Real-valuedness travels through the dense layers: sums and products of real numbers are real, the hyperbolic
  tangent of a real number is real, the two literals (the masked fill and the rectifier's slope) are real; so with
  every float argument real the logits, the masked scores and the value rows are real, and the kernel's result is
  the reference's.
-/
import Mathlib.Data.EReal.Basic
import Mathlib.Data.EReal.Operations
import proofs.«426227_j46033459479181_3_alg».proof.Proof.AttnSpec
import proofs.«426227_j46033459479181_3_alg».proof.Proof.OnlineSoftmax

noncomputable section

namespace Cert.Attn

open Idealize.ShloMosaic

/-- The sum of two real numbers is real. -/
private theorem real_add {x y : EReal} (hx : x ≠ ⊤ ∧ x ≠ ⊥) (hy : y ≠ ⊤ ∧ y ≠ ⊥) : x + y ≠ ⊤ ∧ x + y ≠ ⊥ := by
  lift x to ℝ using hx
  lift y to ℝ using hy
  rw [← EReal.coe_add]
  exact ⟨EReal.coe_ne_top _, EReal.coe_ne_bot _⟩

/-- The product of two real numbers is real. -/
private theorem real_mul {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

/-- A finite sum of real numbers is real. -/
private theorem real_sum {ι : Type} (s : Finset ι) (f : ι → EReal) (h : ∀ i, f i ≠ ⊤ ∧ f i ≠ ⊥) :
    (∑ i ∈ s, f i) ≠ ⊤ ∧ (∑ i ∈ s, f i) ≠ ⊥ := by
  classical
  refine Finset.induction_on s ?_ ?_
  · rw [Finset.sum_empty]
    exact ⟨EReal.zero_ne_top, EReal.zero_ne_bot⟩
  · intro a t ha ih
    rw [Finset.sum_insert ha]
    exact real_add (h a) ih

/-- The hyperbolic tangent of a real number is real. -/
private theorem real_tanh {x : EReal} (hx : x ≠ ⊤ ∧ x ≠ ⊥) : Ideal.tanh x ≠ ⊤ ∧ Ideal.tanh x ≠ ⊥ := by
  lift x to ℝ using hx
  have : Ideal.tanh (x : EReal) = ((Real.tanh x : ℝ) : EReal) := rfl
  rw [this]
  exact ⟨EReal.coe_ne_top _, EReal.coe_ne_bot _⟩

theorem negBig_real : negBig ≠ ⊤ ∧ negBig ≠ ⊥ := by
  simp [negBig, Ideal.ofBits, Ideal.ieee, -EReal.coe_mul]

theorem slope_real : slope ≠ ⊤ ∧ slope ≠ ⊥ := by
  simp [slope, Ideal.ofBits, Ideal.ieee, -EReal.coe_mul]

/-- The leaky rectifier of a real number is real. -/
private theorem real_leaky {x : EReal} (hx : x ≠ ⊤ ∧ x ≠ ⊥) : leaky x ≠ ⊤ ∧ leaky x ≠ ⊥ := by
  unfold leaky
  split
  · exact hx
  · exact real_mul slope_real hx

/-- A masked score row over real logits is real. -/
theorem score_real (lg : Fin 8192 → Fin 8192 → EReal) (adj : Fin 8192 → Fin 8192 → BitVec 32) (h : Real2 lg)
    (r : Fin 8192) : Real1 (score lg adj r) := by
  intro j
  unfold score
  split
  · exact real_leaky (h r j)
  · exact negBig_real

theorem lin_real {n k p : ℕ} (x : Fin n → Fin k → EReal) (W : Fin k → Fin p → EReal) (b : Fin p → EReal)
    (hx : Real2 x) (hW : Real2 W) (hb : Real1 b) : Real2 (lin x W b) := by
  intro r c
  unfold lin
  exact real_add (real_sum _ _ fun d => real_mul (hx r d) (hW d c)) (hb c)

theorem mlp_real {n k p q : ℕ} (x : Fin n → Fin k → EReal) (W1 : Fin k → Fin p → EReal) (b1 : Fin p → EReal)
    (W2 : Fin p → Fin q → EReal) (b2 : Fin q → EReal)
    (hx : Real2 x) (hW1 : Real2 W1) (hb1 : Real1 b1) (hW2 : Real2 W2) (hb2 : Real1 b2) : Real2 (mlp x W1 b1 W2 b2) := by
  unfold mlp
  exact lin_real _ W2 b2 (fun r c => real_tanh (lin_real x W1 b1 hx hW1 hb1 r c)) hW2 hb2

theorem logit_real (xa na : Fin 8192 → Fin 32 → EReal) (hx : Real2 xa) (hn : Real2 na) : Real2 (logit xa na) := by
  intro r j
  unfold logit
  exact real_sum _ _ fun d => real_mul (hx r d) (hn j d)

theorem Args.Finite.lg_real {a : Args} (h : a.Finite) : Real2 a.lg := by
  unfold Args.lg Args.xAtt Args.nAtt
  exact logit_real _ _ (mlp_real _ _ _ _ _ h.x h.Wx1 h.bx1 h.Wx2 h.bx2)
    (mlp_real _ _ _ _ _ h.ng h.Wn1 h.bn1 h.Wn2 h.bn2)

theorem Args.Finite.value_real {a : Args} (h : a.Finite) : Real2 a.value := by
  unfold Args.value
  exact lin_real _ _ _ h.ng h.Wv h.bv

/-- With every float argument real-valued the kernel's result is the reference's. -/
theorem Args.kernelResult_eq_refResult (a : Args) (h : a.Finite) : a.kernelResult = a.refResult := by
  unfold Args.kernelResult Args.refResult kernelOut refOut
  funext r c
  unfold outOf
  split
  · rfl
  · exact onlineAgg_eq_refAgg _ _ (score_real _ _ h.lg_real r) h.value_real _

end Cert.Attn

end
-- ==== Proof.lean ====
/-
  The certificate of the attention-aggregation kernel against its jnp reference.

  Both programs first apply the same dense layers to the arguments: a two-layer perceptron with a hyperbolic tangent
  gives the query rows' and the key rows' 32 attention features, one linear layer the value rows, another the
  projected query rows. The reference then forms all 8192 × 8192 logits, rectifies them (slope 0.01), replaces the
  logits of non-adjacent pairs by the finite fill -9e15, takes the softmax of each row, multiplies by the value rows
  and concatenates the projected query rows with the result. The kernel never forms the whole score matrix: for each
  tile of 2048 query rows it walks the keys in eight blocks of 1024, carrying per row a running maximum (seeded with the
  fill), a normaliser and a weighted sum, rescaling the last two whenever the maximum grows, and divides at the end.

  At the ideal instance (floats are extended reals, operations exact) the two agree: with every float argument a real
  number every intermediate value is a real number, the exponential of a difference factors, so the shift by the
  running maximum cancels between weighted sum and normaliser, and a sum of quotients by one positive number is the
  quotient of the sum. The frames: the kernel body is run symbolically in its three control cases (a tile's first
  key block, a middle one, the last) and the pipeline's launch theorem is applied to relational proof data in which
  the output block is constrained, not named, at the points that only partly overwrite it; the reference is a
  straight line of host operations. The idealization rewrote nothing, so it is preserved trivially.
-/
import proofs.«426227_j46033459479181_3_alg».proof.Defs
import proofs.«426227_j46033459479181_3_alg».proof.Proof.Gen.Kernel
import proofs.«426227_j46033459479181_3_alg».proof.Proof.Gen.KernelIdeal
import proofs.«426227_j46033459479181_3_alg».proof.Proof.Gen.ReferenceIdeal
import proofs.«426227_j46033459479181_3_alg».proof.Proof.Gen.Pre_finite_inputs
import proofs.«426227_j46033459479181_3_alg».proof.Proof.K.Data
import proofs.«426227_j46033459479181_3_alg».proof.Proof.KI.Value
import proofs.«426227_j46033459479181_3_alg».proof.Proof.KI.HostVals
import proofs.«426227_j46033459479181_3_alg».proof.Proof.KI.Finite
import proofs.«426227_j46033459479181_3_alg».proof.Proof.RI.Run
import proofs.«426227_j46033459479181_3_alg».proof.Proof.RI.Value
import proofs.«426227_j46033459479181_3_alg».proof.Proof.RealArgs
import Idealize.ShloMosaic.Adequacy
import Idealize.ShloMosaic.Init

noncomputable section

namespace Cert.Proof

open Idealize.ShloMosaic Idealize.SL.Sem Idealize.ShloMosaic.ValueIdx

/-- The word-level kernel program runs and leaves its arguments unchanged. -/
theorem frame_k : Cert.frame_Kernel := fun m ρ _ => Cert.Kernel.Body.frame (F := Bits) m ρ

/-- So does the idealized kernel program. -/
theorem frame_ki : Cert.frame_KernelIdeal := fun m ρ _ => Cert.KernelIdeal.Body.frame (F := Ideal) m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Hand.run m ρ)

/-- The idealization rewrote no operation. -/
theorem preserves : Cert.preserves_Kernel_KernelIdeal := trivial

/-- From memories agreeing on the arguments both programs end with the kernel's result of the arguments: the kernel by
    its value run and the dense layers read at an entry; the reference because its softmax form is, on real-valued
    arguments, the kernel's blockwise form. -/
theorem algebraic : Cert.algebraic_KernelIdeal_ReferenceIdeal := by
  intro m ρ m' ρ' hpre hagree
  refine ⟨fun c => fun idx => (Cert.KernelIdeal.Hand.argsOf m c).kernelResult (idx 0) (idx 1), ?_, ?_⟩
  · refine (θ_run Cert.KernelIdeal.defs _ _).mono (fun r h c => ⟨?_, (h c).2⟩) (Cert.KernelIdeal.Body.value_run m ρ)
    funext idx
    rw [eq_ix2 idx]
    refine ((h c).1 (idx 0) (idx 1)).trans ?_
    rw [Cert.KernelIdeal.Body.lgK_eq, Cert.KernelIdeal.Body.adjK_eq, Cert.KernelIdeal.Body.valK_eq, Cert.KernelIdeal.Body.oxK_eq]
    rfl
  · refine (θ_run Cert.ReferenceIdeal.defs _ _).mono (fun r h c => ⟨?_, (h c).2⟩) (Cert.ReferenceIdeal.Hand.run m' ρ')
    have hargs : Cert.ReferenceIdeal.Hand.argsOf m' c = Cert.KernelIdeal.Hand.argsOf m c := by
      obtain ⟨e0, e1, e2, e3, e4, e5, e6, e7, e8, e9, e10, e11, e12, e13, e14⟩ := hagree c
      unfold Cert.ReferenceIdeal.Hand.argsOf Cert.KernelIdeal.Hand.argsOf
      rw [e0, e1, e2, e3, e4, e5, e6, e7, e8, e9, e10, e11, e12, e13, e14]
    funext idx
    rw [(h c).1]
    refine (congrArg _ (eq_ix2 idx)).trans ((Cert.ReferenceIdeal.Hand.refTerm_apply m' c (idx 0) (idx 1)).trans ?_)
    rw [hargs]
    exact (congrFun (congrFun (Cert.Attn.Args.kernelResult_eq_refResult _ (Cert.KernelIdeal.Hand.args_finite m hpre c)) (idx 0)) (idx 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
